-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![49152, 768]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S49152x768 : Shape := ⟨2, ![49152, 768]⟩
abbrev S_ : Shape := ⟨0, ![]⟩

class Facts : Prop where
  bcast_S_S49152x768 : S_.BroadcastsInDim S49152x768 (![] : Fin 0 → Fin S49152x768.rank)
  reducesTo_S49152x768_S_d0_1 : S49152x768.ReducesTo [0, 1] S_
  h_S_ : 0 < S_.numel

variable [Facts]

def fn {F : FTy → Type} [FloatOps F] (main_arg0 : FVec F S49152x768 .f32) : IVec S_ 1 :=
  let main_v0 : FVec F S49152x768 .f32 := Host.absf main_arg0
  let main_cst : FVec F S_ .f32 := constant S_ .f32 0x7F800000#32
  let main_v1 : FVec F S49152x768 .f32 := broadcastInDim S49152x768 ![] bcast_S_S49152x768 main_cst
  let main_v2 : IVec S49152x768 1 := cmpf .olt main_v0 main_v1
  let main_c : IVec S_ 1 := constantI S_ 1 1#1
  let main_v3 : IVec S_ 1 := (fun x v => Host.reduce IntOp.andi x v reducesTo_S49152x768_S_d0_1 h_S_) main_v2 main_c
  main_v3
-- ==== Kernel.lean ====
abbrev S1536x768 : Shape := ⟨2, ![1536, 768]⟩
abbrev S1x768 : Shape := ⟨2, ![1, 768]⟩
abbrev S32x1x768 : Shape := ⟨3, ![32, 1, 768]⟩
abbrev S_ : Shape := ⟨0, ![]⟩
abbrev S768 : Shape := ⟨1, ![768]⟩
abbrev S1x1x768 : Shape := ⟨3, ![1, 1, 768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1x768, .f32⟩
  | .local _ .vmem, ⟨1, _⟩ => ⟨S1536x768, .f32⟩
  | .local _ .vmem, ⟨2, _⟩ => ⟨S32x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  v5.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 32 := Scalar.addi v2 c2_i32
  let c32_i32_3 : BitVec 32 := 32#32
  let v7 : BitVec 32 := Scalar.remsi v6 c32_i32_3
  v7.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v8 : BitVec 32 := Scalar.addi v2 c3_i32
  let c32_i32_5 : BitVec 32 := 32#32
  let v9 : BitVec 32 := Scalar.remsi v8 c32_i32_5
  v9.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.addi v2 c4_i32
  let c32_i32_7 : BitVec 32 := 32#32
  let v11 : BitVec 32 := Scalar.remsi v10 c32_i32_7
  v11.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v12 : BitVec 32 := Scalar.addi v2 c5_i32
  let c32_i32_9 : BitVec 32 := 32#32
  let v13 : BitVec 32 := Scalar.remsi v12 c32_i32_9
  v13.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v14 : BitVec 32 := Scalar.addi v2 c6_i32
  let c32_i32_11 : BitVec 32 := 32#32
  let v15 : BitVec 32 := Scalar.remsi v14 c32_i32_11
  v15.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v16 : BitVec 32 := Scalar.addi v2 c7_i32
  let c32_i32_13 : BitVec 32 := 32#32
  let v17 : BitVec 32 := Scalar.remsi v16 c32_i32_13
  v17.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v18 : BitVec 32 := Scalar.addi v2 c8_i32
  let c32_i32_15 : BitVec 32 := 32#32
  let v19 : BitVec 32 := Scalar.remsi v18 c32_i32_15
  v19.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v20 : BitVec 32 := Scalar.addi v2 c9_i32
  let c32_i32_17 : BitVec 32 := 32#32
  let v21 : BitVec 32 := Scalar.remsi v20 c32_i32_17
  v21.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v22 : BitVec 32 := Scalar.addi v2 c10_i32
  let c32_i32_19 : BitVec 32 := 32#32
  let v23 : BitVec 32 := Scalar.remsi v22 c32_i32_19
  v23.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v24 : BitVec 32 := Scalar.addi v2 c11_i32
  let c32_i32_21 : BitVec 32 := 32#32
  let v25 : BitVec 32 := Scalar.remsi v24 c32_i32_21
  v25.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v26 : BitVec 32 := Scalar.addi v2 c12_i32
  let c32_i32_23 : BitVec 32 := 32#32
  let v27 : BitVec 32 := Scalar.remsi v26 c32_i32_23
  v27.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v28 : BitVec 32 := Scalar.addi v2 c13_i32
  let c32_i32_25 : BitVec 32 := 32#32
  let v29 : BitVec 32 := Scalar.remsi v28 c32_i32_25
  v29.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v30 : BitVec 32 := Scalar.addi v2 c14_i32
  let c32_i32_27 : BitVec 32 := 32#32
  let v31 : BitVec 32 := Scalar.remsi v30 c32_i32_27
  v31.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v32 : BitVec 32 := Scalar.addi v2 c15_i32
  let c32_i32_29 : BitVec 32 := 32#32
  let v33 : BitVec 32 := Scalar.remsi v32 c32_i32_29
  v33.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v34 : BitVec 32 := Scalar.addi v2 c16_i32
  let c32_i32_31 : BitVec 32 := 32#32
  let v35 : BitVec 32 := Scalar.remsi v34 c32_i32_31
  v35.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v36 : BitVec 32 := Scalar.addi v2 c17_i32
  let c32_i32_33 : BitVec 32 := 32#32
  let v37 : BitVec 32 := Scalar.remsi v36 c32_i32_33
  v37.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v38 : BitVec 32 := Scalar.addi v2 c18_i32
  let c32_i32_35 : BitVec 32 := 32#32
  let v39 : BitVec 32 := Scalar.remsi v38 c32_i32_35
  v39.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v40 : BitVec 32 := Scalar.addi v2 c19_i32
  let c32_i32_37 : BitVec 32 := 32#32
  let v41 : BitVec 32 := Scalar.remsi v40 c32_i32_37
  v41.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v42 : BitVec 32 := Scalar.addi v2 c20_i32
  let c32_i32_39 : BitVec 32 := 32#32
  let v43 : BitVec 32 := Scalar.remsi v42 c32_i32_39
  v43.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_41 : BitVec 32 := 32#32
  let v45 : BitVec 32 := Scalar.remsi v44 c32_i32_41
  v45.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v46 : BitVec 32 := Scalar.addi v2 c22_i32
  let c32_i32_43 : BitVec 32 := 32#32
  let v47 : BitVec 32 := Scalar.remsi v46 c32_i32_43
  v47.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v48 : BitVec 32 := Scalar.addi v2 c23_i32
  let c32_i32_45 : BitVec 32 := 32#32
  let v49 : BitVec 32 := Scalar.remsi v48 c32_i32_45
  v49.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v50 : BitVec 32 := Scalar.addi v2 c24_i32
  let c32_i32_47 : BitVec 32 := 32#32
  let v51 : BitVec 32 := Scalar.remsi v50 c32_i32_47
  v51.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v52 : BitVec 32 := Scalar.addi v2 c25_i32
  let c32_i32_49 : BitVec 32 := 32#32
  let v53 : BitVec 32 := Scalar.remsi v52 c32_i32_49
  v53.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v54 : BitVec 32 := Scalar.addi v2 c26_i32
  let c32_i32_51 : BitVec 32 := 32#32
  let v55 : BitVec 32 := Scalar.remsi v54 c32_i32_51
  v55.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v56 : BitVec 32 := Scalar.addi v2 c27_i32
  let c32_i32_53 : BitVec 32 := 32#32
  let v57 : BitVec 32 := Scalar.remsi v56 c32_i32_53
  v57.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v58 : BitVec 32 := Scalar.addi v2 c28_i32
  let c32_i32_55 : BitVec 32 := 32#32
  let v59 : BitVec 32 := Scalar.remsi v58 c32_i32_55
  v59.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v60 : BitVec 32 := Scalar.addi v2 c29_i32
  let c32_i32_57 : BitVec 32 := 32#32
  let v61 : BitVec 32 := Scalar.remsi v60 c32_i32_57
  v61.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v62 : BitVec 32 := Scalar.addi v2 c30_i32
  let c32_i32_59 : BitVec 32 := 32#32
  let v63 : BitVec 32 := Scalar.remsi v62 c32_i32_59
  v63.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v64 : BitVec 32 := Scalar.addi v2 c31_i32
  let c32_i32_61 : BitVec 32 := 32#32
  let v65 : BitVec 32 := Scalar.remsi v64 c32_i32_61
  v65.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v70 : Index := Scalar.indexCast v2
  let c0_64 : Index := 0#32
  let c0_65 : Index := 0#32
  ![v70.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let c0_i32_69 : BitVec 32 := 0#32
  ![v2.toNat, 0, 0]
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_67 : BitVec 32 := 1#32
  let v74 : BitVec 32 := Scalar.addi v2 c1_i32_67
  let c32_i32_68 : BitVec 32 := 32#32
  let v75 : BitVec 32 := Scalar.remsi v74 c32_i32_68
  v75.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_72 : BitVec 32 := 2#32
  let v80 : BitVec 32 := Scalar.addi v2 c2_i32_72
  let c32_i32_73 : BitVec 32 := 32#32
  let v81 : BitVec 32 := Scalar.remsi v80 c32_i32_73
  v81.toNat
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_78 : BitVec 32 := 3#32
  let v86 : BitVec 32 := Scalar.addi v2 c3_i32_78
  let c32_i32_79 : BitVec 32 := 32#32
  let v87 : BitVec 32 := Scalar.remsi v86 c32_i32_79
  v87.toNat
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_84 : BitVec 32 := 4#32
  let v92 : BitVec 32 := Scalar.addi v2 c4_i32_84
  let c32_i32_85 : BitVec 32 := 32#32
  let v93 : BitVec 32 := Scalar.remsi v92 c32_i32_85
  v93.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_90 : BitVec 32 := 5#32
  let v98 : BitVec 32 := Scalar.addi v2 c5_i32_90
  let c32_i32_91 : BitVec 32 := 32#32
  let v99 : BitVec 32 := Scalar.remsi v98 c32_i32_91
  v99.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_96 : BitVec 32 := 6#32
  let v104 : BitVec 32 := Scalar.addi v2 c6_i32_96
  let c32_i32_97 : BitVec 32 := 32#32
  let v105 : BitVec 32 := Scalar.remsi v104 c32_i32_97
  v105.toNat
def k0_dev38 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_102 : BitVec 32 := 7#32
  let v110 : BitVec 32 := Scalar.addi v2 c7_i32_102
  let c32_i32_103 : BitVec 32 := 32#32
  let v111 : BitVec 32 := Scalar.remsi v110 c32_i32_103
  v111.toNat
def k0_dev39 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_108 : BitVec 32 := 8#32
  let v116 : BitVec 32 := Scalar.addi v2 c8_i32_108
  let c32_i32_109 : BitVec 32 := 32#32
  let v117 : BitVec 32 := Scalar.remsi v116 c32_i32_109
  v117.toNat
def k0_dev40 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_114 : BitVec 32 := 9#32
  let v122 : BitVec 32 := Scalar.addi v2 c9_i32_114
  let c32_i32_115 : BitVec 32 := 32#32
  let v123 : BitVec 32 := Scalar.remsi v122 c32_i32_115
  v123.toNat
def k0_dev41 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_120 : BitVec 32 := 10#32
  let v128 : BitVec 32 := Scalar.addi v2 c10_i32_120
  let c32_i32_121 : BitVec 32 := 32#32
  let v129 : BitVec 32 := Scalar.remsi v128 c32_i32_121
  v129.toNat
def k0_dev42 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_126 : BitVec 32 := 11#32
  let v134 : BitVec 32 := Scalar.addi v2 c11_i32_126
  let c32_i32_127 : BitVec 32 := 32#32
  let v135 : BitVec 32 := Scalar.remsi v134 c32_i32_127
  v135.toNat
def k0_dev43 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_132 : BitVec 32 := 12#32
  let v140 : BitVec 32 := Scalar.addi v2 c12_i32_132
  let c32_i32_133 : BitVec 32 := 32#32
  let v141 : BitVec 32 := Scalar.remsi v140 c32_i32_133
  v141.toNat
def k0_dev44 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_138 : BitVec 32 := 13#32
  let v146 : BitVec 32 := Scalar.addi v2 c13_i32_138
  let c32_i32_139 : BitVec 32 := 32#32
  let v147 : BitVec 32 := Scalar.remsi v146 c32_i32_139
  v147.toNat
def k0_dev45 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_144 : BitVec 32 := 14#32
  let v152 : BitVec 32 := Scalar.addi v2 c14_i32_144
  let c32_i32_145 : BitVec 32 := 32#32
  let v153 : BitVec 32 := Scalar.remsi v152 c32_i32_145
  v153.toNat
def k0_dev46 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_150 : BitVec 32 := 15#32
  let v158 : BitVec 32 := Scalar.addi v2 c15_i32_150
  let c32_i32_151 : BitVec 32 := 32#32
  let v159 : BitVec 32 := Scalar.remsi v158 c32_i32_151
  v159.toNat
def k0_dev47 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_156 : BitVec 32 := 16#32
  let v164 : BitVec 32 := Scalar.addi v2 c16_i32_156
  let c32_i32_157 : BitVec 32 := 32#32
  let v165 : BitVec 32 := Scalar.remsi v164 c32_i32_157
  v165.toNat
def k0_dev48 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_162 : BitVec 32 := 17#32
  let v170 : BitVec 32 := Scalar.addi v2 c17_i32_162
  let c32_i32_163 : BitVec 32 := 32#32
  let v171 : BitVec 32 := Scalar.remsi v170 c32_i32_163
  v171.toNat
def k0_dev49 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_168 : BitVec 32 := 18#32
  let v176 : BitVec 32 := Scalar.addi v2 c18_i32_168
  let c32_i32_169 : BitVec 32 := 32#32
  let v177 : BitVec 32 := Scalar.remsi v176 c32_i32_169
  v177.toNat
def k0_dev50 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_174 : BitVec 32 := 19#32
  let v182 : BitVec 32 := Scalar.addi v2 c19_i32_174
  let c32_i32_175 : BitVec 32 := 32#32
  let v183 : BitVec 32 := Scalar.remsi v182 c32_i32_175
  v183.toNat
def k0_dev51 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_180 : BitVec 32 := 20#32
  let v188 : BitVec 32 := Scalar.addi v2 c20_i32_180
  let c32_i32_181 : BitVec 32 := 32#32
  let v189 : BitVec 32 := Scalar.remsi v188 c32_i32_181
  v189.toNat
def k0_dev52 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_186 : BitVec 32 := 21#32
  let v194 : BitVec 32 := Scalar.addi v2 c21_i32_186
  let c32_i32_187 : BitVec 32 := 32#32
  let v195 : BitVec 32 := Scalar.remsi v194 c32_i32_187
  v195.toNat
def k0_dev53 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_192 : BitVec 32 := 22#32
  let v200 : BitVec 32 := Scalar.addi v2 c22_i32_192
  let c32_i32_193 : BitVec 32 := 32#32
  let v201 : BitVec 32 := Scalar.remsi v200 c32_i32_193
  v201.toNat
def k0_dev54 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_198 : BitVec 32 := 23#32
  let v206 : BitVec 32 := Scalar.addi v2 c23_i32_198
  let c32_i32_199 : BitVec 32 := 32#32
  let v207 : BitVec 32 := Scalar.remsi v206 c32_i32_199
  v207.toNat
def k0_dev55 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_204 : BitVec 32 := 24#32
  let v212 : BitVec 32 := Scalar.addi v2 c24_i32_204
  let c32_i32_205 : BitVec 32 := 32#32
  let v213 : BitVec 32 := Scalar.remsi v212 c32_i32_205
  v213.toNat
def k0_dev56 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_210 : BitVec 32 := 25#32
  let v218 : BitVec 32 := Scalar.addi v2 c25_i32_210
  let c32_i32_211 : BitVec 32 := 32#32
  let v219 : BitVec 32 := Scalar.remsi v218 c32_i32_211
  v219.toNat
def k0_dev57 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_216 : BitVec 32 := 26#32
  let v224 : BitVec 32 := Scalar.addi v2 c26_i32_216
  let c32_i32_217 : BitVec 32 := 32#32
  let v225 : BitVec 32 := Scalar.remsi v224 c32_i32_217
  v225.toNat
def k0_dev58 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_222 : BitVec 32 := 27#32
  let v230 : BitVec 32 := Scalar.addi v2 c27_i32_222
  let c32_i32_223 : BitVec 32 := 32#32
  let v231 : BitVec 32 := Scalar.remsi v230 c32_i32_223
  v231.toNat
def k0_dev59 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_228 : BitVec 32 := 28#32
  let v236 : BitVec 32 := Scalar.addi v2 c28_i32_228
  let c32_i32_229 : BitVec 32 := 32#32
  let v237 : BitVec 32 := Scalar.remsi v236 c32_i32_229
  v237.toNat
def k0_dev60 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_234 : BitVec 32 := 29#32
  let v242 : BitVec 32 := Scalar.addi v2 c29_i32_234
  let c32_i32_235 : BitVec 32 := 32#32
  let v243 : BitVec 32 := Scalar.remsi v242 c32_i32_235
  v243.toNat
def k0_dev61 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_240 : BitVec 32 := 30#32
  let v248 : BitVec 32 := Scalar.addi v2 c30_i32_240
  let c32_i32_241 : BitVec 32 := 32#32
  let v249 : BitVec 32 := Scalar.remsi v248 c32_i32_241
  v249.toNat
def k0_dev62 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_246 : BitVec 32 := 31#32
  let v254 : BitVec 32 := Scalar.addi v2 c31_i32_246
  let c32_i32_247 : BitVec 32 := 32#32
  let v255 : BitVec 32 := Scalar.remsi v254 c32_i32_247
  v255.toNat
abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  reduces_S1536x768_S768 : S1536x768.Reduces [0] S768
  shapeCasts_S768_S1x768 : S768.ShapeCasts S1x768
  shapeCasts_S1x768_S1x1x768 : S1x768.ShapeCasts S1x1x768
  h_S1x1x768 : 0 < S1x1x768.numel
  shapeCasts_S1x1x768_S1x1x768 : S1x1x768.ShapeCasts S1x1x768
  hamt_31 : (31#32 : BitVec 32).msb = false
  squeezes_S1x1x768_S1x768 : S1x1x768.Squeezes S1x768
  inb_S32x1x768_S32x1x768_0_0_0 : ∀ a, (![0, 0, 0] : Fin 3 → Nat) a + S32x1x768.size a ≤ S32x1x768.size a
  h_S32x1x768 : 0 < S32x1x768.numel
  reduces_S32x1x768_S1x768 : S32x1x768.Reduces [0] S1x768
  inb_S1x768_S1x768_0_0 : ∀ a, (![0, 0] : Fin 2 → Nat) a + S1x768.size a ≤ S1x768.size a
  h_S1x768 : 0 < S1x768.numel
  hcc0_scratch2 : 1 + S_.numel ≤ 4
  hcc0_scratch3 : 2 + S_.numel ≤ 4
  hcc0_scratch4 : 3 + S_.numel ≤ 4
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x1x768.size a ≤ S32x1x768.size a
  k0_off2_inb : ∀ d0 : Dev nD, ∀ a, (k0_off2 d0) a + S1x1x768.size a ≤ S32x1x768.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole

variable [Facts₀]

abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S49152x768 : Shape := ⟨2, ![49152, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S49152x768, .f32⟩
  | .hbm, ⟨1, _⟩ => ⟨S_, .f32⟩
  | .hbm, ⟨2, _⟩ => ⟨S768, .f32⟩
  | .hbm, ⟨3, _⟩ => ⟨S1x768, .f32⟩
  | _, _ => ⟨S49152x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S49152x768_S768_d0 : S49152x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Base.lean ====
/-
  The all-gather sum on a mesh of 32 devices: the protocol, as the rounds discipline sees it.

  Each device c: tells every other device, on that device's barrier semaphore, that it is inside the kernel
  (31 signals of one unit, to the devices 1, 2, …, 31 places after it on the ring of 32); copies its block of x
  into VMEM and sums its 1536 rows into row c of its gather buffer; waits for 31 units on its own barrier
  semaphore — every other device is now inside the kernel and has handed over row c of ITS gather buffer —;
  sends its row into row c of every other device's gather buffer (31 remote copies, each crediting the sender's
  send semaphore and the receiver's receive semaphore by one row); waits for 31 rows on its receive semaphore —
  its gather buffer now holds every device's row —; sums the 32 rows into the result; waits for its 31 sends.

  Duties are named by the OFFSET k ∈ {1, …, 31} on the ring: duty k of device c's barrier cell and of its
  receive cell is paid by the device k places BEFORE c (which reaches c with its own offset k); duty k of
  device c's send cell is its own send to the device k places after it.
-/
import proofs.«901077_g7700000000001078_dist_sum_ax0_shard0_i_m1536_n768_v7x_i32_bf16_1_alg».proof.Proof.Gen.KernelIdeal
import proofs.«901077_g7700000000001078_dist_sum_ax0_shard0_i_m1536_n768_v7x_i32_bf16_1_alg».proof.Proof.Gen.KernelIdeal.Skeleton
import proofs.«901077_g7700000000001078_dist_sum_ax0_shard0_i_m1536_n768_v7x_i32_bf16_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by ring offsets) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of 32 -/

/-- The device k places after c. -/
def sh (c : Dev nD) (k : ℕ) : Dev nD := ⟨(c.val + k) % 32, Nat.mod_lt _ (by decide)⟩
/-- The device k places before c. -/
def bk (c : Dev nD) (k : ℕ) : Dev nD := ⟨(c.val + (32 - k % 32)) % 32, Nat.mod_lt _ (by decide)⟩

theorem sh_bk (c : Dev nD) (k : ℕ) : sh (bk c k) k = c := by
  apply Fin.ext; show ((c.val + (32 - k % 32)) % 32 + k) % 32 = c.val
  have := c.isLt; have : nD = 32 := rfl; omega
theorem bk_sh (c : Dev nD) (k : ℕ) : bk (sh c k) k = c := by
  apply Fin.ext; show ((c.val + k) % 32 + (32 - k % 32)) % 32 = c.val
  have := c.isLt; have : nD = 32 := rfl; omega
theorem sh_ne (c : Dev nD) {k : ℕ} (h1 : 1 ≤ k) (h2 : k ≤ 31) : sh c k ≠ c := by
  intro h; have := congrArg Fin.val h; simp only [sh] at this
  have := c.isLt; have : nD = 32 := rfl; omega
theorem sh_inj (c : Dev nD) {k k' : ℕ} (hk : k ≤ 31) (hk' : k' ≤ 31) (h : sh c k = sh c k') : k = k' := by
  have := congrArg Fin.val h; simp only [sh] at this
  have := c.isLt; have : nD = 32 := rfl; omega
theorem bk_inj (c : Dev nD) {k k' : ℕ} (h1 : 1 ≤ k) (hk : k ≤ 31) (h1' : 1 ≤ k') (hk' : k' ≤ 31) (h : bk c k = bk c k') : k = k' := by
  have := congrArg Fin.val h; simp only [bk] at this
  have := c.isLt; have : nD = 32 := rfl; omega

/-- The offsets: 1, …, 31. -/
abbrev K : Finset ℕ := Finset.Icc 1 31

/-! ## The memrefs and cells -/

/-- This device's block of x in HBM (not staged: the kernel copies it itself), the result's staging buffer, the VMEM
    copy of the block, the gather buffer. -/
abbrev xH : Memref sig .tc .hbm S1536x768 .f32 := Memref.whole main_arg0
abbrev oM : Memref sig .tc .vmem S1x768 .f32 := Memref.whole cc0_stg0_0
abbrev xV : Memref sig .tc .vmem S1536x768 .f32 := Memref.whole cc0_scratch0
abbrev gM : Memref sig .tc .vmem S32x1x768 .f32 := Memref.whole cc0_scratch1

/-- Row d of the gather buffer, as the kernel's transfers name it (a 1×768 view). -/
abbrev rowM (d : Dev nD) : Memref sig .tc .vmem S1x768 .f32 :=
  ((gM : Memref sig .tc .vmem S32x1x768 .f32).slice (Rect.unit (s := S32x1x768) (k0_off2 d) S1x1x768.size (k0_off2_inb d)) (fun _ => rfl)).squeeze S1x768 squeezes_S1x1x768_S1x768

/-- The runtime's barrier semaphore of collective id 0 (unscoped); the local copy's, the sends' and the receives' DMA
    semaphores (scoped scratch). -/
abbrev barS : Sem sig := (SemArray.scalar (sig.barrier 0 rfl) : Sems sig S_).sem
abbrev cpS : DmaSems sig S_ := cc0_scratch2
abbrev sendS : DmaSems sig S_ := cc0_scratch3
abbrev recvS : DmaSems sig S_ := cc0_scratch4

abbrev barCell (c : Dev nD) : GSem nD τ sig := ((c : Thread nD τ), .reg barS)
abbrev cpCell (c : Dev nD) : GSem nD τ sig := ((c : Thread nD τ), .dma cpS.sem)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: copy, send, receive; -/
abbrev osem : Fin 3 → SemLoc sig := fun | 0 => .dma cpS.sem | 1 => .dma sendS.sem | 2 => .dma recvS.sem
/-- all four of the protocol's, as this proof indexes them: barrier, copy, send, receive. -/
abbrev csem : Fin 4 → SemLoc sig := fun | 0 => .reg barS | 1 => .dma cpS.sem | 2 => .dma sendS.sem | 3 => .dma recvS.sem
abbrev kcell (ck : Dev nD × Fin 4) : GSem nD τ sig := ((ck.1 : Thread nD τ), csem ck.2)

/-- One row's transfer credit, and the block's. -/
abbrev N : ℕ := (rowM (0 : Dev nD)).view.dmaCredit
abbrev NX : ℕ := (xV : Memref sig .tc .vmem S1536x768 .f32).view.dmaCredit
theorem N_pos : 0 < N := View.dmaCredit_pos _ (by decide)
theorem NX_pos : 0 < NX := View.dmaCredit_pos _ (by decide)
theorem rowM_credit (d : Dev nD) : (rowM d).view.dmaCredit = N := rfl

end Cert.KernelIdeal.P

end
-- ==== Proof.Spec.lean ====
/-
  What the gather buffer holds once every row has landed, as ONE function of the devices' blocks:
  row d is device d's block of x summed over its 1536 rows.
-/
import proofs.«901077_g7700000000001078_dist_sum_ax0_shard0_i_m1536_n768_v7x_i32_bf16_1_alg».proof.Proof.Gen.KernelIdeal.Skeleton

noncomputable section

namespace Cert.KernelIdeal.Spec

open Cert.KernelIdeal Cert.KernelIdeal.Gen Idealize.ShloMosaic

variable {F : FTy → Type} [FloatOps F]

/-- The index inside a row (a 1×1×768 vector) of an index of the 32×1×768 gather buffer: its column. -/
def rowIx (i : S32x1x768.Idx) : S1x1x768.Idx := fun a => match a with
  | ⟨0, _⟩ => ⟨0, Nat.one_pos⟩
  | ⟨1, _⟩ => ⟨0, Nat.one_pos⟩
  | ⟨2, _⟩ => ⟨(i 2).val, (i 2).isLt⟩

/-- Which device's row an index of the gather buffer lies in. -/
def rowDev (i : S32x1x768.Idx) : Dev nD := ⟨(i 0).val, (i 0).isLt⟩

/-- The gather buffer with every row landed: row d holds the column sums of device d's block. -/
def gatherFn (xs : Dev nD → Vec F S1536x768 .f32) : Vec F S32x1x768 .f32 :=
  fun i => k0_pay1 (xs (rowDev i)) (rowIx i)

/-- The kernel's result on every device: the 32 rows summed. -/
def resultFn (xs : Dev nD → Vec F S1536x768 .f32) : FVec F S1x768 .f32 := k0_pay2 (gatherFn xs)

end Cert.KernelIdeal.Spec

end
-- ==== Proof.Sched.lean ====
/-
  The schedule of the all-gather sum: one round per cell.

  Device o's barrier cell: 31 unit duties; duty k is the entry signal of the device k places before o, and hands o
  row o of THAT device's gather buffer (what o's send to it will write). Device o's receive cell: 31 duties of one
  row's credit; duty k is the send of the device k places before o, and hands o that device's row of o's own gather
  buffer, holding that device's column sums. Device o's send cell: 31 duties of one row's credit, paid by o's own
  sends; duty k gives back the read share of o's row lent to the send to the device k places after o. Device o's
  copy cell: one duty, its own copy of its block of x into VMEM.
-/
import proofs.«901077_g7700000000001078_dist_sum_ax0_shard0_i_m1536_n768_v7x_i32_bf16_1_alg».proof.Proof.Base
import proofs.«901077_g7700000000001078_dist_sum_ax0_shard0_i_m1536_n768_v7x_i32_bf16_1_alg».proof.Proof.Spec

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device d's block of x, as launched. -/
def xs (d : Dev nD) : Vec F S1536x768 .f32 := m ((d : Thread nD τ).loc main_arg0)

/-- The gather buffer with every row landed (the same on every device): row d holds device d's column sums. -/
def G : (cc0_scratch1 : Ref sig .tc).ty.Contents (Elt F) := Cert.KernelIdeal.Spec.gatherFn (xs m)

/-- The result (the same on every device): the 32 rows summed. -/
def outV : (cc0_stg0_0 : Ref sig .tc).ty.Contents (Elt F) := Cert.KernelIdeal.Spec.resultFn (xs m)

/-! ## The points-to's the protocol passes around -/

/-- Row d of device c's gather buffer, at share q and contents f (the whole buffer's contents; only row d's matter). -/
def rowPts (c d : Dev nD) (q : PosShare TreeShare) (f : Buf (Elt F) ((rowM d).view.loc (c : Thread nD τ))) : sProp 𝕄 :=
  (rowM d).view.loc (c : Thread nD τ) ↦[(rowM d).view.set]{q} f

omit [FloatOps F] in
instance rowPts_storable (c d : Dev nD) (q) (f) : BI.Storable (upEmb : UEmb _ 𝕄) (rowPts (F := F) c d q f) := by unfold rowPts; infer_instance

/-- What the entry signal of the device k places before o hands o: row o of that device's gather buffer. -/
def barPay (o : Dev nD) (k : ℕ) : sProp 𝕄 := iprop(∃ f, rowPts (bk o k) o fullShare f)
/-- What the send of the device k places before o hands o: that device's row of o's gather buffer, landed. -/
def recvPay (o : Dev nD) (k : ℕ) : sProp 𝕄 := rowPts o (bk o k) fullShare (G m)
/-- What o's send to the device k places after it gives back: the k-th read share of o's own row. -/
def sendPay (o : Dev nD) (k : ℕ) : sProp 𝕄 := rowPts o o (Transfers.shareTokN fullShare k) (G m)
/-- What o's copy of its block hands back: the VMEM copy holding the block, and the block in HBM. -/
def cpPay (o : Dev nD) : sProp 𝕄 :=
  iprop(((xV : Memref sig .tc .vmem S1536x768 .f32).view.loc (o : Thread nD τ) ↦[(xV : Memref sig .tc .vmem S1536x768 .f32).view.set]{fullShare} xs m o)
    ∗ ((xH : Memref sig .tc .hbm S1536x768 .f32).view.loc (o : Thread nD τ) ↦[(xH : Memref sig .tc .hbm S1536x768 .f32).view.set]{fullShare} xs m o))

/-! ## The schedule -/

/-- The copy cell's one amount: the block's transfer credit, kept opaque (a number of six digits that nothing here
    needs to evaluate). -/
def cpAmt : ℕ := NX
theorem cpAmt_def : cpAmt = (xV : Memref sig .tc .vmem S1536x768 .f32).view.dmaCredit := rfl
theorem cpAmt_pos : 0 < cpAmt := NX_pos
attribute [irreducible] cpAmt

abbrev IsK (g : GSem nD τ sig) : Prop := g.2 = .reg barS ∨ g.2 = .dma sendS.sem ∨ g.2 = .dma recvS.sem

def sched : Rounds.Schedule (GSem nD τ sig) ℕ 𝕄 where
  duties g r := if r = 0 ∧ g.1.2 = .tc then (if IsK g then K else if g.2 = .dma cpS.sem then {0} else ∅) else ∅
  unitless _ := False
  amount g _ _ := if g.2 = .reg barS then 1 else if g.2 = .dma cpS.sem then cpAmt else N
  payload g _ k :=
    if g.2 = .reg barS then barPay g.1.1 k
    else if g.2 = .dma recvS.sem then recvPay m g.1.1 k
    else if g.2 = .dma sendS.sem then sendPay m g.1.1 k
    else if g.2 = .dma cpS.sem then cpPay m g.1.1
    else iprop(emp)
  amount_pos g _ _ _ := by
    by_cases h : g.2 = .reg barS
    · rw [if_pos h]; exact Nat.one_pos
    · rw [if_neg h]
      by_cases h' : g.2 = .dma cpS.sem
      · rw [if_pos h']; exact cpAmt_pos
      · rw [if_neg h']; exact N_pos

instance sched_payload_storable (g : GSem nD τ sig) (r : ℕ) (d : ℕ) :
    BI.Storable (upEmb : UEmb _ 𝕄) ((sched (F := F) m).payload g r d) := by
  show BI.Storable upEmb (if g.2 = .reg barS then barPay g.1.1 d else if g.2 = .dma recvS.sem then recvPay m g.1.1 d
    else if g.2 = .dma sendS.sem then sendPay m g.1.1 d else if g.2 = .dma cpS.sem then cpPay m g.1.1 else iprop(emp))
  unfold barPay recvPay sendPay cpPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem cp_ne_bar : (SemLoc.dma cpS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem cp_ne_send : (SemLoc.dma cpS.sem : SemLoc sig) ≠ .dma sendS.sem := by decide
theorem cp_ne_recv : (SemLoc.dma cpS.sem : SemLoc sig) ≠ .dma recvS.sem := by decide
theorem send_ne_cp : (SemLoc.dma sendS.sem : SemLoc sig) ≠ .dma cpS.sem := by decide
theorem recv_ne_cp : (SemLoc.dma recvS.sem : SemLoc sig) ≠ .dma cpS.sem := by decide

theorem not_K_cp : ¬ IsK (cpCell c) := fun h => by
  rcases h with h | h | h
  · exact cp_ne_bar h
  · exact cp_ne_send h
  · exact cp_ne_recv h

theorem duties_bar : (sched (F := F) m).duties (barCell c) 0 = K := by
  dsimp only [sched]; rw [if_pos ⟨rfl, rfl⟩, if_pos (Or.inl rfl)]
theorem duties_send : (sched (F := F) m).duties (sendCell c) 0 = K := by
  dsimp only [sched]; rw [if_pos ⟨rfl, rfl⟩, if_pos (Or.inr (Or.inl rfl))]
theorem duties_recv : (sched (F := F) m).duties (recvCell c) 0 = K := by
  dsimp only [sched]; rw [if_pos ⟨rfl, rfl⟩, if_pos (Or.inr (Or.inr rfl))]
theorem duties_cp : (sched (F := F) m).duties (cpCell c) 0 = {0} := by
  dsimp only [sched]; rw [if_pos ⟨rfl, rfl⟩, if_neg (not_K_cp c), if_pos rfl]
theorem duties_later (g : GSem nD τ sig) : ∀ r, 1 ≤ r → (sched (F := F) m).duties g r = ∅ :=
  fun r hr => by dsimp only [sched]; rw [if_neg fun h => by omega]

theorem amount_bar (d : ℕ) : (sched (F := F) m).amount (barCell c) 0 d = 1 := by dsimp only [sched]; exact if_pos rfl
theorem amount_send (d : ℕ) : (sched (F := F) m).amount (sendCell c) 0 d = N := by
  dsimp only [sched]; rw [if_neg send_ne_bar, if_neg send_ne_cp]
theorem amount_recv (d : ℕ) : (sched (F := F) m).amount (recvCell c) 0 d = N := by
  dsimp only [sched]; rw [if_neg recv_ne_bar, if_neg recv_ne_cp]
theorem amount_cp (d : ℕ) : (sched (F := F) m).amount (cpCell c) 0 d = cpAmt := by
  dsimp only [sched]; rw [if_neg cp_ne_bar, if_pos rfl]

theorem card_K : K.card = 31 := by decide

theorem expect_bar : (sched (F := F) m).expect (barCell c) 0 = 31 := by
  unfold Schedule.expect Schedule.amountOf
  rw [duties_bar, Finset.sum_congr rfl fun d _ => amount_bar m c d, Finset.sum_const, card_K, smul_eq_mul]
theorem expect_send : (sched (F := F) m).expect (sendCell c) 0 = 31 * N := by
  unfold Schedule.expect Schedule.amountOf
  rw [duties_send, Finset.sum_congr rfl fun d _ => amount_send m c d, Finset.sum_const, card_K, smul_eq_mul]
theorem expect_recv : (sched (F := F) m).expect (recvCell c) 0 = 31 * N := by
  unfold Schedule.expect Schedule.amountOf
  rw [duties_recv, Finset.sum_congr rfl fun d _ => amount_recv m c d, Finset.sum_const, card_K, smul_eq_mul]
theorem expect_eq (g : GSem nD τ sig) (r : ℕ) :
    (sched (F := F) m).expect g r = ∑ d ∈ (sched (F := F) m).duties g r, (sched (F := F) m).amount g r d := rfl
theorem expect_cp : (sched (F := F) m).expect (cpCell c) 0 = cpAmt := by
  rw [expect_eq, duties_cp, Finset.sum_singleton, amount_cp]

theorem payload_bar (k : ℕ) : (sched (F := F) m).payload (barCell c) 0 k = barPay c k := by dsimp only [sched]; rw [if_pos rfl]
theorem payload_recv (k : ℕ) : (sched (F := F) m).payload (recvCell c) 0 k = recvPay m c k := by
  dsimp only [sched]; rw [if_neg recv_ne_bar, if_pos rfl]
theorem payload_send (k : ℕ) : (sched (F := F) m).payload (sendCell c) 0 k = sendPay m c k := by
  dsimp only [sched]; rw [if_neg send_ne_bar, if_neg send_ne_recv, if_pos rfl]
theorem payload_cp (k : ℕ) : (sched (F := F) m).payload (cpCell c) 0 k = cpPay m c := by
  dsimp only [sched]; rw [if_neg cp_ne_bar, if_neg cp_ne_recv, if_neg cp_ne_send, if_pos rfl]

end Sched

end Cert.KernelIdeal.P

end
-- ==== Proof.Owe.lean ====
/-
  What each device owes the others' cells, and the levels that order the waits: barrier cells below receive cells,
  every other cell below both. A device waits on its barrier cell owing only receive credits, and on its receive
  cell owing nothing.
-/
import proofs.«901077_g7700000000001078_dist_sum_ax0_shard0_i_m1536_n768_v7x_i32_bf16_1_alg».proof.Proof.Sched

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device c still owes after its first js entry signals and its first jx sends: a row's credit to the receive
    cell of each device jx+1, …, 31 places after it, a unit to the barrier cell of each device js+1, …, 31 places after it. -/
def owe (c : Dev nD) (js jx : ℕ) : CellTallies nD τ sig Unit :=
  (∑ k ∈ Finset.Ioc jx 31, tallyAt (recvCell (sh c k)) () N) + (∑ k ∈ Finset.Ioc js 31, tallyAt (barCell (sh c k)) () 1)

def O₀ (c : Dev nD) : CellTallies nD τ sig Unit := owe c 0 0

theorem Ioc_peel {j : ℕ} (h : j < 31) : Finset.Ioc j 31 = insert (j + 1) (Finset.Ioc (j + 1) 31) := by
  ext x; simp only [Finset.mem_Ioc, Finset.mem_insert]; omega
theorem notMem_Ioc_succ (j : ℕ) : j + 1 ∉ Finset.Ioc (j + 1) 31 := by
  simp only [Finset.mem_Ioc]; omega

theorem owe_sig (c : Dev nD) (js jx : ℕ) (h : js < 31) :
    owe c js jx = owe c (js + 1) jx + tallyAt (barCell (sh c (js + 1))) () 1 := by
  unfold owe
  rw [Ioc_peel h, Finset.sum_insert (notMem_Ioc_succ js), add_comm (tallyAt (barCell (sh c (js + 1))) () 1), add_assoc]
theorem owe_send (c : Dev nD) (js jx : ℕ) (h : jx < 31) :
    owe c js jx = owe c js (jx + 1) + tallyAt (recvCell (sh c (jx + 1))) () N := by
  unfold owe
  rw [Ioc_peel h, Finset.sum_insert (notMem_Ioc_succ jx), add_comm (tallyAt (recvCell (sh c (jx + 1))) () N), add_right_comm]
theorem owe_done (c : Dev nD) : owe c 31 31 = 0 := by
  unfold owe; rw [Finset.Ioc_self, Finset.sum_empty, Finset.sum_empty, add_zero]

theorem owe_pos {c : Dev nD} {js jx : ℕ} {g : GSem nD τ sig} {u : Unit} (h : 0 < owe c js jx g u) :
    (∃ k, jx < k ∧ k ≤ 31 ∧ g = recvCell (sh c k)) ∨ (∃ k, js < k ∧ k ≤ 31 ∧ g = barCell (sh c k)) := by
  unfold owe at h
  rw [Pi.add_apply, Finsupp.add_apply, Finset.sum_apply, Finset.sum_apply, Finsupp.finset_sum_apply, Finsupp.finset_sum_apply] at h
  rcases Nat.add_pos_iff_pos_or_pos.mp h with h | h
  · left
    obtain ⟨k, hk, hp⟩ := Finset.exists_ne_zero_of_sum_ne_zero (Nat.pos_iff_ne_zero.mp h)
    rw [tallyAt_apply] at hp
    by_cases hg : g = recvCell (sh c k) ∧ u = ()
    · exact ⟨k, (Finset.mem_Ioc.mp hk).1, (Finset.mem_Ioc.mp hk).2, hg.1⟩
    · rw [if_neg hg] at hp; exact absurd rfl hp
  · right
    obtain ⟨k, hk, hp⟩ := Finset.exists_ne_zero_of_sum_ne_zero (Nat.pos_iff_ne_zero.mp h)
    rw [tallyAt_apply] at hp
    by_cases hg : g = barCell (sh c k) ∧ u = ()
    · exact ⟨k, (Finset.mem_Ioc.mp hk).1, (Finset.mem_Ioc.mp hk).2, hg.1⟩
    · rw [if_neg hg] at hp; exact absurd rfl hp

/-! ## The levels -/

def L (g : GSem nD τ sig) : Finset Unit := if g.1.2 = .tc then {()} else ∅
/-- barrier cells at 1, receive cells at 2, everything else (staging, copy, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on any DMA cell but the receive cell sits below everything a device can owe. -/
theorem mayWait_low (c : Dev nD) (q : DmaSem sig) (hq : SemLoc.dma q ≠ .dma recvS.sem) (js jx : ℕ) :
    (levAts L lv : sProp 𝕄) ⊢ MayWait (c : Thread nD τ) (.dma q) () (owe c js jx) :=
  MayOwe.of_cut (L := L) (lev := lv) 0 (fun p hp => by rw [Finset.mem_singleton.mp hp, L_tc]; exact Finset.mem_singleton_self _)
    (fun g u hg => by rcases owe_pos hg with ⟨k, _, _, rfl⟩ | ⟨k, _, _, rfl⟩ <;> exact Finset.mem_singleton_self _)
    (fun p hp => by rw [Finset.mem_singleton.mp hp]; dsimp only [lv]; rw [if_neg (fun h => by cases h), if_neg hq])
    (fun g u hg => by
      rcases owe_pos hg with ⟨k, _, _, rfl⟩ | ⟨k, _, _, rfl⟩
      · dsimp only [lv]; rw [if_neg recv_ne_bar, if_pos rfl]; decide
      · dsimp only [lv]; rw [if_pos rfl]; decide)

omit [FloatOps F] in
/-- At its barrier wait a device has signalled everyone and owes receive credits only: above its barrier cell. -/
theorem mayWait_bar (c : Dev nD) (jx : ℕ) :
    (levAts L lv : sProp 𝕄) ⊢ MayWait (c : Thread nD τ) (.reg barS) () (owe c 31 jx) :=
  MayOwe.of_cut (L := L) (lev := lv) 1 (fun p hp => by rw [Finset.mem_singleton.mp hp, L_tc]; exact Finset.mem_singleton_self _)
    (fun g u hg => by rcases owe_pos hg with ⟨k, _, _, rfl⟩ | ⟨k, _, _, rfl⟩ <;> exact Finset.mem_singleton_self _)
    (fun p hp => by rw [Finset.mem_singleton.mp hp]; dsimp only [lv]; rw [if_pos rfl])
    (fun g u hg => by
      rcases owe_pos hg with ⟨k, _, _, rfl⟩ | ⟨k, h1, h2, rfl⟩
      · dsimp only [lv]; rw [if_neg recv_ne_bar, if_pos rfl]; decide
      · omega)

end Cert.KernelIdeal.P

end
-- ==== Proof.Data.lean ====
/-
  The proof data of the launch: what each device's body starts from and what it leaves.

  A device starts with: every cell's invariant and that round 0 of every cell is reached (persistent); its positions
  at round 0 of its own four cells; the one-shot tokens of the duties IT pays (an entry signal and a send to each of
  the 31 others, the 31 give-backs of its own send cell, its own copy); credit for the 31 units it will wait for on
  its barrier cell and the 31 rows on its receive cell; its block of x in HBM; its two scratch buffers at unknown
  contents. It ends with the block of x untouched, the scratch buffers whole again, its three own cells closed at
  zero, and the result's staging buffer holding the sum of all 32 rows.
-/
import proofs.«901077_g7700000000001078_dist_sum_ax0_shard0_i_m1536_n768_v7x_i32_bf16_1_alg».proof.Proof.Owe

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names the launch allocated them at, and that round 0 of every cell is reached. -/
def records (Kn : Dev nD × Fin 4 → ℕ) : sProp 𝕄 :=
  iprop((bigSep Finset.univ fun ck : Dev nD × Fin 4 => cellInv ER (sched m) (Kn ck) (kcell ck))
    ∗ bigSep Finset.univ fun ck : Dev nD × Fin 4 => reached ER (kcell ck) 0)

instance records_persistent (Kn : Dev nD × Fin 4 → ℕ) : BI.Persistent (records m Kn) := by unfold records; infer_instance

theorem inv_at' (Kn : Dev nD × Fin 4 → ℕ) (ck : Dev nD × Fin 4) :
    (bigSep Finset.univ fun ck : Dev nD × Fin 4 => (cellInv ER (sched m) (Kn ck) (kcell ck) : sProp 𝕄)) ⊢ cellInv ER (sched m) (Kn ck) (kcell ck) :=
  bigSep_elim (Finset.mem_univ ck)
omit [FloatOps F] in
theorem reached_at' (ck : Dev nD × Fin 4) :
    (bigSep Finset.univ fun ck : Dev nD × Fin 4 => (reached ER (kcell ck) 0 : sProp 𝕄)) ⊢ reached ER (kcell ck) 0 :=
  bigSep_elim (Finset.mem_univ ck)
theorem inv_at (Kn : Dev nD × Fin 4 → ℕ) (ck : Dev nD × Fin 4) : records m Kn ⊢ cellInv ER (sched m) (Kn ck) (kcell ck) := by
  unfold records; iintro ⟨HI, -⟩; iapply (inv_at' m Kn ck); iexact HI
theorem reached_at (Kn : Dev nD × Fin 4 → ℕ) (ck : Dev nD × Fin 4) : records m Kn ⊢ reached ER (kcell ck) 0 := by
  unfold records; iintro ⟨-, HR⟩; iapply (reached_at' (F := F) ck); iexact HR

/-- Device c's positions at round 0 of its own four cells. -/
def positions (c : Dev nD) : sProp 𝕄 :=
  iprop(atPos ER (barCell c) 0 ∅ 0 ∗ atPos ER (cpCell c) 0 ∅ 0 ∗ atPos ER (sendCell c) 0 ∅ 0 ∗ atPos ER (recvCell c) 0 ∅ 0)

/-- The tokens of the duties device c pays: the entry signal and the send to each device k places after it, the
    give-backs of its own send cell, its own copy. -/
def payToks (c : Dev nD) : sProp 𝕄 :=
  iprop((bigSep K fun k => dutyTok ER (barCell (sh c k)) 0 k) ∗ (bigSep K fun k => dutyTok ER (recvCell (sh c k)) 0 k)
    ∗ (bigSep K fun k => dutyTok ER (sendCell c) 0 k) ∗ dutyTok ER (cpCell c) 0 0)

def ghost (Kn : Dev nD × Fin 4 → ℕ) (c : Dev nD) : sProp 𝕄 := iprop(records m Kn ∗ positions c ∗ payToks c)

/-- Device c's block of x in HBM, as launched. -/
def xPts (c : Dev nD) : sProp 𝕄 := ((c : Thread nD τ).loc main_arg0) ↦{fullShare} xs m c

def start (c : Dev nD) : sProp 𝕄 :=
  iprop((∃ Kn, ghost m Kn c) ∗ cred (tallyAt (barCell c) () 31) ∗ cred (tallyAt (recvCell c) () (31 * N)) ∗ levAts L lv ∗ xPts m c)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
def Φ₁ (c : Dev nD) : sProp 𝕄 :=
  iprop(xPts m c ∗ scratch c ∗ semVal (cpCell c) 0 ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, with the names opened, -/
def bodyPre (Kn : Dev nD × Fin 4 → ℕ) (c : Dev nD) : sProp 𝕄 :=
  iprop((ghost m Kn c ∗ cred (tallyAt (barCell c) () 31) ∗ cred (tallyAt (recvCell c) () (31 * N)) ∗ levAts L lv ∗ xPts m c ∗ scratch c)
    ∗ (dats m ρ 0 c).owesAt () t₀.castSucc
    ∗ (∃ d, stg c cc0_stg0_0 ((dats m ρ 0 c).before (0 : Fin 1) t₀ d)))

/-- and what it leaves. -/
def bodyPost (c : Dev nD) : sProp 𝕄 :=
  iprop(Φ₁ m c ∗ (dats m ρ 0 c).owesAt () t₀.succ ∗ stg c cc0_stg0_0 (outV m))

end Cert.KernelIdeal.P

end
-- ==== Proof.Rows.lean ====
/-
  Row d of the 32×1×768 gather buffer: the indices whose first coordinate is d. The two ways the kernel
  names it — the 1×768 transfer view and the 1×1×768 vector access — cover exactly these indices; the buffer
  is the disjoint union of its 32 rows; reading and writing through a row is reading and writing those indices.
-/
import proofs.«901077_g7700000000001078_dist_sum_ax0_shard0_i_m1536_n768_v7x_i32_bf16_1_alg».proof.Proof.Base
import proofs.«901077_g7700000000001078_dist_sum_ax0_shard0_i_m1536_n768_v7x_i32_bf16_1_alg».proof.Proof.Spec
import Idealize.ShloMosaic.Rules.PointsTo
import Idealize.ShloMosaic.Signature.View
import Idealize.ShloMosaic.Signature.Memref

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Row d of the gather buffer: the indices whose first coordinate is d -/

/-- The indices of the 32×1×768 gather buffer that lie in row d. -/
def rowSet (d : Dev nD) : Finset S32x1x768.Idx := Finset.univ.filter fun i => (i 0).val = d.val

theorem mem_rowSet {d : Dev nD} {i : S32x1x768.Idx} : i ∈ rowSet d ↔ (i 0).val = d.val := by
  simp [rowSet]

/-- A unit-stride 1×1×768 rectangle at offsets (d, 0, 0) is row d, coordinate by coordinate. -/
theorem mem_unit_row (d : Dev nD) {off : Fin 3 → Nat} (h : off = ![d.val, 0, 0])
    (inb : ∀ a, off a + S1x1x768.size a ≤ S32x1x768.size a) (i : S32x1x768.Idx) :
    i ∈ (Rect.unit (s := S32x1x768) off S1x1x768.size inb).set ↔ (i 0).val = d.val := by
  subst h
  rw [Rect.mem_set_unit]
  constructor
  · intro h
    have h0 := h 0
    simp only [Matrix.cons_val_zero] at h0
    omega
  · intro h a
    have h1 : (i 1).val < 1 := (i 1).isLt
    have h2 : (i 2).val < 768 := (i 2).isLt
    fin_cases a
    · show d.val ≤ (i 0).val ∧ (i 0).val < d.val + 1; omega
    · show 0 ≤ (i 1).val ∧ (i 1).val < 0 + 1; omega
    · show 0 ≤ (i 2).val ∧ (i 2).val < 0 + 768; omega

theorem unit_row_set (d : Dev nD) {off : Fin 3 → Nat} (h : off = ![d.val, 0, 0])
    (inb : ∀ a, off a + S1x1x768.size a ≤ S32x1x768.size a) :
    (Rect.unit (s := S32x1x768) off S1x1x768.size inb).set = rowSet d := by
  ext i; rw [mem_unit_row d h inb i, mem_rowSet]

theorem rowM_set (d : Dev nD) : (rowM d).view.set = rowSet d :=
  (View.set_reshape _ _).trans ((View.set_slice_whole cc0_scratch1 _).trans (unit_row_set d (k0_off2_eq d) (k0_off2_inb d)))

theorem rowM_loc (c d : Dev nD) : (rowM d).view.loc (c : Thread nD τ) = (c : Thread nD τ).loc cc0_scratch1 := rfl

theorem acc1_set (d : Dev nD) :
    ((gM : Memref sig .tc .vmem S32x1x768 .f32).access (Rect.unit (s := S32x1x768) (k0_off1 d) S1x1x768.size (k0_off1_inb d)) : View sig .tc _ _ _).set = rowSet d :=
  (View.set_slice_whole cc0_scratch1 _).trans (unit_row_set d (k0_off1_eq d) (k0_off1_inb d))

/-- What the load at row d reads lies in row d. -/
theorem acc1_load_sub (d : Dev nD) :
    (gM : Memref sig .tc .vmem S32x1x768 .f32).view.setOn (Rect.unit (s := S32x1x768) (k0_off1 d) S1x1x768.size (k0_off1_inb d)).toLoadRect.set ⊆ rowSet d := by
  intro i hi
  obtain ⟨j, hj, rfl⟩ := Finset.mem_map.mp hi
  exact (unit_row_set d (k0_off1_eq d) (k0_off1_inb d)) ▸ hj

/-- What the store at row d writes lies in row d. -/
theorem acc1_store_sub (d : Dev nD) :
    ((gM : Memref sig .tc .vmem S32x1x768 .f32).access (Rect.unit (s := S32x1x768) (k0_off1 d) S1x1x768.size (k0_off1_inb d)) : View sig .tc _ _ _).setOn Finset.univ ⊆ rowSet d := by
  rw [View.setOn_univ, acc1_set]

/-! ## Whole-buffer reads and writes -/

omit [FloatOps F] in
theorem read_g (G : (cc0_scratch1 : Ref sig .tc).ty.Contents (Elt F)) :
    (gM : Memref sig .tc .vmem S32x1x768 .f32).view.readAt (Elt F) (Rect.unit (s := S32x1x768) ![0, 0, 0] S32x1x768.size inb_S32x1x768_S32x1x768_0_0_0).toLoadRect G = G :=
  Memref.readAt_unit_zero (Elt F) cc0_scratch1 (by decide) inb_S32x1x768_S32x1x768_0_0_0 G

omit [FloatOps F] in
theorem read_xv (G : (cc0_scratch0 : Ref sig .tc).ty.Contents (Elt F)) :
    (xV : Memref sig .tc .vmem S1536x768 .f32).view.readAt (Elt F) (Rect.unit (s := S1536x768) ![0, 0] S1536x768.size inb_S1536x768_S1536x768_0_0).toLoadRect G = G :=
  Memref.readAt_unit_zero (Elt F) cc0_scratch0 (by decide) inb_S1536x768_S1536x768_0_0 G

omit [FloatOps F] in
theorem read_o (G : (cc0_stg0_0 : Ref sig .tc).ty.Contents (Elt F)) :
    (oM : Memref sig .tc .vmem S1x768 .f32).view.readAt (Elt F) (Rect.unit (s := S1x768) ![0, 0] S1x768.size inb_S1x768_S1x768_0_0).toLoadRect G = G :=
  Memref.readAt_unit_zero (Elt F) cc0_stg0_0 (by decide) inb_S1x768_S1x768_0_0 G

omit [FloatOps F] in
theorem write_o (f w : (cc0_stg0_0 : Ref sig .tc).ty.Contents (Elt F)) :
    ((oM : Memref sig .tc .vmem S1x768 .f32).access (Rect.unit (s := S1x768) ![0, 0] S1x768.size inb_S1x768_S1x768_0_0) : View sig .tc _ _ _).write (Elt F) f w Finset.univ = w :=
  Memref.write_access_unit_zero_univ (Elt F) cc0_stg0_0 (by decide) inb_S1x768_S1x768_0_0 f w

/-! ## Writing and reading through a row -/

omit [FloatOps F] in
/-- Writing into row d of any contents what row d of G reads gives G on row d, -/
theorem row_write_read (d : Dev nD) (fd G : (cc0_scratch1 : Ref sig .tc).ty.Contents (Elt F)) :
    ∀ i ∈ rowSet d, ((rowM d).view.write (Elt F) fd ((rowM d).view.read (Elt F) G) Finset.univ) i = G i := by
  intro i hi
  rw [View.write_read_eq_piecewise]
  exact Finset.piecewise_eq_of_mem _ _ _ (by rw [View.setOn_univ, rowM_set]; exact hi)

omit [FloatOps F] in
/-- and leaves every other row as it was. -/
theorem row_write_read_off (d : Dev nD) (fd G : (cc0_scratch1 : Ref sig .tc).ty.Contents (Elt F)) :
    ∀ i, i ∉ rowSet d → ((rowM d).view.write (Elt F) fd ((rowM d).view.read (Elt F) G) Finset.univ) i = fd i := by
  intro i hi
  rw [View.write_read_eq_piecewise]
  exact Finset.piecewise_eq_of_notMem _ _ _ (by rw [View.setOn_univ, rowM_set]; exact hi)

/-- An index of row d sits, in the 1×1×768 access at row d, under its column. -/
theorem acc1_emb_rowIx (d : Dev nD) (i : S32x1x768.Idx) (hi : i ∈ rowSet d) :
    ((gM : Memref sig .tc .vmem S32x1x768 .f32).access (Rect.unit (s := S32x1x768) (k0_off1 d) S1x1x768.size (k0_off1_inb d)) : View sig .tc _ _ _).emb (Cert.KernelIdeal.Spec.rowIx i) = i := by
  funext a
  apply Fin.ext
  show (k0_off1 d) a + 1 * (Cert.KernelIdeal.Spec.rowIx i a).val = (i a).val
  rw [k0_off1_eq d]
  have h0 := mem_rowSet.mp hi
  have h1 : (i 1).val < 1 := (i 1).isLt
  fin_cases a
  · show d.val + 1 * 0 = (i 0).val; omega
  · show 0 + 1 * 0 = (i 1).val; omega
  · show 0 + 1 * (i 2).val = (i 2).val; omega

omit [FloatOps F] in
/-- The vector store at row d puts the vector's column j at (d, 0, j), -/
theorem row_store (d : Dev nD) (f0 : (cc0_scratch1 : Ref sig .tc).ty.Contents (Elt F)) (w : Vec F S1x1x768 .f32) :
    ∀ i ∈ rowSet d, (((gM : Memref sig .tc .vmem S32x1x768 .f32).access (Rect.unit (s := S32x1x768) (k0_off1 d) S1x1x768.size (k0_off1_inb d)) : View sig .tc _ _ _).write (Elt F) f0 w Finset.univ) i = w (Cert.KernelIdeal.Spec.rowIx i) := by
  intro i hi
  have h := View.write_emb_of_mem (v := ((gM : Memref sig .tc .vmem S32x1x768 .f32).access (Rect.unit (s := S32x1x768) (k0_off1 d) S1x1x768.size (k0_off1_inb d)) : View sig .tc _ _ _))
    (Val := Elt F) f0 w (M := Finset.univ) (x := Cert.KernelIdeal.Spec.rowIx i) (Finset.mem_univ _)
  rw [acc1_emb_rowIx d i hi] at h
  exact h

omit [FloatOps F] in
/-- and leaves every other row as it was. -/
theorem row_store_off (d : Dev nD) (f0 : (cc0_scratch1 : Ref sig .tc).ty.Contents (Elt F)) (w : Vec F S1x1x768 .f32) :
    ∀ i, i ∉ rowSet d → (((gM : Memref sig .tc .vmem S32x1x768 .f32).access (Rect.unit (s := S32x1x768) (k0_off1 d) S1x1x768.size (k0_off1_inb d)) : View sig .tc _ _ _).write (Elt F) f0 w Finset.univ) i = f0 i := by
  intro i hi
  exact View.write_of_not_mem _ _ _ (fun h => hi (acc1_store_sub d h))

/-! ## The buffer is the disjoint union of its rows -/

theorem rowSet_disjoint {d d' : Dev nD} (h : d ≠ d') : Disjoint (rowSet d) (rowSet d') := by
  rw [Finset.disjoint_left]
  intro i hi hi'
  exact h (Fin.ext ((mem_rowSet.mp hi).symm.trans (mem_rowSet.mp hi')))

/-- Every index lies in the row its first coordinate names. -/
theorem mem_rowSet_rowDev (i : S32x1x768.Idx) : i ∈ rowSet (Cert.KernelIdeal.Spec.rowDev i) := mem_rowSet.mpr rfl

/-- The 32 rows cover the buffer (whatever decision procedure for equality of indices the union is formed with). -/
theorem biUnion_rowSet {inst : DecidableEq S32x1x768.Idx} :
    @Finset.biUnion (Dev nD) S32x1x768.Idx inst Finset.univ rowSet = Finset.univ := by
  ext i
  simp only [Finset.mem_biUnion, Finset.mem_univ, true_and, iff_true]
  exact ⟨Cert.KernelIdeal.Spec.rowDev i, mem_rowSet_rowDev i⟩

/-- What is left of the buffer without row d is the other 31 rows. -/
theorem sdiff_rowSet {i1 i2 : DecidableEq S32x1x768.Idx} (d : Dev nD) :
    @SDiff.sdiff (Finset S32x1x768.Idx) (@Finset.instSDiff S32x1x768.Idx i1) Finset.univ (rowSet d)
      = @Finset.biUnion (Dev nD) S32x1x768.Idx i2 (Finset.univ.erase d) rowSet := by
  ext i
  simp only [Finset.mem_sdiff, Finset.mem_univ, true_and, Finset.mem_biUnion, Finset.mem_erase, and_true]
  constructor
  · intro h
    exact ⟨Cert.KernelIdeal.Spec.rowDev i, fun e => h (e ▸ mem_rowSet_rowDev i), mem_rowSet_rowDev i⟩
  · rintro ⟨d', hne, hd'⟩ h
    exact hne (Fin.ext ((mem_rowSet.mp hd').symm.trans (mem_rowSet.mp h)))

omit [FloatOps F] in
/-- The whole gather buffer is its 32 rows, side by side. -/
theorem rows_split (c : Dev nD) (q : PosShare TreeShare) (f : Buf (Elt F) ((c : Thread nD τ).loc cc0_scratch1)) :
    ((((c : Thread nD τ).loc cc0_scratch1) ↦{q} f) : sProp 𝕄)
      ⊣⊢ bigSep Finset.univ (fun d : Dev nD => ((c : Thread nD τ).loc cc0_scratch1) ↦[rowSet d]{q} f) := by
  have hd : ∀ t ∈ (Finset.univ : Finset (Dev nD)), ∀ t' ∈ (Finset.univ : Finset (Dev nD)), t ≠ t' →
      @Disjoint (Finset (Idx ((c : Thread nD τ).loc cc0_scratch1))) _ _ (rowSet t) (rowSet t') :=
    fun t _ t' _ hne => rowSet_disjoint hne
  have h := @pointsTo_biUnion nD τ sig Unit _ (Elt F) ℕ _ UU _ ℕ ((c : Thread nD τ).loc cc0_scratch1) q f (Dev nD)
    Finset.univ rowSet hd
  exact .of_eq ((congrArg (fun S => (pointsTo ((c : Thread nD τ).loc cc0_scratch1) S q f : sProp 𝕄))
    (biUnion_rowSet (inst := _)).symm).trans h)

omit [FloatOps F] in
/-- One row carved out of the buffer, -/
theorem row_split (c d : Dev nD) (q : PosShare TreeShare) (f : Buf (Elt F) ((c : Thread nD τ).loc cc0_scratch1)) :
    ((((c : Thread nD τ).loc cc0_scratch1) ↦{q} f) : sProp 𝕄)
      ⊣⊢ iprop((((c : Thread nD τ).loc cc0_scratch1) ↦[rowSet d]{q} f) ∗ (((c : Thread nD τ).loc cc0_scratch1) ↦[Finset.univ \ rowSet d]{q} f)) :=
  pointsTo_split_subset (Finset.subset_univ _)

omit [FloatOps F] in
/-- and the rest of the buffer is the other 31 rows. -/
theorem others_split (c d : Dev nD) (q : PosShare TreeShare) (f : Buf (Elt F) ((c : Thread nD τ).loc cc0_scratch1)) :
    ((((c : Thread nD τ).loc cc0_scratch1) ↦[Finset.univ \ rowSet d]{q} f) : sProp 𝕄)
      ⊣⊢ bigSep (Finset.univ.erase d) (fun d' : Dev nD => ((c : Thread nD τ).loc cc0_scratch1) ↦[rowSet d']{q} f) := by
  have hd : ∀ t ∈ (Finset.univ : Finset (Dev nD)).erase d, ∀ t' ∈ (Finset.univ : Finset (Dev nD)).erase d, t ≠ t' →
      @Disjoint (Finset (Idx ((c : Thread nD τ).loc cc0_scratch1))) _ _ (rowSet t) (rowSet t') :=
    fun t _ t' _ hne => rowSet_disjoint hne
  have h := @pointsTo_biUnion nD τ sig Unit _ (Elt F) ℕ _ UU _ ℕ ((c : Thread nD τ).loc cc0_scratch1) q f (Dev nD)
    (Finset.univ.erase d) rowSet hd
  exact .of_eq ((congrArg (fun S => (pointsTo ((c : Thread nD τ).loc cc0_scratch1) S q f : sProp 𝕄))
    (sdiff_rowSet (i1 := _) (i2 := _) d)).trans h)

/-- info: 'Cert.KernelIdeal.P.rows_split' depends on axioms: [propext, Classical.choice, Quot.sound] -/
#guard_msgs in
#print axioms rows_split

end Cert.KernelIdeal.P

end
-- ==== Proof.LibWaitAcc.lean ====
/-
  Waiting for one round of a semaphore cell in several instalments.

  A wait of any amount inside the open round moves the cell's owner from
  position (R, T, m) to (R, S, m + k) for some S containing T, and hands it
  the payloads of the duties in S outside T; which duties those are is not
  determined by the amount. An owner that waits for a round in several
  instalments, with nothing in between, therefore carries an accumulator:
  for some set S of duties of the round it stands at (R, S, m) and holds the
  payload of every duty of S. Each instalment but the last preserves the
  accumulator, adding its amount to m; the last instalment, which consumes
  the rest of the round, turns the accumulator into the payloads of every
  duty of the round, the owner standing at the start of the next round.
-/
import Idealize.ShloMosaic.Lib.Rounds

namespace Idealize.ShloMosaic.Rounds

open Idealize.SL Idealize.SL.RA Idealize.SL.BI
open scoped Idealize.SL.BI
open Idealize.SL.BI.BIBase Idealize.SL.BI.Laws Idealize.SL.ProofMode Idealize.SL.Sem
open PCS URA Auth
open Idealize.SL.Util (total total_single)

noncomputable section WaitAcc

variable {nD : Nat} {τ : Topo} {sig : RefSig} {Ix : Type} [DecidableEq Ix] {D : Type} [DecidableEq D]
variable {Val : EltTy → Type} {Name : Type} [DecidableEq Name]
variable {U : Type} [URA U] {Lvl : Type} {Λ : Labels}

local notation "𝕄" => MT nD τ sig Ix Val Name U Lvl

variable [Preorder Lvl] {defs : Defs nD τ sig Val Λ} (𝒱 : Variants)
variable (E : Emb (URounds (GSem nD τ sig) D) (MT nD τ sig Ix Val Name U Lvl)) (Rd : Schedule (GSem nD τ sig) D (MT nD τ sig Ix Val Name U Lvl))
variable (c : Thread nD τ) (bd : Option 𝒱.V) {Γ : PendingWaitsCtx sig Ix}
variable {α : Type} {Q : α → sProp (MT nD τ sig Ix Val Name U Lvl)}

/-- The owner of cell `(c, sm)` stands somewhere in round `R` having consumed
    `mm` units, and holds the payload of every duty it has taken: for some set
    `S` of duties of round `R` it is at position `(R, S, mm)` and holds the
    payloads of `S`. -/
def waitAcc (sm : SemLoc sig) (R mm : ℕ) : sProp 𝕄 :=
  iprop(∃ S : Finset D, ⌜S ⊆ Rd.duties (c, sm) R⌝ ∗ atPos E (c, sm) R S mm
    ∗ bigSep S (fun d => Rd.payload (c, sm) R d))

/-- At the start of a round the owner has taken no duty and consumed no unit:
    the accumulator holds with the empty set, whose payloads are `emp`. -/
theorem waitAcc_intro (sm : SemLoc sig) (R : ℕ) :
    atPos E (c, sm) R ∅ 0 ⊢ waitAcc E Rd c sm R 0 := by
  unfold waitAcc
  iintro Hat
  iexists (∅ : Finset D)
  isplitr; · ipureintro; exact Finset.empty_subset _
  isplitl [Hat]; · iexact Hat
  rw [bigSep_empty]
  iempintro

/-- The payloads of a set of duties and of the rest of a larger set are the
    payloads of the larger set: the two index sets are disjoint and their
    union is the larger set. -/
private theorem payloads_merge (g : GSem nD τ sig) (R : ℕ) {S S' : Finset D} (h : S ⊆ S') :
    iprop(bigSep S (fun d => Rd.payload g R d) ∗ bigSep (S' \ S) (fun d => Rd.payload g R d))
      ⊢ bigSep S' (fun d => Rd.payload g R d) :=
  Entails.of_eq (bigSep_sdiff_split h).symm

/-- Recording a wait at `(sm, ι)`: inserting the pair is the union with its
    singleton on the right. -/
private theorem insert_eq_union_single {sm : SemLoc sig} {ι : Ix} (W : Waits sig Ix) :
    insert (sm, ι) W = W ∪ {(sm, ι)} := by
  rw [Finset.insert_eq, Finset.union_comm]

/-- One instalment. A wait of `k'` units inside the open round, covered by
    credit tokens at one index `ι`: the owner moves from `(R, S, mm)` to
    `(R, S', mm + k')` for some `S' ⊇ S` within the round's duties and takes the
    payloads of `S' \ S`; since `S` and `S' \ S` are disjoint with union `S'`,
    these merge with the payloads of `S` it held into the payloads of `S'`, so
    the accumulator holds again at `mm + k'`. -/
theorem wp_wait_acc {w : TpuEff nD τ sig Val Λ c.2 PUnit} {sm : SemLoc sig} {k' : ℕ} {Es : Set Name}
    {κ : Name} (hw : ∀ K : PUnit → sProp 𝕄, wpE' defs 𝒱 c bd Γ Es w K = waitSpec c Es sm k' K) (hE : κ ∈ Es)
    {k : PUnit → Prog (TpuEff nD τ sig Val Λ c.2) α} (ι : Ix) {O : CellTallies nD τ sig Ix} {W : Waits sig Ix}
    {R mm : ℕ} :
    iprop(cellInv E Rd κ (c, sm) ∗ cred (tallyAt (c, sm) ι k') ∗ owes c O W ∗ MayWait c sm ι O
        ∗ waitAcc E Rd c sm R mm)
      ⊢ iprop(((owes c O (insert (sm, ι) W) ∗ waitAcc E Rd c sm R (mm + k'))
            -∗ wp frame (wpE' defs 𝒱 c bd Γ) Es (k ⟨⟩) Q)
          -∗ wp frame (wpE' defs 𝒱 c bd Γ) Es (.op w k) Q) := by
  rw [insert_eq_union_single]
  unfold waitAcc
  iintro ⟨Hg, Hc, HL, Hlev, ⟨%S, %hS, Hat, Hpay⟩⟩ Hk
  iapply (wp_wait 𝒱 E Rd c bd hw hE {(sm, ι)} (cr := Finsupp.single ι k') (T := S) (m := mm)
    (by rw [Util.total_single]) (image_single_subset sm ι k')) $$ [Hg Hc HL Hlev Hat]
  · isplitl [Hg]; · iexact Hg
    isplitl [Hc]; · iexact Hc
    isplitl [HL]; · iexact HL
    isplitl [Hlev]; · iexact Hlev
    iexact Hat
  iintro %S' ⟨%hS', HL, Hat, Hnew⟩
  iapply Hk
  isplitl [HL]; · iexact HL
  iexists S'
  isplitr; · ipureintro; exact hS'.2.1
  isplitl [Hat]; · iexact Hat
  iapply (payloads_merge Rd (c, sm) R hS'.1)
  isplitl [Hpay]; · iexact Hpay
  iexact Hnew

/-- The last instalment: the rest of the round. The wait brings the owner to
    `(R + 1, ∅, 0)`, round `R + 1` reached, with the payloads of the round's
    duties outside `S`; merged with the payloads of `S` it held, every payload
    of the round comes out. -/
theorem wp_wait_acc_rest {w : TpuEff nD τ sig Val Λ c.2 PUnit} {sm : SemLoc sig} {k' : ℕ} {Es : Set Name}
    {κ : Name} (hw : ∀ K : PUnit → sProp 𝕄, wpE' defs 𝒱 c bd Γ Es w K = waitSpec c Es sm k' K) (hE : κ ∈ Es)
    {k : PUnit → Prog (TpuEff nD τ sig Val Λ c.2) α} (ι : Ix) {O : CellTallies nD τ sig Ix} {W : Waits sig Ix}
    {R mm : ℕ} (hk : mm + k' = Rd.expect (c, sm) R) :
    iprop(cellInv E Rd κ (c, sm) ∗ cred (tallyAt (c, sm) ι k') ∗ owes c O W ∗ MayWait c sm ι O
        ∗ waitAcc E Rd c sm R mm)
      ⊢ iprop(((owes c O (insert (sm, ι) W)
              ∗ atPos E (c, sm) (R + 1) ∅ 0 ∗ reached E (c, sm) (R + 1)
              ∗ bigSep (Rd.duties (c, sm) R) (fun d => Rd.payload (c, sm) R d))
            -∗ wp frame (wpE' defs 𝒱 c bd Γ) Es (k ⟨⟩) Q)
          -∗ wp frame (wpE' defs 𝒱 c bd Γ) Es (.op w k) Q) := by
  unfold waitAcc
  iintro ⟨Hg, Hc, HL, Hlev, ⟨%S, %hS, Hat, Hpay⟩⟩ Hk
  iapply (wp_wait_rest_token 𝒱 E Rd c bd hw hE ι (T := S) (m := mm) hk) $$ [Hg Hc HL Hlev Hat]
  · isplitl [Hg]; · iexact Hg
    isplitl [Hc]; · iexact Hc
    isplitl [HL]; · iexact HL
    isplitl [Hlev]; · iexact Hlev
    iexact Hat
  iintro ⟨HL, Hat, Hr, Hrest⟩
  iapply Hk
  isplitl [HL]; · iexact HL
  isplitl [Hat]; · iexact Hat
  isplitl [Hr]; · iexact Hr
  iapply (payloads_merge Rd (c, sm) R hS)
  isplitl [Hpay]; · iexact Hpay
  iexact Hrest

end WaitAcc

/-- info: 'Idealize.ShloMosaic.Rounds.wp_wait_acc_rest' depends on axioms: [propext, Classical.choice, Quot.sound] -/
#guard_msgs in #print axioms wp_wait_acc_rest

end Idealize.ShloMosaic.Rounds
-- ==== Proof.Steps.lean ====
/-
  The protocol's steps, one lemma each, at a symbolic device c and a symbolic offset: the entry signal to the device
  j+1 places on, the send to it, the barrier wait, the copy of the block and its wait, one instalment of the receive
  and of the send waits.
-/
import proofs.«901077_g7700000000001078_dist_sum_ax0_shard0_i_m1536_n768_v7x_i32_bf16_1_alg».proof.Proof.Data
import proofs.«901077_g7700000000001078_dist_sum_ax0_shard0_i_m1536_n768_v7x_i32_bf16_1_alg».proof.Proof.Rows
import proofs.«901077_g7700000000001078_dist_sum_ax0_shard0_i_m1536_n768_v7x_i32_bf16_1_alg».proof.Proof.LibWaitAcc

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

theorem mem_K {k : ℕ} (h1 : 1 ≤ k) (h2 : k ≤ 31) : k ∈ K := Finset.mem_Icc.mpr ⟨h1, h2⟩

theorem rest_cp (c : Dev nD) :
    bigSep ((sched (F := F) m).duties (cpCell c) 0 \ ∅) (fun d => (sched (F := F) m).payload (cpCell c) 0 d) = cpPay m c := by
  rw [Finset.sdiff_empty, duties_cp, bigSep_singleton, payload_cp]
theorem rest_bar (c : Dev nD) :
    bigSep ((sched (F := F) m).duties (barCell c) 0 \ ∅) (fun d => (sched (F := F) m).payload (barCell c) 0 d) = bigSep K (fun k => barPay (F := F) c k) := by
  rw [Finset.sdiff_empty, duties_bar]; exact bigSep_congr fun k _ => payload_bar m c k

omit [FloatOps F] in
/-- Writing the whole VMEM copy with what the whole block reads leaves the block. -/
theorem cp_landed (c : Dev nD) (fd : Buf (Elt F) ((xV : Memref sig .tc .vmem S1536x768 .f32).view.loc (c : Thread nD τ))) (fs : (main_arg0 : Ref sig .tc).ty.Contents (Elt F)) :
    (xV : Memref sig .tc .vmem S1536x768 .f32).view.write (Elt F) fd ((xH : Memref sig .tc .hbm S1536x768 .f32).view.read (Elt F) fs) Finset.univ = fs := by
  show (View.whole cc0_scratch0).write (Elt F) fd ((View.whole main_arg0).read (Elt F) fs) Finset.univ = fs
  rw [View.read_whole]
  exact View.write_whole_univ _ _ _

/-- The entry signal to the device j+1 places on: it pays duty j+1 of that device's barrier cell and hands over that
    device's row of c's gather buffer. -/
theorem step_signal (c : Dev nD) (j jx : ℕ) (hj : j < 31) (n : Dev nD) (hn : n = sh c (j + 1)) (k' : ℕ) (hk' : k' = 1)
    {α : Type} {Q : α → sProp 𝕄} {k : PUnit → Prog (TpuEff nD τ sig (Elt F) Λ₀ .tc) α} (W : Waits sig Unit)
    (f : Buf (Elt F) ((rowM (sh c (j + 1))).view.loc (c : Thread nD τ))) :
    iprop(records m Kn ∗ owes (c : Thread nD τ) (owe c j jx) W ∗ dutyTok ER (barCell (sh c (j + 1))) 0 (j + 1)
        ∗ rowPts c (sh c (j + 1)) fullShare f)
      ⊢ iprop((owes (c : Thread nD τ) (owe c (j + 1) jx) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  subst hn hk'
  iintro ⟨#HR, HO, Htok, Hrow⟩
  iapply (Rounds.wp_signal 𝒱₀ ER (sched m) (c : Thread nD τ) none (dst := (sh c (j + 1) : Thread nD τ)) (κ := Kn (sh c (j + 1), 0))
      (d := j + 1) (by rw [duties_bar]; exact mem_K (by omega) (by omega)) (amount_bar m (sh c (j + 1)) (j + 1)) () (owe c (j + 1) jx) (owe_sig c j jx hj))
    $$ [HO Htok Hrow]
  · isplitr; · iapply (inv_at m Kn (sh c (j + 1), 0)); iexact HR
    isplitl [HO]; · iexact HO
    isplitl [Htok]; · iexact Htok
    isplitl [Hrow]
    · rw [payload_bar]; unfold barPay; rw [bk_sh]; iexists f; iexact Hrow
    · iapply (reached_at m Kn (sh c (j + 1), 0)); iexact HR

/-- The send to the device j+1 places on: c's row, read at its (j+1)-th share, written into c's row of that device's
    gather buffer (handed over by that device's entry signal); it pays duty j+1 of c's send cell and duty j+1 of that
    device's receive cell, whose payload is that row landed. -/
theorem step_send (c : Dev nD) (j : ℕ) (hj : j < 31) (n : Dev nD) (hn : n = sh c (j + 1))
    {hsc : ((rowM c) : Memref sig (Dev.tc n : Thread nD τ).2.kind .vmem S1x768 .f32).view.ref.isScScratch = false}
    {hsrc : (rowM c).view.WordExact} {hdst : (rowM c).view.WordExact}
    {hsem : DmaTarget.Typed .vmem (.dma recvS.sem) (.remote (Dev.tc n : Thread nD τ) (rowM c) (.dma sendS.sem) hsc)}
    {α : Type} {Q : α → sProp 𝕄} {k : PUnit → Prog (TpuEff nD τ sig (Elt F) Λ₀ .tc) α} (W : Waits sig Unit)
    (fd : Buf (Elt F) ((rowM c).view.loc (sh c (j + 1) : Thread nD τ))) :
    iprop(records m Kn ∗ rowPts c c (Transfers.shareTokN fullShare (j + 1)) (G m) ∗ rowPts (sh c (j + 1)) c fullShare fd
        ∗ owes (c : Thread nD τ) (owe c 31 j) W
        ∗ dutyTok ER (sendCell c) 0 (j + 1) ∗ dutyTok ER (recvCell (sh c (j + 1))) 0 (j + 1))
      ⊢ iprop(((cred (tallyAt (sendCell c) () N) ∗ owes (c : Thread nD τ) (owe c 31 (j + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma sendS.sem) hsc) (.dma recvS.sem) hsrc hdst hsem) k) Q) := by
  subst hn
  iintro ⟨#HR, Hsrc, Hdst, HO, HtS, HtV⟩
  unfold rowPts
  iapply (Rounds.wp_send_pointsTo 𝒱₀ ER (sched m) (c : Thread nD τ) none (κ₁ := Kn (c, 2)) (κ₂ := Kn (sh c (j + 1), 3))
      (r₁ := 0) (r₂ := 0) (d₁ := j + 1) (d₂ := j + 1) (fd := fd)
      (by rw [duties_send]; exact mem_K (by omega) (by omega)) (by rw [duties_recv]; exact mem_K (by omega) (by omega))
      () () N rfl (amount_send m c (j + 1)) (amount_recv m (sh c (j + 1)) (j + 1)) (owe c 31 (j + 1)) (owe_send c 31 j hj) (W := W)
      (by rw [payload_send]; unfold sendPay rowPts; exact BI.Entails.refl _)
      (by
        rw [payload_recv]; unfold recvPay rowPts; rw [bk_sh]
        refine Entails.of_eq ?_
        rw [rowM_set]
        exact pointsTo_congr (row_write_read c fd (G m)))) $$ [Hsrc Hdst HO HtS HtV]
  · isplitr; · iapply (inv_at m Kn (c, 2)); iexact HR
    isplitr; · iapply (inv_at m Kn (sh c (j + 1), 3)); iexact HR
    isplitl [Hsrc]; · iexact Hsrc
    isplitl [Hdst]; · iexact Hdst
    isplitl [HO]; · iexact HO
    isplitl [HtS]; · iexact HtS
    isplitr; · iapply (reached_at m Kn (c, 2)); iexact HR
    isplitl [HtV]; · iexact HtV
    iapply (reached_at m Kn (sh c (j + 1), 3)); iexact HR

/-- The barrier wait: 31 units, the rest (all) of the round; every other device's copy of c's row comes with it. -/
theorem step_barwait (c : Dev nD) (jx : ℕ) (k' : ℕ) (hk' : k' = 31)
    {α : Type} {Q : α → sProp 𝕄} {k : PUnit → Prog (TpuEff nD τ sig (Elt F) Λ₀ .tc) α} (W : Waits sig Unit) :
    iprop(records m Kn ∗ cred (tallyAt (barCell c) () 31) ∗ owes (c : Thread nD τ) (owe c 31 jx) W ∗ levAts L lv ∗ atPos ER (barCell c) 0 ∅ 0)
      ⊢ iprop(((owes (c : Thread nD τ) (owe c 31 jx) (insert (SemLoc.reg barS, ()) W) ∗ bigSep K (fun k => barPay (F := F) c k))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, #Hlev, Hat⟩
  iintro Hk
  iapply (Rounds.wp_wait_rest_token 𝒱₀ ER (sched m) (c : Thread nD τ) none (κ := Kn (c, 0))
      (wpE_semWait_eq 𝒱₀ (c : Thread nD τ) none Set.univ) (Set.mem_univ _) () (O := owe c 31 jx) (W := W) (R := 0) (m := 0) (T := ∅)
      (by rw [expect_bar])) $$ [Hc HO Hat]
  · isplitr; · iapply (inv_at m Kn (c, 0)); iexact HR
    isplitl [Hc]; · iexact Hc
    isplitl [HO]; · iexact HO
    isplitr; · iapply (mayWait_bar c jx); iexact Hlev
    iexact Hat
  iintro ⟨HO, -, -, Hpay⟩
  ihave Hp := (Entails.of_eq (rest_bar m c)) $$ Hpay
  iapply Hk
  isplitl [HO]; · iexact HO
  iexact Hp

/-- The copy of the block of x into VMEM: it pays the one duty of c's copy cell; what comes back with the wait is the
    VMEM buffer holding the block, and the block itself. -/
theorem step_copy (c : Dev nD)
    {hsrc : (xH : Memref sig .tc .hbm S1536x768 .f32).view.WordExact} {hdst : (xV : Memref sig .tc .vmem S1536x768 .f32).view.WordExact}
    {hsem : DmaTarget.Typed (nD := nD) .hbm (.dma cpS.sem) (DmaTarget.here (p := (c : Thread nD τ).2) (xV : Memref sig .tc .vmem S1536x768 .f32))}
    {α : Type} {Q : α → sProp 𝕄} {k : PUnit → Prog (TpuEff nD τ sig (Elt F) Λ₀ .tc) α}
    (fd : Buf (Elt F) ((c : Thread nD τ).loc cc0_scratch0)) :
    iprop(records m Kn ∗ xPts m c ∗ (((c : Thread nD τ).loc cc0_scratch0) ↦{fullShare} fd) ∗ dutyTok ER (cpCell c) 0 0)
      ⊢ iprop((cred (tallyAt (cpCell c) () cpAmt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xH : Memref sig .tc .hbm S1536x768 .f32) (DmaTarget.here (p := (c : Thread nD τ).2) (xV : Memref sig .tc .vmem S1536x768 .f32)) (.dma cpS.sem) hsrc hdst hsem) k) Q) := by
  iintro ⟨#HR, Hx, Hv, Htok⟩
  unfold xPts
  iapply (Rounds.wp_copy_pointsTo 𝒱₀ ER (sched m) (c : Thread nD τ) none (κ := Kn (c, 1)) (r := 0) (d := 0) (fd := fd) (fs := xs m c) (q := fullShare)
      (by rw [duties_cp]; exact Finset.mem_singleton_self _) () cpAmt (by rw [cpAmt_def]) (amount_cp m c 0)
      (by rw [payload_cp]; unfold cpPay; rw [cp_landed])) $$ [Hx Hv Htok]
  · isplitr; · iapply (inv_at m Kn (c, 1)); iexact HR
    isplitl [Hx]; · rw [View.set_whole]; iexact Hx
    isplitl [Hv]; · rw [View.set_whole]; iexact Hv
    isplitl [Htok]; · iexact Htok
    iapply (reached_at m Kn (c, 1)); iexact HR

/-- The wait for the copy: the rest (all) of the copy cell's round. -/
theorem step_cpwait (c : Dev nD) (js jx : ℕ)
    {src : Memref sig .tc .hbm S1536x768 .f32} {hsrc : src.view.WordExact} {hdst : (xV : Memref sig .tc .vmem S1536x768 .f32).view.WordExact}
    {α : Type} {Q : α → sProp 𝕄} {k : PUnit → Prog (TpuEff nD τ sig (Elt F) Λ₀ .tc) α} (W : Waits sig Unit) :
    iprop(records m Kn ∗ cred (tallyAt (cpCell c) () cpAmt) ∗ owes (c : Thread nD τ) (owe c js jx) W ∗ levAts L lv ∗ atPos ER (cpCell c) 0 ∅ 0)
      ⊢ iprop(((owes (c : Thread nD τ) (owe c js jx) (insert (SemLoc.dma cpS.sem, ()) W) ∗ atPos ER (cpCell c) 1 ∅ 0 ∗ cpPay m c)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 cpS.sem src (xV : Memref sig .tc .vmem S1536x768 .f32) hsrc hdst) k) Q) := by
  iintro ⟨#HR, Hc, HO, #Hlev, Hat⟩
  iintro Hk
  rw [cpAmt_def]
  iapply (Rounds.wp_wait_rest_token 𝒱₀ ER (sched m) (c : Thread nD τ) none (κ := Kn (c, 1))
      (wpE_waitDma2_eq 𝒱₀ (c : Thread nD τ) none Set.univ) (Set.mem_univ _) () (O := owe c js jx) (W := W) (R := 0) (m := 0) (T := ∅)
      (by rw [Nat.zero_add, expect_cp, cpAmt_def])) $$ [Hc HO Hat]
  · isplitr; · iapply (inv_at m Kn (c, 1)); iexact HR
    isplitl [Hc]; · iexact Hc
    isplitl [HO]; · iexact HO
    isplitr; · iapply (mayWait_low c cpS.sem cp_ne_recv js jx); iexact Hlev
    iexact Hat
  iintro ⟨HO, Hat, -, Hpay⟩
  ihave Hp := (Entails.of_eq (rest_cp m c)) $$ Hpay
  iapply Hk
  isplitl [HO]; · iexact HO
  isplitl [Hat]; · iexact Hat
  iexact Hp

end Cert.KernelIdeal.P

end
-- ==== Proof.States.lean ====
/-
  The body's progress through its four runs of 31 steps, as four families of assertions indexed by how many steps are
  done: the entry signals, the sends, the receive waits, the send waits. One lemma per family moves it one step on.
-/
import proofs.«901077_g7700000000001078_dist_sum_ax0_shard0_i_m1536_n768_v7x_i32_bf16_1_alg».proof.Proof.Steps

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

/-- After js entry signals: what c still owes, and for each offset still to come the signal's token and the row of c's
    gather buffer it hands over. -/
def sigSt (c : Dev nD) (js : ℕ) : sProp 𝕄 :=
  iprop((∃ W, owes (c : Thread nD τ) (owe c js 0) W)
    ∗ bigSep (Finset.Ioc js 31) (fun k => iprop(dutyTok ER (barCell (sh c k)) 0 k ∗ ∃ f, rowPts (F := F) c (sh c k) fullShare f)))

/-- After jx sends: what c still owes, the credit its sends have earned on its send cell, for each offset still to come
    the two tokens and the read share of its own row, and what the barrier wait handed over and no send has used yet:
    c's row of the gather buffer of each device 1, …, 31 - jx places BEFORE c (the device jx + 1 places after c is the
    one 31 - jx places before it). -/
def sendSt (c : Dev nD) (jx : ℕ) : sProp 𝕄 :=
  iprop((∃ W, owes (c : Thread nD τ) (owe c 31 jx) W) ∗ cred (tallyAt (sendCell c) () (jx * N))
    ∗ bigSep (Finset.Ioc jx 31) (fun k => iprop(dutyTok ER (sendCell c) 0 k ∗ dutyTok ER (recvCell (sh c k)) 0 k
        ∗ rowPts c c (Transfers.shareTokN fullShare k) (G m)))
    ∗ bigSep (Finset.Icc 1 (31 - jx)) (fun k => barPay (F := F) c k))

/-- After jr receive waits: nothing owed, the credit for the waits to come, and the rows that have landed so far. -/
def recvSt (c : Dev nD) (jr : ℕ) : sProp 𝕄 :=
  iprop((∃ W, owes (c : Thread nD τ) (0 : CellTallies nD τ sig Unit) W) ∗ cred (tallyAt (recvCell c) () ((31 - jr) * N))
    ∗ waitAcc ER (sched m) (c : Thread nD τ) (.dma recvS.sem) 0 (jr * N))

/-- After jw send waits: nothing owed, the credit for the waits to come, and the read shares that have come back. -/
def swSt (c : Dev nD) (jw : ℕ) : sProp 𝕄 :=
  iprop((∃ W, owes (c : Thread nD τ) (0 : CellTallies nD τ sig Unit) W) ∗ cred (tallyAt (sendCell c) () ((31 - jw) * N))
    ∗ waitAcc ER (sched m) (c : Thread nD τ) (.dma sendS.sem) 0 (jw * N))

omit [FloatOps F] in
theorem bigSep_Ioc_peel {j : ℕ} (h : j < 31) (Φ : ℕ → sProp 𝕄) :
    bigSep (Finset.Ioc j 31) Φ = iprop(Φ (j + 1) ∗ bigSep (Finset.Ioc (j + 1) 31) Φ) := by
  rw [Ioc_peel h, BI.bigSep_insert (notMem_Ioc_succ j)]; rfl

/-- One entry signal on. -/
theorem step_sig_st (c : Dev nD) (js : ℕ) (hj : js < 31) (n : Dev nD) (hn : n = sh c (js + 1)) (k' : ℕ) (hk' : k' = 1)
    {α : Type} {Q : α → sProp 𝕄} {k : PUnit → Prog (TpuEff nD τ sig (Elt F) Λ₀ .tc) α} :
    iprop(records m Kn ∗ sigSt c js)
      ⊢ iprop((sigSt c (js + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  unfold sigSt
  rw [bigSep_Ioc_peel hj]
  iintro ⟨#HR, ⟨%W, HO⟩, ⟨Htok, ⟨%f, Hrow⟩⟩, Hrest⟩
  iintro Hk
  iapply (step_signal m Kn c js 0 hj n hn k' hk' W f) $$ [HO Htok Hrow]
  · isplitr; · iexact HR
    isplitl [HO]; · iexact HO
    isplitl [Htok]; · iexact Htok
    iexact Hrow
  iintro HO
  iapply Hk
  isplitl [HO]; · iexists W; iexact HO
  iexact Hrest

theorem bk_flip (c : Dev nD) {j : ℕ} (h : j < 31) : bk c (31 - j) = sh c (j + 1) := by
  apply Fin.ext; show (c.val + (32 - (31 - j) % 32)) % 32 = (c.val + (j + 1)) % 32
  have := c.isLt; have : nD = 32 := rfl; omega

theorem Icc_peel_top {j : ℕ} (h : j < 31) : Finset.Icc 1 (31 - j) = insert (31 - j) (Finset.Icc 1 (31 - (j + 1))) := by
  ext x; simp only [Finset.mem_Icc, Finset.mem_insert]; omega
omit [FloatOps F] in
theorem bigSep_Icc_top {j : ℕ} (h : j < 31) (Φ : ℕ → sProp 𝕄) :
    bigSep (Finset.Icc 1 (31 - j)) Φ = iprop(Φ (31 - j) ∗ bigSep (Finset.Icc 1 (31 - (j + 1))) Φ) := by
  rw [Icc_peel_top h, BI.bigSep_insert (by simp only [Finset.mem_Icc]; omega)]; rfl

/-- One send on. -/
theorem step_send_st (c : Dev nD) (jx : ℕ) (hj : jx < 31) (n : Dev nD) (hn : n = sh c (jx + 1))
    {hsc : ((rowM c) : Memref sig (Dev.tc n : Thread nD τ).2.kind .vmem S1x768 .f32).view.ref.isScScratch = false}
    {hsrc : (rowM c).view.WordExact} {hdst : (rowM c).view.WordExact}
    {hsem : DmaTarget.Typed .vmem (.dma recvS.sem) (.remote (Dev.tc n : Thread nD τ) (rowM c) (.dma sendS.sem) hsc)}
    {α : Type} {Q : α → sProp 𝕄} {k : PUnit → Prog (TpuEff nD τ sig (Elt F) Λ₀ .tc) α} :
    iprop(records m Kn ∗ sendSt m c jx)
      ⊢ iprop((sendSt m c (jx + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma sendS.sem) hsc) (.dma recvS.sem) hsrc hdst hsem) k) Q) := by
  unfold sendSt
  rw [bigSep_Ioc_peel hj, bigSep_Icc_top hj]
  unfold barPay
  rw [bk_flip c hj]
  iintro ⟨#HR, ⟨%W, HO⟩, Hcr, ⟨⟨HtS, HtV, Hsrc⟩, Hrest⟩, ⟨%fd, Hdst⟩, Hrows⟩
  iintro Hk
  iapply (step_send m Kn c jx hj n hn W fd) $$ [HO HtS HtV Hsrc Hdst]
  · isplitr; · iexact HR
    isplitl [Hsrc]; · iexact Hsrc
    isplitl [Hdst]; · iexact Hdst
    isplitl [HO]; · iexact HO
    isplitl [HtS]; · iexact HtS
    iexact HtV
  iintro ⟨Hc1, HO⟩
  iapply Hk
  isplitl [HO]; · iexists W; iexact HO
  isplitl [Hcr Hc1]
  · rw [Nat.succ_mul, ← tallyAt_add]
    iapply (cred_add _ _).2
    isplitl [Hcr]; · iexact Hcr
    iexact Hc1
  isplitl [Hrest]; · iexact Hrest
  iexact Hrows

/-- One recv wait on (not the last): one row's credit consumed, whatever has landed taken. -/
theorem step_recvwait_st (c : Dev nD) (j : ℕ) (hj : j < 30)
    {hsrc : (rowM c).view.WordExact} {hdst : (rowM c).view.WordExact}
    {α : Type} {Q : α → sProp 𝕄} {k : PUnit → Prog (TpuEff nD τ sig (Elt F) Λ₀ .tc) α} :
    iprop(records m Kn ∗ recvSt m c j)
      ⊢ iprop((recvSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS.sem (rowM c) (rowM c) hsrc hdst) k) Q) := by
  have hdstN : (rowM c).view.amount (.dma recvS.sem) = N := rfl
  unfold recvSt
  rw [show (31 - j) * N = (31 - (j + 1)) * N + N from by rw [show 31 - j = (31 - (j + 1)) + 1 from by omega, Nat.succ_mul], ← tallyAt_add]
  iintro ⟨#HR, ⟨%W, HO⟩, Hcr, Hacc⟩
  iintro Hk
  ihave Hcr2 := (cred_add _ _).1 $$ Hcr
  icases Hcr2 with ⟨Hcr, Hc1⟩
  rw [← hdstN]
  iapply (Rounds.wp_wait_acc 𝒱₀ ER (sched m) (c : Thread nD τ) none (κ := Kn (c, 3))
      (wpE_waitDma2_eq 𝒱₀ (c : Thread nD τ) none Set.univ) (Set.mem_univ _) () (O := 0) (W := W) (R := 0) (mm := j * (rowM c).view.amount (.dma recvS.sem))) $$ [Hc1 HO Hacc]
  · isplitr; · iapply (inv_at m Kn (c, 3)); iexact HR
    isplitl [Hc1]; · iexact Hc1
    isplitl [HO]; · iexact HO
    isplitr; · rw [MayWait_zero]; iempintro
    iexact Hacc
  iintro ⟨HO, Hacc⟩
  iapply Hk
  isplitl [HO]; · iexists _; iexact HO
  isplitl [Hcr]; · iexact Hcr
  rw [Nat.succ_mul]; iexact Hacc

/-- The last recv wait: the rest of the round; every payload of the round is now held. -/
theorem step_recvwait_last (c : Dev nD)
    {hsrc : (rowM c).view.WordExact} {hdst : (rowM c).view.WordExact}
    {α : Type} {Q : α → sProp 𝕄} {k : PUnit → Prog (TpuEff nD τ sig (Elt F) Λ₀ .tc) α} :
    iprop(records m Kn ∗ recvSt m c 30)
      ⊢ iprop((((∃ W, owes (c : Thread nD τ) (0 : CellTallies nD τ sig Unit) W) ∗ atPos ER (recvCell c) 1 ∅ 0
                ∗ bigSep K (fun k => (sched (F := F) m).payload (recvCell c) 0 k))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS.sem (rowM c) (rowM c) hsrc hdst) k) Q) := by
  have hdstN : (rowM c).view.amount (.dma recvS.sem) = N := rfl
  unfold recvSt
  rw [show (31 - 30) * N = N from by rw [show 31 - 30 = 1 from rfl, Nat.one_mul]]
  iintro ⟨#HR, ⟨%W, HO⟩, Hc1, Hacc⟩
  iintro Hk
  rw [← hdstN]
  iapply (Rounds.wp_wait_acc_rest 𝒱₀ ER (sched m) (c : Thread nD τ) none (κ := Kn (c, 3))
      (wpE_waitDma2_eq 𝒱₀ (c : Thread nD τ) none Set.univ) (Set.mem_univ _) () (O := 0) (W := W) (R := 0) (mm := 30 * (rowM c).view.amount (.dma recvS.sem))
      (by rw [expect_recv]; have h2 : (rowM c).view.dmaCredit = N := hdstN; have h3 : (rowM c).view.amount (.dma recvS.sem) = N := hdstN; omega)) $$ [Hc1 HO Hacc]
  · isplitr; · iapply (inv_at m Kn (c, 3)); iexact HR
    isplitl [Hc1]; · iexact Hc1
    isplitl [HO]; · iexact HO
    isplitr; · rw [MayWait_zero]; iempintro
    iexact Hacc
  iintro ⟨HO, Hat, #Hr1, Hpay⟩
  iapply Hk
  isplitl [HO]; · iexists _; iexact HO
  isplitl [Hat]; · iexact Hat
  rw [duties_recv]; iexact Hpay

/-- One send wait on (not the last): one row's credit consumed, whatever has landed taken. -/
theorem step_sendwait_st (c : Dev nD) (j : ℕ) (hj : j < 30)
    {hsrc : (rowM c).view.WordExact} {hdst : (rowM c).view.WordExact}
    {α : Type} {Q : α → sProp 𝕄} {k : PUnit → Prog (TpuEff nD τ sig (Elt F) Λ₀ .tc) α} :
    iprop(records m Kn ∗ swSt m c j)
      ⊢ iprop((swSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS.sem (rowM c) (rowM c) hsrc hdst) k) Q) := by
  have hdstN : (rowM c).view.amount (.dma sendS.sem) = N := rfl
  unfold swSt
  rw [show (31 - j) * N = (31 - (j + 1)) * N + N from by rw [show 31 - j = (31 - (j + 1)) + 1 from by omega, Nat.succ_mul], ← tallyAt_add]
  iintro ⟨#HR, ⟨%W, HO⟩, Hcr, Hacc⟩
  iintro Hk
  ihave Hcr2 := (cred_add _ _).1 $$ Hcr
  icases Hcr2 with ⟨Hcr, Hc1⟩
  rw [← hdstN]
  iapply (Rounds.wp_wait_acc 𝒱₀ ER (sched m) (c : Thread nD τ) none (κ := Kn (c, 2))
      (wpE_waitDma2_eq 𝒱₀ (c : Thread nD τ) none Set.univ) (Set.mem_univ _) () (O := 0) (W := W) (R := 0) (mm := j * (rowM c).view.amount (.dma sendS.sem))) $$ [Hc1 HO Hacc]
  · isplitr; · iapply (inv_at m Kn (c, 2)); iexact HR
    isplitl [Hc1]; · iexact Hc1
    isplitl [HO]; · iexact HO
    isplitr; · rw [MayWait_zero]; iempintro
    iexact Hacc
  iintro ⟨HO, Hacc⟩
  iapply Hk
  isplitl [HO]; · iexists _; iexact HO
  isplitl [Hcr]; · iexact Hcr
  rw [Nat.succ_mul]; iexact Hacc

/-- The last send wait: the rest of the round; every payload of the round is now held. -/
theorem step_sendwait_last (c : Dev nD)
    {hsrc : (rowM c).view.WordExact} {hdst : (rowM c).view.WordExact}
    {α : Type} {Q : α → sProp 𝕄} {k : PUnit → Prog (TpuEff nD τ sig (Elt F) Λ₀ .tc) α} :
    iprop(records m Kn ∗ swSt m c 30)
      ⊢ iprop((((∃ W, owes (c : Thread nD τ) (0 : CellTallies nD τ sig Unit) W) ∗ atPos ER (sendCell c) 1 ∅ 0
                ∗ bigSep K (fun k => (sched (F := F) m).payload (sendCell c) 0 k))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS.sem (rowM c) (rowM c) hsrc hdst) k) Q) := by
  have hdstN : (rowM c).view.amount (.dma sendS.sem) = N := rfl
  unfold swSt
  rw [show (31 - 30) * N = N from by rw [show 31 - 30 = 1 from rfl, Nat.one_mul]]
  iintro ⟨#HR, ⟨%W, HO⟩, Hc1, Hacc⟩
  iintro Hk
  rw [← hdstN]
  iapply (Rounds.wp_wait_acc_rest 𝒱₀ ER (sched m) (c : Thread nD τ) none (κ := Kn (c, 2))
      (wpE_waitDma2_eq 𝒱₀ (c : Thread nD τ) none Set.univ) (Set.mem_univ _) () (O := 0) (W := W) (R := 0) (mm := 30 * (rowM c).view.amount (.dma sendS.sem))
      (by rw [expect_send]; have h2 : (rowM c).view.dmaCredit = N := hdstN; have h3 : (rowM c).view.amount (.dma sendS.sem) = N := hdstN; omega)) $$ [Hc1 HO Hacc]
  · isplitr; · iapply (inv_at m Kn (c, 2)); iexact HR
    isplitl [Hc1]; · iexact Hc1
    isplitl [HO]; · iexact HO
    isplitr; · rw [MayWait_zero]; iempintro
    iexact Hacc
  iintro ⟨HO, Hat, #Hr1, Hpay⟩
  iapply Hk
  isplitl [HO]; · iexists _; iexact HO
  isplitl [Hat]; · iexact Hat
  rw [duties_send]; iexact Hpay

end Cert.KernelIdeal.P

end
-- ==== Proof.PartsSig.lean ====
/-
  The entry signals, part by part of the printed body: each part sends the next few signals in order.
-/
import proofs.«901077_g7700000000001078_dist_sum_ax0_shard0_i_m1536_n768_v7x_i32_bf16_1_alg».proof.Proof.States

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 4000000 in
theorem part2_spec (c : Dev nD) (v2 : BitVec 32) (Kt : PUnit → sProp 𝕄) :
    iprop(records m Kn ∗ sigSt (F := F) c 8 ∗ (sigSt (F := F) c 18 -∗ Kt ⟨⟩))
      ⊢ wp frame (wpE (defs₀ (F := F)) 𝒱₀ (c : Thread nD τ) none) Set.univ
          (k0_part2 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 (SemArray.scalar (sig.barrier 0 rfl) : Sems sig S_)) Kt := by
  rw [k0_part2_eq_skeleton]; unfold k0_part2_skel
  simp only [semSignalWord, Prog.lift, Prog.bind_op, Prog.bind_ret, Prog.pure_eq_ret]
  iintro ⟨#HR, Hst, Hk⟩
  iapply (step_sig_st m Kn c 8 (by omega) _ (Fin.ext (k0_dev9_eq c)) _ (by decide)) $$ [Hst]
  · isplitr; · iexact HR
    iexact Hst
  iintro Hst
  iapply (step_sig_st m Kn c 9 (by omega) _ (Fin.ext (k0_dev10_eq c)) _ (by decide)) $$ [Hst]
  · isplitr; · iexact HR
    iexact Hst
  iintro Hst
  iapply (step_sig_st m Kn c 10 (by omega) _ (Fin.ext (k0_dev11_eq c)) _ (by decide)) $$ [Hst]
  · isplitr; · iexact HR
    iexact Hst
  iintro Hst
  iapply (step_sig_st m Kn c 11 (by omega) _ (Fin.ext (k0_dev12_eq c)) _ (by decide)) $$ [Hst]
  · isplitr; · iexact HR
    iexact Hst
  iintro Hst
  iapply (step_sig_st m Kn c 12 (by omega) _ (Fin.ext (k0_dev13_eq c)) _ (by decide)) $$ [Hst]
  · isplitr; · iexact HR
    iexact Hst
  iintro Hst
  iapply (step_sig_st m Kn c 13 (by omega) _ (Fin.ext (k0_dev14_eq c)) _ (by decide)) $$ [Hst]
  · isplitr; · iexact HR
    iexact Hst
  iintro Hst
  iapply (step_sig_st m Kn c 14 (by omega) _ (Fin.ext (k0_dev15_eq c)) _ (by decide)) $$ [Hst]
  · isplitr; · iexact HR
    iexact Hst
  iintro Hst
  iapply (step_sig_st m Kn c 15 (by omega) _ (Fin.ext (k0_dev16_eq c)) _ (by decide)) $$ [Hst]
  · isplitr; · iexact HR
    iexact Hst
  iintro Hst
  iapply (step_sig_st m Kn c 16 (by omega) _ (Fin.ext (k0_dev17_eq c)) _ (by decide)) $$ [Hst]
  · isplitr; · iexact HR
    iexact Hst
  iintro Hst
  iapply (step_sig_st m Kn c 17 (by omega) _ (Fin.ext (k0_dev18_eq c)) _ (by decide)) $$ [Hst]
  · isplitr; · iexact HR
    iexact Hst
  iintro Hst
  rw [wp_ret]; imodintro
  iapply Hk; iexact Hst

set_option maxHeartbeats 4000000 in
/-- The first part of the body: the device reads its own id, then sends the first eight entry signals;
    it returns its id, its id's word reduced modulo 32, and the barrier semaphore. -/
theorem part1_spec (c : Dev nD) (Kt : (Σ' (d0 : Dev nD) (v2 : BitVec 32), Sems sig S_) → sProp 𝕄) :
    iprop(records m Kn ∗ sigSt (F := F) c 0
        ∗ (sigSt (F := F) c 8 -∗ Kt ⟨c, Scalar.remsi (Scalar.divsi (Dev.word c) 1#32) 32#32, (SemArray.scalar (sig.barrier 0 rfl) : Sems sig S_)⟩))
      ⊢ wp frame (wpE (defs₀ (F := F)) 𝒱₀ (c : Thread nD τ) none) Set.univ
          (k0_part1 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS) Kt := by
  rw [k0_part1_eq_skeleton]; unfold k0_part1_skel
  simp only [semSignalWord, Prog.lift, Prog.bind_op, Prog.bind_ret, Prog.pure_eq_ret, wp_deviceId]
  iintro ⟨#HR, Hst, Hk⟩
  iapply (step_sig_st m Kn c 0 (by omega) _ (Fin.ext (k0_dev1_eq c)) _ (by decide)) $$ [Hst]
  · isplitr; · iexact HR
    iexact Hst
  iintro Hst
  iapply (step_sig_st m Kn c 1 (by omega) _ (Fin.ext (k0_dev2_eq c)) _ (by decide)) $$ [Hst]
  · isplitr; · iexact HR
    iexact Hst
  iintro Hst
  iapply (step_sig_st m Kn c 2 (by omega) _ (Fin.ext (k0_dev3_eq c)) _ (by decide)) $$ [Hst]
  · isplitr; · iexact HR
    iexact Hst
  iintro Hst
  iapply (step_sig_st m Kn c 3 (by omega) _ (Fin.ext (k0_dev4_eq c)) _ (by decide)) $$ [Hst]
  · isplitr; · iexact HR
    iexact Hst
  iintro Hst
  iapply (step_sig_st m Kn c 4 (by omega) _ (Fin.ext (k0_dev5_eq c)) _ (by decide)) $$ [Hst]
  · isplitr; · iexact HR
    iexact Hst
  iintro Hst
  iapply (step_sig_st m Kn c 5 (by omega) _ (Fin.ext (k0_dev6_eq c)) _ (by decide)) $$ [Hst]
  · isplitr; · iexact HR
    iexact Hst
  iintro Hst
  iapply (step_sig_st m Kn c 6 (by omega) _ (Fin.ext (k0_dev7_eq c)) _ (by decide)) $$ [Hst]
  · isplitr; · iexact HR
    iexact Hst
  iintro Hst
  iapply (step_sig_st m Kn c 7 (by omega) _ (Fin.ext (k0_dev8_eq c)) _ (by decide)) $$ [Hst]
  · isplitr; · iexact HR
    iexact Hst
  iintro Hst
  rw [wp_ret]; imodintro
  iapply Hk; iexact Hst

set_option maxHeartbeats 4000000 in
/-- The third part of the body: the entry signals 19 to 28. -/
theorem part3_spec (c : Dev nD) (v2 : BitVec 32) (Kt : PUnit → sProp 𝕄) :
    iprop(records m Kn ∗ sigSt (F := F) c 18 ∗ (sigSt (F := F) c 28 -∗ Kt ⟨⟩))
      ⊢ wp frame (wpE (defs₀ (F := F)) 𝒱₀ (c : Thread nD τ) none) Set.univ
          (k0_part3 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 (SemArray.scalar (sig.barrier 0 rfl) : Sems sig S_)) Kt := by
  rw [k0_part3_eq_skeleton]; unfold k0_part3_skel
  simp only [semSignalWord, Prog.lift, Prog.bind_op, Prog.bind_ret, Prog.pure_eq_ret]
  iintro ⟨#HR, Hst, Hk⟩
  iapply (step_sig_st m Kn c 18 (by omega) _ (Fin.ext (k0_dev19_eq c)) _ (by decide)) $$ [Hst]
  · isplitr; · iexact HR
    iexact Hst
  iintro Hst
  iapply (step_sig_st m Kn c 19 (by omega) _ (Fin.ext (k0_dev20_eq c)) _ (by decide)) $$ [Hst]
  · isplitr; · iexact HR
    iexact Hst
  iintro Hst
  iapply (step_sig_st m Kn c 20 (by omega) _ (Fin.ext (k0_dev21_eq c)) _ (by decide)) $$ [Hst]
  · isplitr; · iexact HR
    iexact Hst
  iintro Hst
  iapply (step_sig_st m Kn c 21 (by omega) _ (Fin.ext (k0_dev22_eq c)) _ (by decide)) $$ [Hst]
  · isplitr; · iexact HR
    iexact Hst
  iintro Hst
  iapply (step_sig_st m Kn c 22 (by omega) _ (Fin.ext (k0_dev23_eq c)) _ (by decide)) $$ [Hst]
  · isplitr; · iexact HR
    iexact Hst
  iintro Hst
  iapply (step_sig_st m Kn c 23 (by omega) _ (Fin.ext (k0_dev24_eq c)) _ (by decide)) $$ [Hst]
  · isplitr; · iexact HR
    iexact Hst
  iintro Hst
  iapply (step_sig_st m Kn c 24 (by omega) _ (Fin.ext (k0_dev25_eq c)) _ (by decide)) $$ [Hst]
  · isplitr; · iexact HR
    iexact Hst
  iintro Hst
  iapply (step_sig_st m Kn c 25 (by omega) _ (Fin.ext (k0_dev26_eq c)) _ (by decide)) $$ [Hst]
  · isplitr; · iexact HR
    iexact Hst
  iintro Hst
  iapply (step_sig_st m Kn c 26 (by omega) _ (Fin.ext (k0_dev27_eq c)) _ (by decide)) $$ [Hst]
  · isplitr; · iexact HR
    iexact Hst
  iintro Hst
  iapply (step_sig_st m Kn c 27 (by omega) _ (Fin.ext (k0_dev28_eq c)) _ (by decide)) $$ [Hst]
  · isplitr; · iexact HR
    iexact Hst
  iintro Hst
  rw [wp_ret]; imodintro
  iapply Hk; iexact Hst

end Cert.KernelIdeal.P

end
-- ==== Proof.PartsSend.lean ====
/-
  The sends, part by part of the printed body: each part issues the next few sends in order, each send
  copying the device's own row of the gather buffer to the same row of the device that many places after it.
-/
import proofs.«901077_g7700000000001078_dist_sum_ax0_shard0_i_m1536_n768_v7x_i32_bf16_1_alg».proof.Proof.States

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 4000000 in
/-- The fifth part of the body: the sends 3 to 6. -/
theorem part5_spec (c : Dev nD) (v2 : BitVec 32) (v86 : BitVec 32) (Kt : PUnit → sProp 𝕄) :
    iprop(records m Kn ∗ sendSt (F := F) m c 2 ∗ (sendSt (F := F) m c 6 -∗ Kt ⟨⟩))
      ⊢ wp frame (wpE (defs₀ (F := F)) 𝒱₀ (c : Thread nD τ) none) Set.univ
          (k0_part5 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 v86) Kt := by
  rw [k0_part5_eq_skeleton]; unfold k0_part5_skel
  simp only [Prog.lift, Prog.bind_op, Prog.bind_ret, Prog.pure_eq_ret]
  iintro ⟨#HR, Hst, Hk⟩
  iapply (step_send_st m Kn c 2 (by omega) _ (Fin.ext (k0_dev34_eq c))) $$ [Hst]
  · isplitr; · iexact HR
    iexact Hst
  iintro Hst
  iapply (step_send_st m Kn c 3 (by omega) _ (Fin.ext (k0_dev35_eq c))) $$ [Hst]
  · isplitr; · iexact HR
    iexact Hst
  iintro Hst
  iapply (step_send_st m Kn c 4 (by omega) _ (Fin.ext (k0_dev36_eq c))) $$ [Hst]
  · isplitr; · iexact HR
    iexact Hst
  iintro Hst
  iapply (step_send_st m Kn c 5 (by omega) _ (Fin.ext (k0_dev37_eq c))) $$ [Hst]
  · isplitr; · iexact HR
    iexact Hst
  iintro Hst
  rw [wp_ret]; imodintro
  iapply Hk; iexact Hst

set_option maxHeartbeats 4000000 in
/-- The sixth part of the body: the sends 7 to 11. -/
theorem part6_spec (c : Dev nD) (v2 : BitVec 32) (Kt : PUnit → sProp 𝕄) :
    iprop(records m Kn ∗ sendSt (F := F) m c 6 ∗ (sendSt (F := F) m c 11 -∗ Kt ⟨⟩))
      ⊢ wp frame (wpE (defs₀ (F := F)) 𝒱₀ (c : Thread nD τ) none) Set.univ
          (k0_part6 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part6_eq_skeleton]; unfold k0_part6_skel
  simp only [Prog.lift, Prog.bind_op, Prog.bind_ret, Prog.pure_eq_ret]
  iintro ⟨#HR, Hst, Hk⟩
  iapply (step_send_st m Kn c 6 (by omega) _ (Fin.ext (k0_dev38_eq c))) $$ [Hst]
  · isplitr; · iexact HR
    iexact Hst
  iintro Hst
  iapply (step_send_st m Kn c 7 (by omega) _ (Fin.ext (k0_dev39_eq c))) $$ [Hst]
  · isplitr; · iexact HR
    iexact Hst
  iintro Hst
  iapply (step_send_st m Kn c 8 (by omega) _ (Fin.ext (k0_dev40_eq c))) $$ [Hst]
  · isplitr; · iexact HR
    iexact Hst
  iintro Hst
  iapply (step_send_st m Kn c 9 (by omega) _ (Fin.ext (k0_dev41_eq c))) $$ [Hst]
  · isplitr; · iexact HR
    iexact Hst
  iintro Hst
  iapply (step_send_st m Kn c 10 (by omega) _ (Fin.ext (k0_dev42_eq c))) $$ [Hst]
  · isplitr; · iexact HR
    iexact Hst
  iintro Hst
  rw [wp_ret]; imodintro
  iapply Hk; iexact Hst

set_option maxHeartbeats 4000000 in
/-- The seventh part of the body: the sends 12 to 16. -/
theorem part7_spec (c : Dev nD) (v2 : BitVec 32) (Kt : PUnit → sProp 𝕄) :
    iprop(records m Kn ∗ sendSt (F := F) m c 11 ∗ (sendSt (F := F) m c 16 -∗ Kt ⟨⟩))
      ⊢ wp frame (wpE (defs₀ (F := F)) 𝒱₀ (c : Thread nD τ) none) Set.univ
          (k0_part7 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part7_eq_skeleton]; unfold k0_part7_skel
  simp only [Prog.lift, Prog.bind_op, Prog.bind_ret, Prog.pure_eq_ret]
  iintro ⟨#HR, Hst, Hk⟩
  iapply (step_send_st m Kn c 11 (by omega) _ (Fin.ext (k0_dev43_eq c))) $$ [Hst]
  · isplitr; · iexact HR
    iexact Hst
  iintro Hst
  iapply (step_send_st m Kn c 12 (by omega) _ (Fin.ext (k0_dev44_eq c))) $$ [Hst]
  · isplitr; · iexact HR
    iexact Hst
  iintro Hst
  iapply (step_send_st m Kn c 13 (by omega) _ (Fin.ext (k0_dev45_eq c))) $$ [Hst]
  · isplitr; · iexact HR
    iexact Hst
  iintro Hst
  iapply (step_send_st m Kn c 14 (by omega) _ (Fin.ext (k0_dev46_eq c))) $$ [Hst]
  · isplitr; · iexact HR
    iexact Hst
  iintro Hst
  iapply (step_send_st m Kn c 15 (by omega) _ (Fin.ext (k0_dev47_eq c))) $$ [Hst]
  · isplitr; · iexact HR
    iexact Hst
  iintro Hst
  rw [wp_ret]; imodintro
  iapply Hk; iexact Hst

set_option maxHeartbeats 4000000 in
/-- The eighth part of the body: the sends 17 to 20. -/
theorem part8_spec (c : Dev nD) (v2 : BitVec 32) (Kt : PUnit → sProp 𝕄) :
    iprop(records m Kn ∗ sendSt (F := F) m c 16 ∗ (sendSt (F := F) m c 20 -∗ Kt ⟨⟩))
      ⊢ wp frame (wpE (defs₀ (F := F)) 𝒱₀ (c : Thread nD τ) none) Set.univ
          (k0_part8 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part8_eq_skeleton]; unfold k0_part8_skel
  simp only [Prog.lift, Prog.bind_op, Prog.bind_ret, Prog.pure_eq_ret]
  iintro ⟨#HR, Hst, Hk⟩
  iapply (step_send_st m Kn c 16 (by omega) _ (Fin.ext (k0_dev48_eq c))) $$ [Hst]
  · isplitr; · iexact HR
    iexact Hst
  iintro Hst
  iapply (step_send_st m Kn c 17 (by omega) _ (Fin.ext (k0_dev49_eq c))) $$ [Hst]
  · isplitr; · iexact HR
    iexact Hst
  iintro Hst
  iapply (step_send_st m Kn c 18 (by omega) _ (Fin.ext (k0_dev50_eq c))) $$ [Hst]
  · isplitr; · iexact HR
    iexact Hst
  iintro Hst
  iapply (step_send_st m Kn c 19 (by omega) _ (Fin.ext (k0_dev51_eq c))) $$ [Hst]
  · isplitr; · iexact HR
    iexact Hst
  iintro Hst
  rw [wp_ret]; imodintro
  iapply Hk; iexact Hst

set_option maxHeartbeats 4000000 in
/-- The ninth part of the body: the sends 21 to 25; it returns two words the next part takes. -/
theorem part9_spec (c : Dev nD) (v2 : BitVec 32) (Kt : (Σ' (v224 : BitVec 32), BitVec 32) → sProp 𝕄) :
    iprop(records m Kn ∗ sendSt (F := F) m c 20 ∗ (∀ r, sendSt (F := F) m c 25 -∗ Kt r))
      ⊢ wp frame (wpE (defs₀ (F := F)) 𝒱₀ (c : Thread nD τ) none) Set.univ
          (k0_part9 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part9_eq_skeleton]; unfold k0_part9_skel
  simp only [Prog.lift, Prog.bind_op, Prog.bind_ret, Prog.pure_eq_ret]
  iintro ⟨#HR, Hst, Hk⟩
  iapply (step_send_st m Kn c 20 (by omega) _ (Fin.ext (k0_dev52_eq c))) $$ [Hst]
  · isplitr; · iexact HR
    iexact Hst
  iintro Hst
  iapply (step_send_st m Kn c 21 (by omega) _ (Fin.ext (k0_dev53_eq c))) $$ [Hst]
  · isplitr; · iexact HR
    iexact Hst
  iintro Hst
  iapply (step_send_st m Kn c 22 (by omega) _ (Fin.ext (k0_dev54_eq c))) $$ [Hst]
  · isplitr; · iexact HR
    iexact Hst
  iintro Hst
  iapply (step_send_st m Kn c 23 (by omega) _ (Fin.ext (k0_dev55_eq c))) $$ [Hst]
  · isplitr; · iexact HR
    iexact Hst
  iintro Hst
  iapply (step_send_st m Kn c 24 (by omega) _ (Fin.ext (k0_dev56_eq c))) $$ [Hst]
  · isplitr; · iexact HR
    iexact Hst
  iintro Hst
  rw [wp_ret]; imodintro
  iapply Hk; iexact Hst

set_option maxHeartbeats 4000000 in
/-- The tenth part of the body: the sends 26 to 29. -/
theorem part10_spec (c : Dev nD) (v2 : BitVec 32) (v224 : BitVec 32) (c32_i32_217 : BitVec 32) (Kt : PUnit → sProp 𝕄) :
    iprop(records m Kn ∗ sendSt (F := F) m c 25 ∗ (sendSt (F := F) m c 29 -∗ Kt ⟨⟩))
      ⊢ wp frame (wpE (defs₀ (F := F)) 𝒱₀ (c : Thread nD τ) none) Set.univ
          (k0_part10 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 v224 c32_i32_217) Kt := by
  rw [k0_part10_eq_skeleton]; unfold k0_part10_skel
  simp only [Prog.lift, Prog.bind_op, Prog.bind_ret, Prog.pure_eq_ret]
  iintro ⟨#HR, Hst, Hk⟩
  iapply (step_send_st m Kn c 25 (by omega) _ (Fin.ext (k0_dev57_eq c))) $$ [Hst]
  · isplitr; · iexact HR
    iexact Hst
  iintro Hst
  iapply (step_send_st m Kn c 26 (by omega) _ (Fin.ext (k0_dev58_eq c))) $$ [Hst]
  · isplitr; · iexact HR
    iexact Hst
  iintro Hst
  iapply (step_send_st m Kn c 27 (by omega) _ (Fin.ext (k0_dev59_eq c))) $$ [Hst]
  · isplitr; · iexact HR
    iexact Hst
  iintro Hst
  iapply (step_send_st m Kn c 28 (by omega) _ (Fin.ext (k0_dev60_eq c))) $$ [Hst]
  · isplitr; · iexact HR
    iexact Hst
  iintro Hst
  rw [wp_ret]; imodintro
  iapply Hk; iexact Hst

end Cert.KernelIdeal.P

end
-- ==== Proof.PartsWait.lean ====
/-
  The receive waits and the send waits, part by part of the printed body: each part waits for the next few rows in order.
-/
import proofs.«901077_g7700000000001078_dist_sum_ax0_shard0_i_m1536_n768_v7x_i32_bf16_1_alg».proof.Proof.States

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 4000000 in
/-- Part 12: 6 receive waits, the 6th to the 11th. -/
theorem part12_spec (c : Dev nD) (Kt : PUnit → sProp 𝕄) :
    iprop(records m Kn ∗ recvSt (F := F) m c 5 ∗ (recvSt (F := F) m c 11 -∗ Kt ⟨⟩))
      ⊢ wp frame (wpE (defs₀ (F := F)) 𝒱₀ (c : Thread nD τ) none) Set.univ
          (k0_part12 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part12_eq_skeleton]; unfold k0_part12_skel
  simp only [semSignalWord, semWaitWord, Prog.lift, Prog.bind_op, Prog.bind_ret, Prog.pure_eq_ret]
  iintro ⟨#HR, Hst, Hk⟩
  iapply (step_recvwait_st m Kn c 5 (by omega)) $$ [Hst]
  · isplitr; · iexact HR
    iexact Hst
  iintro Hst
  iapply (step_recvwait_st m Kn c 6 (by omega)) $$ [Hst]
  · isplitr; · iexact HR
    iexact Hst
  iintro Hst
  iapply (step_recvwait_st m Kn c 7 (by omega)) $$ [Hst]
  · isplitr; · iexact HR
    iexact Hst
  iintro Hst
  iapply (step_recvwait_st m Kn c 8 (by omega)) $$ [Hst]
  · isplitr; · iexact HR
    iexact Hst
  iintro Hst
  iapply (step_recvwait_st m Kn c 9 (by omega)) $$ [Hst]
  · isplitr; · iexact HR
    iexact Hst
  iintro Hst
  iapply (step_recvwait_st m Kn c 10 (by omega)) $$ [Hst]
  · isplitr; · iexact HR
    iexact Hst
  iintro Hst
  rw [wp_ret]; imodintro
  iapply Hk; iexact Hst

set_option maxHeartbeats 4000000 in
/-- Part 13: 7 receive waits, the 12th to the 18th. -/
theorem part13_spec (c : Dev nD) (Kt : PUnit → sProp 𝕄) :
    iprop(records m Kn ∗ recvSt (F := F) m c 11 ∗ (recvSt (F := F) m c 18 -∗ Kt ⟨⟩))
      ⊢ wp frame (wpE (defs₀ (F := F)) 𝒱₀ (c : Thread nD τ) none) Set.univ
          (k0_part13 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part13_eq_skeleton]; unfold k0_part13_skel
  simp only [semSignalWord, semWaitWord, Prog.lift, Prog.bind_op, Prog.bind_ret, Prog.pure_eq_ret]
  iintro ⟨#HR, Hst, Hk⟩
  iapply (step_recvwait_st m Kn c 11 (by omega)) $$ [Hst]
  · isplitr; · iexact HR
    iexact Hst
  iintro Hst
  iapply (step_recvwait_st m Kn c 12 (by omega)) $$ [Hst]
  · isplitr; · iexact HR
    iexact Hst
  iintro Hst
  iapply (step_recvwait_st m Kn c 13 (by omega)) $$ [Hst]
  · isplitr; · iexact HR
    iexact Hst
  iintro Hst
  iapply (step_recvwait_st m Kn c 14 (by omega)) $$ [Hst]
  · isplitr; · iexact HR
    iexact Hst
  iintro Hst
  iapply (step_recvwait_st m Kn c 15 (by omega)) $$ [Hst]
  · isplitr; · iexact HR
    iexact Hst
  iintro Hst
  iapply (step_recvwait_st m Kn c 16 (by omega)) $$ [Hst]
  · isplitr; · iexact HR
    iexact Hst
  iintro Hst
  iapply (step_recvwait_st m Kn c 17 (by omega)) $$ [Hst]
  · isplitr; · iexact HR
    iexact Hst
  iintro Hst
  rw [wp_ret]; imodintro
  iapply Hk; iexact Hst

set_option maxHeartbeats 4000000 in
/-- Part 14: 7 receive waits, the 19th to the 25th. -/
theorem part14_spec (c : Dev nD) (Kt : PUnit → sProp 𝕄) :
    iprop(records m Kn ∗ recvSt (F := F) m c 18 ∗ (recvSt (F := F) m c 25 -∗ Kt ⟨⟩))
      ⊢ wp frame (wpE (defs₀ (F := F)) 𝒱₀ (c : Thread nD τ) none) Set.univ
          (k0_part14 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part14_eq_skeleton]; unfold k0_part14_skel
  simp only [semSignalWord, semWaitWord, Prog.lift, Prog.bind_op, Prog.bind_ret, Prog.pure_eq_ret]
  iintro ⟨#HR, Hst, Hk⟩
  iapply (step_recvwait_st m Kn c 18 (by omega)) $$ [Hst]
  · isplitr; · iexact HR
    iexact Hst
  iintro Hst
  iapply (step_recvwait_st m Kn c 19 (by omega)) $$ [Hst]
  · isplitr; · iexact HR
    iexact Hst
  iintro Hst
  iapply (step_recvwait_st m Kn c 20 (by omega)) $$ [Hst]
  · isplitr; · iexact HR
    iexact Hst
  iintro Hst
  iapply (step_recvwait_st m Kn c 21 (by omega)) $$ [Hst]
  · isplitr; · iexact HR
    iexact Hst
  iintro Hst
  iapply (step_recvwait_st m Kn c 22 (by omega)) $$ [Hst]
  · isplitr; · iexact HR
    iexact Hst
  iintro Hst
  iapply (step_recvwait_st m Kn c 23 (by omega)) $$ [Hst]
  · isplitr; · iexact HR
    iexact Hst
  iintro Hst
  iapply (step_recvwait_st m Kn c 24 (by omega)) $$ [Hst]
  · isplitr; · iexact HR
    iexact Hst
  iintro Hst
  rw [wp_ret]; imodintro
  iapply Hk; iexact Hst

set_option maxHeartbeats 4000000 in
/-- Part 17: 6 send waits, the 6th to the 11th. -/
theorem part17_spec (c : Dev nD) (Kt : PUnit → sProp 𝕄) :
    iprop(records m Kn ∗ swSt (F := F) m c 5 ∗ (swSt (F := F) m c 11 -∗ Kt ⟨⟩))
      ⊢ wp frame (wpE (defs₀ (F := F)) 𝒱₀ (c : Thread nD τ) none) Set.univ
          (k0_part17 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part17_eq_skeleton]; unfold k0_part17_skel
  simp only [semSignalWord, semWaitWord, Prog.lift, Prog.bind_op, Prog.bind_ret, Prog.pure_eq_ret]
  iintro ⟨#HR, Hst, Hk⟩
  iapply (step_sendwait_st m Kn c 5 (by omega)) $$ [Hst]
  · isplitr; · iexact HR
    iexact Hst
  iintro Hst
  iapply (step_sendwait_st m Kn c 6 (by omega)) $$ [Hst]
  · isplitr; · iexact HR
    iexact Hst
  iintro Hst
  iapply (step_sendwait_st m Kn c 7 (by omega)) $$ [Hst]
  · isplitr; · iexact HR
    iexact Hst
  iintro Hst
  iapply (step_sendwait_st m Kn c 8 (by omega)) $$ [Hst]
  · isplitr; · iexact HR
    iexact Hst
  iintro Hst
  iapply (step_sendwait_st m Kn c 9 (by omega)) $$ [Hst]
  · isplitr; · iexact HR
    iexact Hst
  iintro Hst
  iapply (step_sendwait_st m Kn c 10 (by omega)) $$ [Hst]
  · isplitr; · iexact HR
    iexact Hst
  iintro Hst
  rw [wp_ret]; imodintro
  iapply Hk; iexact Hst

set_option maxHeartbeats 4000000 in
/-- Part 18: 6 send waits, the 12th to the 17th. -/
theorem part18_spec (c : Dev nD) (Kt : PUnit → sProp 𝕄) :
    iprop(records m Kn ∗ swSt (F := F) m c 11 ∗ (swSt (F := F) m c 17 -∗ Kt ⟨⟩))
      ⊢ wp frame (wpE (defs₀ (F := F)) 𝒱₀ (c : Thread nD τ) none) Set.univ
          (k0_part18 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part18_eq_skeleton]; unfold k0_part18_skel
  simp only [semSignalWord, semWaitWord, Prog.lift, Prog.bind_op, Prog.bind_ret, Prog.pure_eq_ret]
  iintro ⟨#HR, Hst, Hk⟩
  iapply (step_sendwait_st m Kn c 11 (by omega)) $$ [Hst]
  · isplitr; · iexact HR
    iexact Hst
  iintro Hst
  iapply (step_sendwait_st m Kn c 12 (by omega)) $$ [Hst]
  · isplitr; · iexact HR
    iexact Hst
  iintro Hst
  iapply (step_sendwait_st m Kn c 13 (by omega)) $$ [Hst]
  · isplitr; · iexact HR
    iexact Hst
  iintro Hst
  iapply (step_sendwait_st m Kn c 14 (by omega)) $$ [Hst]
  · isplitr; · iexact HR
    iexact Hst
  iintro Hst
  iapply (step_sendwait_st m Kn c 15 (by omega)) $$ [Hst]
  · isplitr; · iexact HR
    iexact Hst
  iintro Hst
  iapply (step_sendwait_st m Kn c 16 (by omega)) $$ [Hst]
  · isplitr; · iexact HR
    iexact Hst
  iintro Hst
  rw [wp_ret]; imodintro
  iapply Hk; iexact Hst

set_option maxHeartbeats 4000000 in
/-- Part 19: 6 send waits, the 18th to the 23th. -/
theorem part19_spec (c : Dev nD) (Kt : PUnit → sProp 𝕄) :
    iprop(records m Kn ∗ swSt (F := F) m c 17 ∗ (swSt (F := F) m c 23 -∗ Kt ⟨⟩))
      ⊢ wp frame (wpE (defs₀ (F := F)) 𝒱₀ (c : Thread nD τ) none) Set.univ
          (k0_part19 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part19_eq_skeleton]; unfold k0_part19_skel
  simp only [semSignalWord, semWaitWord, Prog.lift, Prog.bind_op, Prog.bind_ret, Prog.pure_eq_ret]
  iintro ⟨#HR, Hst, Hk⟩
  iapply (step_sendwait_st m Kn c 17 (by omega)) $$ [Hst]
  · isplitr; · iexact HR
    iexact Hst
  iintro Hst
  iapply (step_sendwait_st m Kn c 18 (by omega)) $$ [Hst]
  · isplitr; · iexact HR
    iexact Hst
  iintro Hst
  iapply (step_sendwait_st m Kn c 19 (by omega)) $$ [Hst]
  · isplitr; · iexact HR
    iexact Hst
  iintro Hst
  iapply (step_sendwait_st m Kn c 20 (by omega)) $$ [Hst]
  · isplitr; · iexact HR
    iexact Hst
  iintro Hst
  iapply (step_sendwait_st m Kn c 21 (by omega)) $$ [Hst]
  · isplitr; · iexact HR
    iexact Hst
  iintro Hst
  iapply (step_sendwait_st m Kn c 22 (by omega)) $$ [Hst]
  · isplitr; · iexact HR
    iexact Hst
  iintro Hst
  rw [wp_ret]; imodintro
  iapply Hk; iexact Hst

set_option maxHeartbeats 4000000 in
/-- Part 20: 6 send waits, the 24th to the 29th. -/
theorem part20_spec (c : Dev nD) (Kt : PUnit → sProp 𝕄) :
    iprop(records m Kn ∗ swSt (F := F) m c 23 ∗ (swSt (F := F) m c 29 -∗ Kt ⟨⟩))
      ⊢ wp frame (wpE (defs₀ (F := F)) 𝒱₀ (c : Thread nD τ) none) Set.univ
          (k0_part20 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part20_eq_skeleton]; unfold k0_part20_skel
  simp only [semSignalWord, semWaitWord, Prog.lift, Prog.bind_op, Prog.bind_ret, Prog.pure_eq_ret]
  iintro ⟨#HR, Hst, Hk⟩
  iapply (step_sendwait_st m Kn c 23 (by omega)) $$ [Hst]
  · isplitr; · iexact HR
    iexact Hst
  iintro Hst
  iapply (step_sendwait_st m Kn c 24 (by omega)) $$ [Hst]
  · isplitr; · iexact HR
    iexact Hst
  iintro Hst
  iapply (step_sendwait_st m Kn c 25 (by omega)) $$ [Hst]
  · isplitr; · iexact HR
    iexact Hst
  iintro Hst
  iapply (step_sendwait_st m Kn c 26 (by omega)) $$ [Hst]
  · isplitr; · iexact HR
    iexact Hst
  iintro Hst
  iapply (step_sendwait_st m Kn c 27 (by omega)) $$ [Hst]
  · isplitr; · iexact HR
    iexact Hst
  iintro Hst
  iapply (step_sendwait_st m Kn c 28 (by omega)) $$ [Hst]
  · isplitr; · iexact HR
    iexact Hst
  iintro Hst
  rw [wp_ret]; imodintro
  iapply Hk; iexact Hst

end Cert.KernelIdeal.P

end
-- ==== Proof.Glue.lean ====
/-
  Regrouping the gather buffer: whole, row by row, and by read share. Pure separation logic — no program step.
  The 31 devices other than c are those 1, …, 31 places after it and also those 1, …, 31 places before it, so a
  family indexed by the other devices is a family indexed by the offsets; a row at the full share is its remainder
  after 32 read shares and those 32 shares.
-/
import proofs.«901077_g7700000000001078_dist_sum_ax0_shard0_i_m1536_n768_v7x_i32_bf16_1_alg».proof.Proof.States
import Idealize.SL.ProofMode.BigOp

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A row's points-to, by its index set; the row the vector store leaves -/

omit [FloatOps F] in
theorem rowPts_eq (c d : Dev nD) (q : PosShare TreeShare) (f : Buf (Elt F) ((c : Thread nD τ).loc cc0_scratch1)) :
    rowPts (F := F) c d q f = ((((c : Thread nD τ).loc cc0_scratch1) ↦[rowSet d]{q} f) : sProp 𝕄) := by
  unfold rowPts; rw [rowM_set]

/-- On row c the landed gather buffer holds the column sums of device c's block, column by column. -/
theorem G_row (c : Dev nD) (i : S32x1x768.Idx) (hi : i ∈ rowSet c) :
    G m i = k0_pay1 (xs m c) (Cert.KernelIdeal.Spec.rowIx i) := by
  have h : Cert.KernelIdeal.Spec.rowDev i = c := Fin.ext (mem_rowSet.mp hi)
  show k0_pay1 (xs m (Cert.KernelIdeal.Spec.rowDev i)) (Cert.KernelIdeal.Spec.rowIx i) = _
  rw [h]

/-- Row c after the vector store of device c's column sums is row c of the landed gather buffer. -/
theorem row_stored (c : Dev nD) (f0 : Buf (Elt F) ((c : Thread nD τ).loc cc0_scratch1)) :
    ((((c : Thread nD τ).loc cc0_scratch1) ↦[rowSet c]{fullShare}
        (((gM : Memref sig .tc .vmem S32x1x768 .f32).access (Rect.unit (s := S32x1x768) (k0_off1 c) S1x1x768.size (k0_off1_inb c)) : View sig .tc _ _ _).write (Elt F) f0 (k0_pay1 (xs m c)) Finset.univ)) : sProp 𝕄)
      = (((c : Thread nD τ).loc cc0_scratch1) ↦[rowSet c]{fullShare} G m) :=
  pointsTo_congr fun i hi => (row_store c f0 (k0_pay1 (xs m c)) i hi).trans (G_row m c i hi).symm

/-! ## The offsets 1, …, 31 and the 31 other devices -/

theorem K_eq_Ioc : K = Finset.Ioc 0 31 := by
  ext x; simp only [Finset.mem_Icc, Finset.mem_Ioc]; omega

theorem zero_notMem_K : 0 ∉ K := by simp only [Finset.mem_Icc]; omega

theorem range32 : Finset.range 32 = insert 0 K := by
  ext x; simp only [Finset.mem_range, Finset.mem_insert, Finset.mem_Icc]; omega

theorem injOn_sh (c : Dev nD) : Set.InjOn (sh c) (K : Finset ℕ) := by
  intro k hk k' hk' h
  have hk := Finset.mem_Icc.mp (Finset.mem_coe.mp hk)
  have hk' := Finset.mem_Icc.mp (Finset.mem_coe.mp hk')
  exact sh_inj c hk.2 hk'.2 h

theorem injOn_bk (c : Dev nD) : Set.InjOn (bk c) (K : Finset ℕ) := by
  intro k hk k' hk' h
  have hk := Finset.mem_Icc.mp (Finset.mem_coe.mp hk)
  have hk' := Finset.mem_Icc.mp (Finset.mem_coe.mp hk')
  exact bk_inj c hk.1 hk.2 hk'.1 hk'.2 h

/-- The devices other than c are those 1, …, 31 places after it, -/
theorem erase_eq_image_sh (c : Dev nD) : Finset.univ.erase c = K.image (sh c) := by
  ext d
  simp only [Finset.mem_erase, Finset.mem_univ, and_true, Finset.mem_image, Finset.mem_Icc]
  constructor
  · intro hne
    have hv : d.val ≠ c.val := fun e => hne (Fin.ext e)
    have hc := c.isLt; have hd := d.isLt; have hn : nD = 32 := rfl
    refine ⟨(d.val + 32 - c.val) % 32, ⟨by omega, by omega⟩, Fin.ext ?_⟩
    show (c.val + (d.val + 32 - c.val) % 32) % 32 = d.val
    omega
  · rintro ⟨k, ⟨h1, h2⟩, rfl⟩
    exact sh_ne c h1 h2

/-- and those 1, …, 31 places before it. -/
theorem erase_eq_image_bk (c : Dev nD) : Finset.univ.erase c = K.image (bk c) := by
  ext d
  simp only [Finset.mem_erase, Finset.mem_univ, and_true, Finset.mem_image, Finset.mem_Icc]
  constructor
  · intro hne
    have hv : d.val ≠ c.val := fun e => hne (Fin.ext e)
    have hc := c.isLt; have hd := d.isLt; have hn : nD = 32 := rfl
    refine ⟨(c.val + 32 - d.val) % 32, ⟨by omega, by omega⟩, Fin.ext ?_⟩
    show (c.val + (32 - ((c.val + 32 - d.val) % 32) % 32)) % 32 = d.val
    omega
  · rintro ⟨k, ⟨h1, h2⟩, rfl⟩ e
    have := congrArg Fin.val e
    simp only [bk] at this
    have hc := c.isLt; have hn : nD = 32 := rfl
    omega

/-! ## The other 31 rows, by offset; a row by read share -/

omit [FloatOps F] in
/-- The buffer without row c is the rows of the devices 1, …, 31 places after c, -/
theorem others_rows_sh (c : Dev nD) (q : PosShare TreeShare) (f : Buf (Elt F) ((c : Thread nD τ).loc cc0_scratch1)) :
    ((((c : Thread nD τ).loc cc0_scratch1) ↦[Finset.univ \ rowSet c]{q} f) : sProp 𝕄)
      ⊣⊢ bigSep K (fun k => rowPts (F := F) c (sh c k) q f) := by
  simp only [rowPts_eq]
  have h := others_split (F := F) c c q f
  rw [erase_eq_image_sh c, bigSep_image_of_injOn (injOn_sh c)] at h
  exact h

omit [FloatOps F] in
/-- and the rows of the devices 1, …, 31 places before c. -/
theorem others_rows_bk (c : Dev nD) (q : PosShare TreeShare) (f : Buf (Elt F) ((c : Thread nD τ).loc cc0_scratch1)) :
    ((((c : Thread nD τ).loc cc0_scratch1) ↦[Finset.univ \ rowSet c]{q} f) : sProp 𝕄)
      ⊣⊢ bigSep K (fun k => rowPts (F := F) c (bk c k) q f) := by
  simp only [rowPts_eq]
  have h := others_split (F := F) c c q f
  rw [erase_eq_image_bk c, bigSep_image_of_injOn (injOn_bk c)] at h
  exact h

omit [FloatOps F] in
/-- Any elements of the buffer at the full share: their remainder after 32 read shares, and the 32 read shares; -/
theorem toks_range (c : Dev nD) (S : Finset S32x1x768.Idx) (f : Buf (Elt F) ((c : Thread nD τ).loc cc0_scratch1)) :
    ((((c : Thread nD τ).loc cc0_scratch1) ↦[S]{fullShare} f) : sProp 𝕄)
      ⊣⊢ iprop((((c : Thread nD τ).loc cc0_scratch1) ↦[S]{Transfers.shareDrop fullShare 32} f)
          ∗ bigSep (Finset.range 32) (fun i => ((c : Thread nD τ).loc cc0_scratch1) ↦[S]{Transfers.shareTokN fullShare i} f)) :=
  Transfers.pointsTo_toks_range fullShare 32

omit [FloatOps F] in
/-- read share 0 apart from the read shares 1, …, 31. -/
theorem toks_split (c : Dev nD) (S : Finset S32x1x768.Idx) (f : Buf (Elt F) ((c : Thread nD τ).loc cc0_scratch1)) :
    ((((c : Thread nD τ).loc cc0_scratch1) ↦[S]{fullShare} f) : sProp 𝕄)
      ⊣⊢ iprop((((c : Thread nD τ).loc cc0_scratch1) ↦[S]{Transfers.shareDrop fullShare 32} f)
          ∗ (((c : Thread nD τ).loc cc0_scratch1) ↦[S]{Transfers.shareTokN fullShare 0} f)
          ∗ bigSep K (fun k => ((c : Thread nD τ).loc cc0_scratch1) ↦[S]{Transfers.shareTokN fullShare k} f)) := by
  have h := toks_range (F := F) c S f
  rw [range32, bigSep_insert zero_notMem_K] at h
  exact h

omit [FloatOps F] in
/-- A row at the full share: its remainder, read share 0, and the read shares 1, …, 31. -/
theorem row_toks (c d : Dev nD) (f : Buf (Elt F) ((c : Thread nD τ).loc cc0_scratch1)) :
    (rowPts (F := F) c d fullShare f : sProp 𝕄)
      ⊣⊢ iprop(rowPts c d (Transfers.shareDrop fullShare 32) f ∗ rowPts c d (Transfers.shareTokN fullShare 0) f
          ∗ bigSep K (fun k => rowPts c d (Transfers.shareTokN fullShare k) f)) := by
  simp only [rowPts_eq]
  exact toks_split c (rowSet d) f

/-! ## Entering and leaving the runs of steps -/

omit [FloatOps F] in
theorem rows_ex (c : Dev nD) (f : Buf (Elt F) ((c : Thread nD τ).loc cc0_scratch1)) :
    (bigSep K (fun k => rowPts (F := F) c (sh c k) fullShare f) : sProp 𝕄)
      ⊢ bigSep K (fun k => iprop(∃ f', rowPts (F := F) c (sh c k) fullShare f')) :=
  bigSep_mono fun k _ => (show (rowPts (F := F) c (sh c k) fullShare f : sProp 𝕄) ⊢ iprop(∃ f', rowPts (F := F) c (sh c k) fullShare f') from by
    iintro H; iexists f; iexact H)

/-- Before the first entry signal: the gather buffer, whole at unknown contents, is row c and the rows the signals hand over. -/
theorem enter_sig (c : Dev nD) :
    (iprop((∃ W, owes (c : Thread nD τ) (O₀ c) W) ∗ bigSep K (fun k => dutyTok ER (barCell (sh c k)) 0 k)
        ∗ (∃ f : Buf (Elt F) ((c : Thread nD τ).loc cc0_scratch1), ((c : Thread nD τ).loc cc0_scratch1) ↦{fullShare} f)) : sProp 𝕄)
      ⊢ iprop(sigSt (F := F) c 0 ∗ ∃ f, rowPts (F := F) c c fullShare f) := by
  unfold sigSt O₀
  rw [← K_eq_Ioc, bigSep_sep']
  iintro ⟨HO, Htok, ⟨%f, Hf⟩⟩
  ihave Hf2 := (row_split (F := F) c c fullShare f).1 $$ Hf
  icases Hf2 with ⟨Hrow, Hoth⟩
  ihave Hoth2 := ((others_rows_sh (F := F) c fullShare f).1.trans (rows_ex c f)) $$ Hoth
  isplitr [Hrow]
  · isplitl [HO]; · iexact HO
    isplitl [Htok]; · iexact Htok
    iexact Hoth2
  · iexists f; rw [rowPts_eq]; iexact Hrow

/-- Before the first send: row c, at the full share, is its remainder and 32 read shares; share 0 is set aside, the
    shares 1, …, 31 go with the sends. -/
theorem enter_send (c : Dev nD) :
    (iprop((∃ W, owes (c : Thread nD τ) (owe c 31 0) W) ∗ bigSep K (fun k => dutyTok ER (sendCell c) 0 k)
        ∗ bigSep K (fun k => dutyTok ER (recvCell (sh c k)) 0 k) ∗ rowPts c c fullShare (G m)
        ∗ bigSep K (fun k => barPay (F := F) c k)) : sProp 𝕄)
      ⊢ iprop(sendSt m c 0 ∗ rowPts c c (Transfers.shareDrop fullShare 32) (G m) ∗ rowPts c c (Transfers.shareTokN fullShare 0) (G m)) := by
  unfold sendSt
  rw [← K_eq_Ioc, Nat.zero_mul, tallyAt_zero, cred_zero, show Finset.Icc 1 (31 - 0) = K from rfl, bigSep_sep', bigSep_sep']
  iintro ⟨HO, HtS, HtV, Hrow, Hbar⟩
  ihave Hrow2 := (row_toks (F := F) c c (G m)).1 $$ Hrow
  icases Hrow2 with ⟨Hd, H0, HK⟩
  isplitr [Hd H0]
  · isplitl [HO]; · iexact HO
    isplitr; · iempintro
    isplitr [Hbar]
    · isplitl [HtS]; · iexact HtS
      isplitl [HtV]; · iexact HtV
      iexact HK
    · iexact Hbar
  · isplitl [Hd]; · iexact Hd
    iexact H0

/-- After the last send: nothing owed, and the credit the 31 sends have earned. -/
theorem leave_send (c : Dev nD) :
    (sendSt m c 31 : sProp 𝕄)
      ⊢ iprop((∃ W, owes (c : Thread nD τ) (0 : CellTallies nD τ sig Unit) W) ∗ cred (tallyAt (sendCell c) () (31 * N))) := by
  unfold sendSt
  rw [owe_done, Finset.Ioc_self, show Finset.Icc 1 (31 - 31) = (∅ : Finset ℕ) from rfl, bigSep_empty, bigSep_empty]
  iintro ⟨HO, Hc, -, -⟩
  isplitl [HO]; · iexact HO
  iexact Hc

/-! ## The gather buffer whole again, at the read remainder and back at the full share -/

/-- The 32 read shares of the buffer without row c. -/
def othersRest (c : Dev nD) : sProp 𝕄 :=
  bigSep (Finset.range 32) (fun i => ((c : Thread nD τ).loc cc0_scratch1) ↦[Finset.univ \ rowSet c]{Transfers.shareTokN fullShare i} G m)

/-- Once every row has landed: the whole buffer at the read remainder, the other rows' read shares kept aside. -/
theorem gather_whole (c : Dev nD) :
    (iprop(rowPts c c (Transfers.shareDrop fullShare 32) (G m) ∗ bigSep K (fun k => recvPay m c k)) : sProp 𝕄)
      ⊢ iprop((((c : Thread nD τ).loc cc0_scratch1) ↦{Transfers.shareDrop fullShare 32} G m) ∗ othersRest m c) := by
  unfold recvPay othersRest
  rw [rowPts_eq]
  iintro ⟨Hrow, Hrows⟩
  ihave Hoth := (others_rows_bk (F := F) c fullShare (G m)).2 $$ Hrows
  ihave Hoth2 := (toks_range (F := F) c (Finset.univ \ rowSet c) (G m)).1 $$ Hoth
  icases Hoth2 with ⟨Hod, Hrest⟩
  isplitr [Hrest]
  · iapply (row_split (F := F) c c (Transfers.shareDrop fullShare 32) (G m)).2
    isplitl [Hrow]; · iexact Hrow
    iexact Hod
  · iexact Hrest

/-- After the last send wait: every read share is back, and the buffer is whole at the full share. -/
theorem gather_back (c : Dev nD) :
    (iprop((((c : Thread nD τ).loc cc0_scratch1) ↦{Transfers.shareDrop fullShare 32} G m) ∗ othersRest m c
        ∗ rowPts c c (Transfers.shareTokN fullShare 0) (G m) ∗ bigSep K (fun k => sendPay m c k)) : sProp 𝕄)
      ⊢ ((((c : Thread nD τ).loc cc0_scratch1) ↦{fullShare} G m) : sProp 𝕄) := by
  unfold sendPay othersRest
  simp only [rowPts_eq]
  iintro ⟨Hw, Hrest, H0, HK⟩
  ihave Hw2 := (row_split (F := F) c c (Transfers.shareDrop fullShare 32) (G m)).1 $$ Hw
  icases Hw2 with ⟨Hrd, Hod⟩
  iapply (row_split (F := F) c c fullShare (G m)).2
  isplitl [Hrd H0 HK]
  · iapply (toks_split (F := F) c (rowSet c) (G m)).2
    isplitl [Hrd]; · iexact Hrd
    isplitl [H0]; · iexact H0
    iexact HK
  · iapply (toks_range (F := F) c (Finset.univ \ rowSet c) (G m)).2
    isplitl [Hod]; · iexact Hod
    iexact Hrest

/-- info: 'Cert.KernelIdeal.P.gather_back' depends on axioms: [propext, Classical.choice, Quot.sound] -/
#guard_msgs in
#print axioms gather_back

end Cert.KernelIdeal.P

end
-- ==== Proof.Part4.lean ====
/-
  The middle of the body: the last three entry signals; the copy of the block into VMEM and its wait; the column sums
  stored into c's own row of the gather buffer; the barrier wait, which brings c's row of every other device's gather
  buffer; the first two sends.
-/
import proofs.«901077_g7700000000001078_dist_sum_ax0_shard0_i_m1536_n768_v7x_i32_bf16_1_alg».proof.Proof.Glue

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 8000000 in
theorem part4_spec (c : Dev nD) (v2 : BitVec 32) (Kt : BitVec 32 → sProp 𝕄) :
    iprop(records m Kn ∗ levAts L lv ∗ sigSt (F := F) c 28 ∗ xPts m c
        ∗ (∃ f : Buf (Elt F) ((c : Thread nD τ).loc cc0_scratch0), ((c : Thread nD τ).loc cc0_scratch0) ↦{fullShare} f)
        ∗ dutyTok ER (cpCell c) 0 0 ∗ atPos ER (cpCell c) 0 ∅ 0 ∗ (∃ f, rowPts (F := F) c c fullShare f)
        ∗ cred (tallyAt (barCell c) () 31) ∗ atPos ER (barCell c) 0 ∅ 0
        ∗ bigSep K (fun k => dutyTok ER (sendCell c) 0 k) ∗ bigSep K (fun k => dutyTok ER (recvCell (sh c k)) 0 k)
        ∗ (∀ r, (sendSt m c 2 ∗ rowPts c c (Transfers.shareDrop fullShare 32) (G m) ∗ rowPts c c (Transfers.shareTokN fullShare 0) (G m) ∗ cpPay m c ∗ atPos ER (cpCell c) 1 ∅ 0) -∗ Kt r))
      ⊢ wp frame (wpE (defs₀ (F := F)) 𝒱₀ (c : Thread nD τ) none) Set.univ
          (k0_part4 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 (SemArray.scalar (sig.barrier 0 rfl) : Sems sig S_)) Kt := by
  rw [k0_part4_eq_skeleton]; unfold k0_part4_skel
  simp only [semSignalWord, semWaitWord, Prog.lift, Prog.bind_op, Prog.bind_ret, Prog.pure_eq_ret]
  iintro ⟨#HR, #Hlev, Hst, Hx, ⟨%fv, Hv⟩, Htcp, Hacp, ⟨%f0, Hrow⟩, Hcb, Hab, HtS, HtV, Hk⟩
  iapply (step_sig_st m Kn c 28 (by omega) _ (Fin.ext (k0_dev29_eq c)) _ (by decide)) $$ [Hst]
  · isplitr; · iexact HR
    iexact Hst
  iintro Hst
  iapply (step_sig_st m Kn c 29 (by omega) _ (Fin.ext (k0_dev30_eq c)) _ (by decide)) $$ [Hst]
  · isplitr; · iexact HR
    iexact Hst
  iintro Hst
  iapply (step_sig_st m Kn c 30 (by omega) _ (Fin.ext (k0_dev31_eq c)) _ (by decide)) $$ [Hst]
  · isplitr; · iexact HR
    iexact Hst
  iintro Hst
  -- every signal is sent: what is owed now is the receive credits only
  unfold sigSt
  rw [Finset.Ioc_self, BI.bigSep_empty]
  icases Hst with ⟨⟨%W, HO⟩, -⟩
  -- the block of x into VMEM, and the wait for it
  iapply (step_copy m Kn c fv) $$ [Hx Hv Htcp]
  · isplitr; · iexact HR
    isplitl [Hx]; · iexact Hx
    isplitl [Hv]; · iexact Hv
    iexact Htcp
  iintro Hccp
  iapply (step_cpwait m Kn c 31 0 W) $$ [Hccp HO Hacp]
  · isplitr; · iexact HR
    isplitl [Hccp]; · iexact Hccp
    isplitl [HO]; · iexact HO
    isplitr; · iexact Hlev
    iexact Hacp
  iintro ⟨HO, Hacp, Hcp⟩
  unfold cpPay
  icases Hcp with ⟨Hxv, Hxh⟩
  -- the block read back, its columns summed, the sums stored into row c
  iapply (wp_load 𝒱₀ (c : Thread nD τ) none Set.univ (m := (xV : Memref sig .tc .vmem S1536x768 .f32)) (by rw [View.set_whole]; exact Finset.subset_univ _)) $$ Hxv
  iintro Hxv
  rw [read_xv]
  ihave Hrow := (Entails.of_eq (rowPts_eq c c fullShare f0)) $$ Hrow
  iapply (wp_load 𝒱₀ (c : Thread nD τ) none Set.univ (m := (gM : Memref sig .tc .vmem S32x1x768 .f32)) (acc1_load_sub c)) $$ Hrow
  iintro Hrow
  iapply (wp_store 𝒱₀ (c : Thread nD τ) none Set.univ (m := (gM : Memref sig .tc .vmem S32x1x768 .f32))
      (r := Rect.unit (s := S32x1x768) (k0_off1 c) S1x1x768.size (k0_off1_inb c)) (Mk := Finset.univ) (acc1_store_sub c)) $$ Hrow
  iintro Hrow
  ihave Hrow := (Entails.of_eq (row_stored m c f0)) $$ Hrow
  ihave Hrow := (Entails.of_eq (rowPts_eq c c fullShare (G m)).symm) $$ Hrow
  -- the barrier wait: every other device is inside the kernel and has handed over c's row of its gather buffer
  iapply (step_barwait m Kn c 0 _ (by decide) _) $$ [Hcb HO Hab]
  · isplitr; · iexact HR
    isplitl [Hcb]; · iexact Hcb
    isplitl [HO]; · iexact HO
    isplitr; · iexact Hlev
    iexact Hab
  iintro ⟨HO, Hbp⟩
  ihave Hs := (enter_send m c) $$ [HO HtS HtV Hrow Hbp]
  · isplitl [HO]; · iexists _; iexact HO
    isplitl [HtS]; · iexact HtS
    isplitl [HtV]; · iexact HtV
    isplitl [Hrow]; · iexact Hrow
    iexact Hbp
  icases Hs with ⟨Hst, Hdrop, Htok0⟩
  iapply (step_send_st m Kn c 0 (by omega) _ (Fin.ext (k0_dev32_eq c))) $$ [Hst]
  · isplitr; · iexact HR
    iexact Hst
  iintro Hst
  iapply (step_send_st m Kn c 1 (by omega) _ (Fin.ext (k0_dev33_eq c))) $$ [Hst]
  · isplitr; · iexact HR
    iexact Hst
  iintro Hst
  rw [wp_ret]; imodintro
  iapply Hk
  isplitl [Hst]; · iexact Hst
  isplitl [Hdrop]; · iexact Hdrop
  isplitl [Htok0]; · iexact Htok0
  isplitl [Hxv Hxh]
  · isplitl [Hxv]; · iexact Hxv
    iexact Hxh
  iexact Hacp

end Cert.KernelIdeal.P

end
-- ==== Proof.PartsMid.lean ====
/-
  The parts of the body where one run of steps ends and the next begins: the last two sends and the first receive
  waits; the last receive waits, after which the whole gather buffer is read and summed; the result stored, and the
  first send waits.
-/
import proofs.«901077_g7700000000001078_dist_sum_ax0_shard0_i_m1536_n768_v7x_i32_bf16_1_alg».proof.Proof.Glue

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

theorem recvSt_intro (c : Dev nD) :
    iprop((∃ W, owes (c : Thread nD τ) (0 : CellTallies nD τ sig Unit) W) ∗ cred (tallyAt (recvCell c) () (31 * N)) ∗ atPos ER (recvCell c) 0 ∅ 0)
      ⊢ recvSt m c 0 := by
  unfold recvSt
  rw [Nat.sub_zero, Nat.zero_mul]
  iintro ⟨HO, Hc, Hat⟩
  isplitl [HO]; · iexact HO
  isplitl [Hc]; · iexact Hc
  iapply (Rounds.waitAcc_intro ER (sched m) (c : Thread nD τ) (.dma recvS.sem) 0); iexact Hat

theorem swSt_intro (c : Dev nD) :
    iprop((∃ W, owes (c : Thread nD τ) (0 : CellTallies nD τ sig Unit) W) ∗ cred (tallyAt (sendCell c) () (31 * N)) ∗ atPos ER (sendCell c) 0 ∅ 0)
      ⊢ swSt m c 0 := by
  unfold swSt
  rw [Nat.sub_zero, Nat.zero_mul]
  iintro ⟨HO, Hc, Hat⟩
  isplitl [HO]; · iexact HO
  isplitl [Hc]; · iexact Hc
  iapply (Rounds.waitAcc_intro ER (sched m) (c : Thread nD τ) (.dma sendS.sem) 0); iexact Hat

set_option maxHeartbeats 4000000 in
theorem part11_spec (c : Dev nD) (v2 : BitVec 32) (Kt : PUnit → sProp 𝕄) :
    iprop(records m Kn ∗ sendSt m c 29 ∗ atPos ER (recvCell c) 0 ∅ 0 ∗ cred (tallyAt (recvCell c) () (31 * N))
        ∗ ((recvSt m c 5 ∗ cred (tallyAt (sendCell c) () (31 * N))) -∗ Kt ⟨⟩))
      ⊢ wp frame (wpE (defs₀ (F := F)) 𝒱₀ (c : Thread nD τ) none) Set.univ
          (k0_part11 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part11_eq_skeleton]; unfold k0_part11_skel
  simp only [semSignalWord, semWaitWord, Prog.lift, Prog.bind_op, Prog.bind_ret, Prog.pure_eq_ret]
  iintro ⟨#HR, Hst, Harv, Hcrv, Hk⟩
  iapply (step_send_st m Kn c 29 (by omega) _ (Fin.ext (k0_dev61_eq c))) $$ [Hst]
  · isplitr; · iexact HR
    iexact Hst
  iintro Hst
  iapply (step_send_st m Kn c 30 (by omega) _ (Fin.ext (k0_dev62_eq c))) $$ [Hst]
  · isplitr; · iexact HR
    iexact Hst
  iintro Hst
  ihave Hl := (leave_send m c) $$ Hst
  icases Hl with ⟨HO, Hcs⟩
  ihave Hst := (recvSt_intro m c) $$ [HO Hcrv Harv]
  · isplitl [HO]; · iexact HO
    isplitl [Hcrv]; · iexact Hcrv
    iexact Harv
  iapply (step_recvwait_st m Kn c 0 (by omega)) $$ [Hst]
  · isplitr; · iexact HR
    iexact Hst
  iintro Hst
  iapply (step_recvwait_st m Kn c 1 (by omega)) $$ [Hst]
  · isplitr; · iexact HR
    iexact Hst
  iintro Hst
  iapply (step_recvwait_st m Kn c 2 (by omega)) $$ [Hst]
  · isplitr; · iexact HR
    iexact Hst
  iintro Hst
  iapply (step_recvwait_st m Kn c 3 (by omega)) $$ [Hst]
  · isplitr; · iexact HR
    iexact Hst
  iintro Hst
  iapply (step_recvwait_st m Kn c 4 (by omega)) $$ [Hst]
  · isplitr; · iexact HR
    iexact Hst
  iintro Hst
  rw [wp_ret]; imodintro
  iapply Hk
  isplitl [Hst]; · iexact Hst
  iexact Hcs

theorem recv_payloads (c : Dev nD) :
    bigSep K (fun k => (sched (F := F) m).payload (recvCell c) 0 k) = bigSep K (fun k => recvPay m c k) :=
  bigSep_congr fun k _ => payload_recv m c k
theorem send_payloads (c : Dev nD) :
    bigSep K (fun k => (sched (F := F) m).payload (sendCell c) 0 k) = bigSep K (fun k => sendPay m c k) :=
  bigSep_congr fun k _ => payload_send m c k

set_option maxHeartbeats 4000000 in
theorem part15_spec (c : Dev nD) (Kt : FVec F S1x768 .f32 → sProp 𝕄) :
    iprop(records m Kn ∗ recvSt m c 25 ∗ rowPts c c (Transfers.shareDrop fullShare 32) (G m)
        ∗ (((∃ W, owes (c : Thread nD τ) (0 : CellTallies nD τ sig Unit) W) ∗ atPos ER (recvCell c) 1 ∅ 0
              ∗ (((c : Thread nD τ).loc cc0_scratch1) ↦{(Transfers.shareDrop fullShare 32)} G m) ∗ othersRest m c) -∗ Kt (k0_pay2 (G m))))
      ⊢ wp frame (wpE (defs₀ (F := F)) 𝒱₀ (c : Thread nD τ) none) Set.univ
          (k0_part15 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part15_eq_skeleton]; unfold k0_part15_skel
  simp only [semSignalWord, semWaitWord, Prog.lift, Prog.bind_op, Prog.bind_ret, Prog.pure_eq_ret]
  iintro ⟨#HR, Hst, Hdrop, Hk⟩
  iapply (step_recvwait_st m Kn c 25 (by omega)) $$ [Hst]
  · isplitr; · iexact HR
    iexact Hst
  iintro Hst
  iapply (step_recvwait_st m Kn c 26 (by omega)) $$ [Hst]
  · isplitr; · iexact HR
    iexact Hst
  iintro Hst
  iapply (step_recvwait_st m Kn c 27 (by omega)) $$ [Hst]
  · isplitr; · iexact HR
    iexact Hst
  iintro Hst
  iapply (step_recvwait_st m Kn c 28 (by omega)) $$ [Hst]
  · isplitr; · iexact HR
    iexact Hst
  iintro Hst
  iapply (step_recvwait_st m Kn c 29 (by omega)) $$ [Hst]
  · isplitr; · iexact HR
    iexact Hst
  iintro Hst
  iapply (step_recvwait_last m Kn c) $$ [Hst]
  · isplitr; · iexact HR
    iexact Hst
  iintro ⟨HO, Hat, Hpay⟩
  ihave Hp := (Entails.of_eq (recv_payloads m c)) $$ Hpay
  ihave Hw := (gather_whole m c) $$ [Hdrop Hp]
  · isplitl [Hdrop]; · iexact Hdrop
    iexact Hp
  icases Hw with ⟨Hg, Hrest⟩
  iapply (wp_load 𝒱₀ (c : Thread nD τ) none Set.univ (m := (gM : Memref sig .tc .vmem S32x1x768 .f32)) (Finset.subset_univ _)) $$ Hg
  iintro Hg
  rw [read_g, wp_ret]; imodintro
  iapply Hk
  isplitl [HO]; · iexact HO
  isplitl [Hat]; · iexact Hat
  isplitl [Hg]; · iexact Hg
  iexact Hrest

set_option maxHeartbeats 4000000 in
theorem part16_spec (c : Dev nD) (v385 : FVec F S1x768 .f32) (Kt : PUnit → sProp 𝕄) :
    iprop(records m Kn ∗ (∃ W, owes (c : Thread nD τ) (0 : CellTallies nD τ sig Unit) W)
        ∗ (∃ f : Buf (Elt F) ((c : Thread nD τ).loc cc0_stg0_0), ((c : Thread nD τ).loc cc0_stg0_0) ↦{fullShare} f)
        ∗ cred (tallyAt (sendCell c) () (31 * N)) ∗ atPos ER (sendCell c) 0 ∅ 0
        ∗ ((swSt m c 5 ∗ (((c : Thread nD τ).loc cc0_stg0_0) ↦{fullShare} v385)) -∗ Kt ⟨⟩))
      ⊢ wp frame (wpE (defs₀ (F := F)) 𝒱₀ (c : Thread nD τ) none) Set.univ
          (k0_part16 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v385) Kt := by
  rw [k0_part16_eq_skeleton]; unfold k0_part16_skel
  simp only [semSignalWord, semWaitWord, Prog.lift, Prog.bind_op, Prog.bind_ret, Prog.pure_eq_ret]
  iintro ⟨#HR, HO, ⟨%fo, Hout⟩, Hcs, Hats, Hk⟩
  iapply (wp_load 𝒱₀ (c : Thread nD τ) none Set.univ (m := (oM : Memref sig .tc .vmem S1x768 .f32)) (Finset.subset_univ _)) $$ Hout
  iintro Hout
  iapply (wp_store 𝒱₀ (c : Thread nD τ) none Set.univ (m := (oM : Memref sig .tc .vmem S1x768 .f32))
      (r := Rect.unit (s := S1x768) ![0, 0] S1x768.size inb_S1x768_S1x768_0_0) (Mk := Finset.univ) (Finset.subset_univ _)) $$ Hout
  iintro Hout
  rw [write_o]
  ihave Hst := (swSt_intro m c) $$ [HO Hcs Hats]
  · isplitl [HO]; · iexact HO
    isplitl [Hcs]; · iexact Hcs
    iexact Hats
  iapply (step_sendwait_st m Kn c 0 (by omega)) $$ [Hst]
  · isplitr; · iexact HR
    iexact Hst
  iintro Hst
  iapply (step_sendwait_st m Kn c 1 (by omega)) $$ [Hst]
  · isplitr; · iexact HR
    iexact Hst
  iintro Hst
  iapply (step_sendwait_st m Kn c 2 (by omega)) $$ [Hst]
  · isplitr; · iexact HR
    iexact Hst
  iintro Hst
  iapply (step_sendwait_st m Kn c 3 (by omega)) $$ [Hst]
  · isplitr; · iexact HR
    iexact Hst
  iintro Hst
  iapply (step_sendwait_st m Kn c 4 (by omega)) $$ [Hst]
  · isplitr; · iexact HR
    iexact Hst
  iintro Hst
  rw [wp_ret]; imodintro
  iapply Hk
  isplitl [Hst]; · iexact Hst
  iexact Hout

end Cert.KernelIdeal.P

end
-- ==== Proof.Body.lean ====
/-
  One device's body, from what the launch hands it to what it hands back: the twenty printed parts in order, the last
  two send waits, the three own cells closed, and the gather buffer, the block's copy and the block put back whole.
-/
import proofs.«901077_g7700000000001078_dist_sum_ax0_shard0_i_m1536_n768_v7x_i32_bf16_1_alg».proof.Proof.PartsSig
import proofs.«901077_g7700000000001078_dist_sum_ax0_shard0_i_m1536_n768_v7x_i32_bf16_1_alg».proof.Proof.PartsSend
import proofs.«901077_g7700000000001078_dist_sum_ax0_shard0_i_m1536_n768_v7x_i32_bf16_1_alg».proof.Proof.PartsWait
import proofs.«901077_g7700000000001078_dist_sum_ax0_shard0_i_m1536_n768_v7x_i32_bf16_1_alg».proof.Proof.Part4
import proofs.«901077_g7700000000001078_dist_sum_ax0_shard0_i_m1536_n768_v7x_i32_bf16_1_alg».proof.Proof.PartsMid

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

theorem fetch_none (t : Fin cfg0.N) : (cfg0.win (0 : Fin 1)).fetch t = false := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem outV_eq : k0_pay2 (G m) = outV m := rfl

set_option maxHeartbeats 8000000 in
/-- The body, part by part, from bodyPre to bodyPost. -/
theorem sound_body (c : Dev nD) (Kt : PUnit → sProp 𝕄) :
    iprop(bodyPre m ρ Kn c ∗ (bodyPost m ρ c -∗ Kt ⟨⟩))
      ⊢ wp frame (wpE (defs₀ (F := F)) 𝒱₀ (c : Thread nD τ) none) Set.univ
          (cc0_body (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS) Kt := by
  rw [cc0_body_eq_skeleton]; unfold cc0_body_skel
  unfold bodyPre ghost positions payToks scratch
  iintro ⟨⟨⟨⟨#HR, ⟨Hab, Hacp, Has, Har⟩, ⟨HtB, HtV, HtS, Htcp⟩⟩, Hcb, Hcrv, #Hlev, Hx, ⟨⟨%fv, Hv⟩, ⟨%fg, Hg⟩⟩⟩, Ho, ⟨%d1, %g1, %hg1, Hout⟩⟩, Hk⟩
  unfold Dat.owesAt Pipeline.owesWithin
  icases Ho with ⟨%W, %hW, HO⟩
  rw [show (dats m ρ 0 c).owed t₀.castSucc = O₀ c from rfl]
  ihave Hs := (enter_sig (F := F) c) $$ [HO HtB Hg]
  · isplitl [HO]; · iexists W; iexact HO
    isplitl [HtB]; · iexact HtB
    iexists fg; iexact Hg
  icases Hs with ⟨Hst, Hrow⟩
  -- parts 1–3: the entry signals
  rw [wp_bind]
  iapply (part1_spec m Kn c)
  isplitr; · iexact HR
  isplitl [Hst]; · iexact Hst
  iintro Hst
  dsimp only
  rw [wp_bind]
  iapply (part2_spec m Kn c _)
  isplitr; · iexact HR
  isplitl [Hst]; · iexact Hst
  iintro Hst
  rw [wp_bind]
  iapply (part3_spec m Kn c _)
  isplitr; · iexact HR
  isplitl [Hst]; · iexact Hst
  iintro Hst
  -- part 4: the copy, the column sums, the barrier wait, the first sends
  rw [wp_bind]
  iapply (part4_spec m Kn c _)
  isplitr; · iexact HR
  isplitr; · iexact Hlev
  isplitl [Hst]; · iexact Hst
  isplitl [Hx]; · iexact Hx
  isplitl [Hv]; · iexists fv; iexact Hv
  isplitl [Htcp]; · iexact Htcp
  isplitl [Hacp]; · iexact Hacp
  isplitl [Hrow]; · iexact Hrow
  isplitl [Hcb]; · iexact Hcb
  isplitl [Hab]; · iexact Hab
  isplitl [HtS]; · iexact HtS
  isplitl [HtV]; · iexact HtV
  iintro %v86 ⟨Hst, Hdrop, Htok0, Hcp, Hacp⟩
  -- parts 5–10: the sends
  rw [wp_bind]
  iapply (part5_spec m Kn c _ _)
  isplitr; · iexact HR
  isplitl [Hst]; · iexact Hst
  iintro Hst
  rw [wp_bind]
  iapply (part6_spec m Kn c _)
  isplitr; · iexact HR
  isplitl [Hst]; · iexact Hst
  iintro Hst
  rw [wp_bind]
  iapply (part7_spec m Kn c _)
  isplitr; · iexact HR
  isplitl [Hst]; · iexact Hst
  iintro Hst
  rw [wp_bind]
  iapply (part8_spec m Kn c _)
  isplitr; · iexact HR
  isplitl [Hst]; · iexact Hst
  iintro Hst
  rw [wp_bind]
  iapply (part9_spec m Kn c _)
  isplitr; · iexact HR
  isplitl [Hst]; · iexact Hst
  iintro %r9 Hst
  rw [wp_bind]
  iapply (part10_spec m Kn c _ _ _)
  isplitr; · iexact HR
  isplitl [Hst]; · iexact Hst
  iintro Hst
  -- part 11: the last sends, the first receive waits
  rw [wp_bind]
  iapply (part11_spec m Kn c _)
  isplitr; · iexact HR
  isplitl [Hst]; · iexact Hst
  isplitl [Har]; · iexact Har
  isplitl [Hcrv]; · iexact Hcrv
  iintro ⟨Hst, Hcs⟩
  rw [wp_bind]
  iapply (part12_spec m Kn c)
  isplitr; · iexact HR
  isplitl [Hst]; · iexact Hst
  iintro Hst
  rw [wp_bind]
  iapply (part13_spec m Kn c)
  isplitr; · iexact HR
  isplitl [Hst]; · iexact Hst
  iintro Hst
  rw [wp_bind]
  iapply (part14_spec m Kn c)
  isplitr; · iexact HR
  isplitl [Hst]; · iexact Hst
  iintro Hst
  -- part 15: the last receive waits; the gather buffer read whole
  rw [wp_bind]
  iapply (part15_spec m Kn c)
  isplitr; · iexact HR
  isplitl [Hst]; · iexact Hst
  isplitl [Hdrop]; · iexact Hdrop
  iintro ⟨HO, Har, Hg, Hrest⟩
  -- part 16: the result stored; the first send waits
  rw [wp_bind]
  iapply (part16_spec m Kn c _)
  isplitr; · iexact HR
  isplitl [HO]; · iexact HO
  isplitl [Hout]; · iexists g1; iexact Hout
  isplitl [Hcs]; · iexact Hcs
  isplitl [Has]; · iexact Has
  iintro ⟨Hst, Hout⟩
  rw [wp_bind]
  iapply (part17_spec m Kn c)
  isplitr; · iexact HR
  isplitl [Hst]; · iexact Hst
  iintro Hst
  rw [wp_bind]
  iapply (part18_spec m Kn c)
  isplitr; · iexact HR
  isplitl [Hst]; · iexact Hst
  iintro Hst
  rw [wp_bind]
  iapply (part19_spec m Kn c)
  isplitr; · iexact HR
  isplitl [Hst]; · iexact Hst
  iintro Hst
  rw [wp_bind]
  iapply (part20_spec m Kn c)
  isplitr; · iexact HR
  isplitl [Hst]; · iexact Hst
  iintro Hst
  -- the last two send waits
  simp only [Prog.lift, Prog.bind_op, Prog.bind_ret, Prog.pure_eq_ret]
  iapply (step_sendwait_st m Kn c 29 (by omega)) $$ [Hst]
  · isplitr; · iexact HR
    iexact Hst
  iintro Hst
  iapply (step_sendwait_last m Kn c) $$ [Hst]
  · isplitr; · iexact HR
    iexact Hst
  iintro ⟨HO, Has, Hpay⟩
  ihave Hp := (Entails.of_eq (send_payloads m c)) $$ Hpay
  ihave Hg := (gather_back m c) $$ [Hg Hrest Htok0 Hp]
  · isplitl [Hg]; · iexact Hg
    isplitl [Hrest]; · iexact Hrest
    isplitl [Htok0]; · iexact Htok0
    iexact Hp
  -- the three own cells close: their counters at zero are the core's again
  imod (Rounds.cell_close ER (sched m) (Set.mem_univ (Kn (c, 1))) (fun h => h) (R := 0 + 1) (duties_later m (cpCell c))) $$ [Hacp] with HzC
  · isplitr; · iapply (inv_at m Kn (c, 1)); iexact HR
    iexact Hacp
  imod (Rounds.cell_close ER (sched m) (Set.mem_univ (Kn (c, 2))) (fun h => h) (R := 0 + 1) (duties_later m (sendCell c))) $$ [Has] with HzS
  · isplitr; · iapply (inv_at m Kn (c, 2)); iexact HR
    iexact Has
  imod (Rounds.cell_close ER (sched m) (Set.mem_univ (Kn (c, 3))) (fun h => h) (R := 0 + 1) (duties_later m (recvCell c))) $$ [Har] with HzV
  · isplitr; · iapply (inv_at m Kn (c, 3)); iexact HR
    iexact Har
  rw [wp_ret]; imodintro
  iapply Hk
  unfold bodyPost Φ₁ scratch cpPay xPts Dat.owesAt Pipeline.owesWithin
  rw [show (dats m ρ 0 c).owed t₀.succ = 0 from rfl]
  icases Hcp with ⟨Hxv, Hxh⟩
  isplitl [Hxh Hxv Hg HzC HzS HzV]
  · isplitl [Hxh]; · rw [View.set_whole]; iexact Hxh
    isplitl [Hxv Hg]
    · isplitl [Hxv]; · iexists _; rw [View.set_whole]; iexact Hxv
      iexists _; iexact Hg
    isplitl [HzC]; · iexact HzC
    isplitl [HzS]; · iexact HzS
    iexact HzV
  isplitl [HO]
  · icases HO with ⟨%W', HO⟩
    iexists W'
    isplitr; · ipureintro; exact fun _ _ => Or.inl trivial
    iexact HO
  iexists _; isplitr; · (ipureintro; rfl)
  iexact Hout

set_option maxRecDepth 65536 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc ∗ (∃ d, stg c cc0_stg0_0 ((dats m ρ 0 c).before (0 : Fin 1) t₀ d)))
    ⊢ wp frame (wpE (defs₀ (F := F)) 𝒱₀ c none) Set.univ
      (cc0_body (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS) (fun _ => bodyPost m ρ c)
  unfold Φ₀ start
  iintro ⟨⟨⟨⟨%Kn, Hg⟩, Hrest⟩, Hscr⟩, Ho, Hout⟩
  iapply (sound_body m ρ Kn c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    iexact Hout
  · iintro H; iexact H

/-- info: 'Cert.KernelIdeal.P.body_obligation' depends on axioms: [propext, Classical.choice, Quot.sound] -/
#guard_msgs in #print axioms body_obligation

end Cert.KernelIdeal.P

end
-- ==== Proof.LaunchSide.lean ====
/-
  The side conditions of the launch.

  At launch each of the 31 other devices owes a device's barrier cell one unit and its receive cell one row's credit,
  so the launch deals the device credit for 31 units and for 31 rows. From its launch holdings a device sorts out what
  its body starts from: its ghost state, the two credit tokens, the level facts, and its block of x. With the two
  scratch buffers that is the invariant before the one grid point; the invariant after it gives back the block of x,
  the three own semaphores at zero and the scratch buffers. The result window's write-back waits on a staging cell,
  below everything a device owes. After the one point the result array holds what the body left in the staging
  buffer: the sum of the 32 rows.
-/
import proofs.«901077_g7700000000001078_dist_sum_ax0_shard0_i_m1536_n768_v7x_i32_bf16_1_alg».proof.Proof.Data
import proofs.«901077_g7700000000001078_dist_sum_ax0_shard0_i_m1536_n768_v7x_i32_bf16_1_alg».proof.Proof.Gen.KernelIdeal.Points

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- Two devices' cells on the same semaphore are the same cell only if the devices are. -/
private theorem cell_eq_iff (sm : SemLoc sig) {a b : Dev nD} :
    (((a : Thread nD τ), sm) : GSem nD τ sig) = ((b : Thread nD τ), sm) ↔ a = b :=
  ⟨fun h => congrArg (fun g : GSem nD τ sig => g.1.1) h, fun h => h ▸ rfl⟩

/-- Each offset k reaches device c from exactly one device, the one k places before it: so the 32 devices, each owing
    the cell on semaphore sm of the device k places after it an amount n for every offset k = 1, …, 31, together owe
    c's cell 31 such amounts. -/
private theorem sum_ring (sm : SemLoc sig) (n : ℕ) (c : Dev nD) :
    ∑ d : Dev nD, ∑ k ∈ Finset.Ioc 0 31, tallyAt (((sh d k : Dev nD) : Thread nD τ), sm) () n ((c : Thread nD τ), sm) () = 31 * n := by
  rw [Finset.sum_comm]
  have h1 : ∀ k ∈ Finset.Ioc 0 31, ∑ d : Dev nD, tallyAt (((sh d k : Dev nD) : Thread nD τ), sm) () n ((c : Thread nD τ), sm) () = n := fun k _ => by
    have h0 : ∀ d ∈ (Finset.univ : Finset (Dev nD)), d ≠ bk c k →
        tallyAt (((sh d k : Dev nD) : Thread nD τ), sm) () n ((c : Thread nD τ), sm) () = 0 := fun d _ hd => by
      rw [tallyAt_apply, if_neg]
      rintro ⟨h, -⟩
      exact hd (by rw [(cell_eq_iff sm).mp h, bk_sh])
    rw [Finset.sum_eq_single (bk c k) h0 (fun h => absurd (Finset.mem_univ _) h), sh_bk, tallyAt_self]
  rw [Finset.sum_congr rfl h1, Finset.sum_const, Nat.card_Ioc, Nat.sub_zero, smul_eq_mul]

/-- What device d owes device c's barrier cell: its entry signals only. -/
private theorem owed_bar (d c : Dev nD) :
    O₀ d (barCell c) () = ∑ k ∈ Finset.Ioc 0 31, tallyAt (barCell (sh d k)) () 1 (barCell c) () := by
  have h0 : ∑ k ∈ Finset.Ioc 0 31, tallyAt (recvCell (sh d k)) () N (barCell c) () = 0 := Finset.sum_eq_zero fun k _ => by
    rw [tallyAt_apply, if_neg]
    rintro ⟨h, -⟩
    exact recv_ne_bar (congrArg Prod.snd h).symm
  unfold O₀ owe
  rw [Pi.add_apply, Finsupp.add_apply, Finset.sum_apply, Finset.sum_apply, Finsupp.finsetSum_apply, Finsupp.finsetSum_apply, h0, Nat.zero_add]

/-- What device d owes device c's receive cell: its sends only. -/
private theorem owed_recv (d c : Dev nD) :
    O₀ d (recvCell c) () = ∑ k ∈ Finset.Ioc 0 31, tallyAt (recvCell (sh d k)) () N (recvCell c) () := by
  have h0 : ∑ k ∈ Finset.Ioc 0 31, tallyAt (barCell (sh d k)) () 1 (recvCell c) () = 0 := Finset.sum_eq_zero fun k _ => by
    rw [tallyAt_apply, if_neg]
    rintro ⟨h, -⟩
    exact recv_ne_bar (congrArg Prod.snd h)
  unfold O₀ owe
  rw [Pi.add_apply, Finsupp.add_apply, Finset.sum_apply, Finset.sum_apply, Finsupp.finsetSum_apply, Finsupp.finsetSum_apply, h0, Nat.add_zero]

/-- Every other device owes c's barrier cell one unit: 31 in all. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact (sum_ring (.reg barS) 1 c).trans (Nat.mul_one 31)

/-- Every other device owes c's receive cell one row's credit: 31 rows in all. -/
theorem launch_recv (c : Dev nD) :
    tallyOn (recvCell c) (launchCredit (Pipeline.owing O₀) 0 (recvCell c)) = (tallyAt (recvCell c) () (31 * N) : CellTallies nD τ sig Unit) := by
  unfold tallyAt; refine congrArg _ (Finsupp.ext fun u => ?_); cases u
  rw [Pipeline.launchCredit_owing, Finsupp.single_eq_same, Finset.sum_congr rfl fun d _ => owed_recv d c]
  exact sum_ring (.dma recvS.sem) N c

/-- The credit tokens the launch deals device c: 31 units on its barrier cell and 31 rows on its receive cell. -/
theorem creds (c : Dev nD) :
    (Pipeline.launchCred O₀ c : sProp 𝕄) ⊢ iprop(cred (tallyAt (barCell c) () 31) ∗ cred (tallyAt (recvCell c) () (31 * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

theorem ownSemFacts : Pipeline.OwnSemFacts cfg0.spec osem := by decide

theorem share_eq (c : Dev nD) (w : Fin cfg0.W) : (dats m ρ 0 c).share w = fullShare := by unfold Dat.share; split <;> rfl

/-- The kernel's own three semaphores: the copy's, the sends', the receives'. -/
private theorem ownSems0_three (c : Dev nD) : (Pipeline.ownSems0 (Ix := Unit) (Name := ℕ) (U := UU) (Lvl := ℕ) (Val := Elt F) (τ := τ) osem c : sProp 𝕄)
    = iprop(semVal (cpCell c) 0 ∗ semVal (sendCell c) 0 ∗ semVal (recvCell c) 0) := by
  rw [Pipeline.ownSems0_eq_of_list c osem [0, 1, 2] (by decide) (by decide)]; rfl

/-- What a device sorts out of its launch holdings: its ghost state, its two credit tokens, the level facts, and its
    block of x, which no window stages and which therefore arrives with the unscoped buffers. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ Kn, ghost m Kn c))
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start xPts xs
  isplitl
  · isplitl [HG]; · iexact HG
    isplitl [H1]; · iexact H1
    isplitl [HN]; · iexact HN
    isplitl [Hlev]; · iexact Hlev
    iexact Hx
  · iempintro

/-- With the two scratch buffers, that is the invariant before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The invariant after the one point gives back the block of x, the three own semaphores at zero and the two
    scratch buffers. -/
theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq, ownSems0_three]
  unfold Φ₁ scratch
  iintro ⟨Hx, Hs, Hz⟩
  isplitl [Hx]; · iexact Hx
  isplitl [Hz]; · iexact Hz
  iexact Hs

/-- The result window's staging cell is no receive cell: the write-back's wait sits below everything a device owes
    before the point, and after it the device owes nothing. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 0 0
    · show (levAts L lv : sProp 𝕄) ⊢ MayWait (c : Thread nD τ) _ () 0
      rw [MayWait_zero]; iintro -; iempintro

/-! ## The final arrays -/

/-- The result array after the run: the one point writes the whole staging buffer back over it. -/
theorem final_out (c : Dev nD) : (dats m ρ 0 c).arrAt (0 : Fin 1) cfg0.N = outV m := by
  have hz : (fun a => (win0_0.index t₀) a * main_v1.ty.shape.size a) = fun _ => 0 := funext fun a => by fin_cases a <;> decide
  rw [show cfg0.N = (t₀ : Fin cfg0.N).val + 1 from rfl, (dats m ρ 0 c).arrAt_succ (0 : Fin 1) t₀, flush0_0 t₀, if_pos rfl]
  exact Memref.write_access_unit_zero_univ (Elt F) main_v1 hz (fun a => by fin_cases a <;> decide) _ _

/-- info: 'Cert.KernelIdeal.P.creds' depends on axioms: [propext, Classical.choice, Quot.sound] -/
#guard_msgs in #print axioms creds
/-- info: 'Cert.KernelIdeal.P.start_intro' depends on axioms: [propext, Classical.choice, Quot.sound] -/
#guard_msgs in #print axioms start_intro
/-- info: 'Cert.KernelIdeal.P.phi0_intro' depends on axioms: [propext, Classical.choice, Quot.sound] -/
#guard_msgs in #print axioms phi0_intro
/-- info: 'Cert.KernelIdeal.P.phi1_exit' depends on axioms: [propext, Classical.choice, Quot.sound] -/
#guard_msgs in #print axioms phi1_exit
/-- info: 'Cert.KernelIdeal.P.waits' depends on axioms: [propext, Classical.choice, Quot.sound] -/
#guard_msgs in #print axioms waits
/-- info: 'Cert.KernelIdeal.P.final_out' depends on axioms: [propext, Classical.choice, Quot.sound] -/
#guard_msgs in #print axioms final_out

end Cert.KernelIdeal.P

end
-- ==== Proof.LaunchGhost.lean ====
/-
  The ghost state at launch.

  The launch element of the protocol's algebra funds the four cells of every device — barrier, copy, send, receive —
  and mints one token per duty. Funding deals each device the round states, positions and reached-marks of its own
  four cells and the tokens of its own cells' duties. The global step then makes, for all 32 devices at once, the
  128 cell invariants (each from a counter at zero and a round state at zero), chooses one name function for them,
  and passes every token from the cell's owner to the duty's payer: duty k of the barrier cell and of the receive
  cell of device c goes to the device k places before c, which is to say every device receives the tokens of duty k
  of the cells of the device k places after it.
-/
import proofs.«901077_g7700000000001078_dist_sum_ax0_shard0_i_m1536_n768_v7x_i32_bf16_1_alg».proof.Proof.Data
import Idealize.ShloMosaic.Lib.Pipeline.Cells
import Idealize.SL.ProofMode.BigOp

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

theorem kcell_injective : Function.Injective (kcell : Dev nD × Fin 4 → GSem nD τ sig) := by
  rintro ⟨c, j⟩ ⟨c', j'⟩ h
  have h1 : c = c' := by have := congrArg (fun g : GSem nD τ sig => g.1.1) h; exact this
  subst h1
  have h2 : csem j = csem j' := congrArg Prod.snd h
  have : j = j' := by fin_cases j <;> fin_cases j' <;> first | rfl | exact absurd h2 (by decide)
  subst this; rfl

/-- Every protocol cell of every device. -/
def ringCells : Finset (GSem nD τ sig) := Finset.univ.map ⟨kcell, kcell_injective⟩

/-- The duties of a cell, by its kind: the copy cell has the one duty 0, the other three the offsets 1, …, 31. -/
def dutiesOf (j : Fin 4) : Finset ℕ := if j = 1 then {0} else K

/-- A token as the launch element names it: (cell, round 0, duty). -/
def tokOf (x : (_ : Dev nD × Fin 4) × ℕ) : GSem nD τ sig × ℕ × ℕ := (kcell x.1, 0, x.2)

theorem tokOf_injective : Function.Injective tokOf := by
  rintro ⟨cj, k⟩ ⟨cj', k'⟩ h
  have h1 : cj = cj' := kcell_injective (congrArg Prod.fst h)
  subst h1
  have h2 : k = k' := congrArg (fun x : GSem nD τ sig × ℕ × ℕ => x.2.2) h
  subst h2; rfl

/-- One token per duty of every cell: (barCell c, 0, k), (sendCell c, 0, k), (recvCell c, 0, k) for k ∈ K, and
    (cpCell c, 0, 0), for every device c. -/
def ringToks : Finset (GSem nD τ sig × ℕ × ℕ) :=
  ((Finset.univ : Finset (Dev nD × Fin 4)).sigma fun cj => dutiesOf cj.2).map ⟨tokOf, tokOf_injective⟩

/-- The launch element: the pipeline library's copy funds the staging cells, the protocol's copy the ring's. -/
def u₀ : UU :=
  (initOf (Pipeline.cells cfgs cellOf_inj) (Pipeline.launchToks cfgs cellOf_inj), initOf ringCells ringToks)

/-- The duty tokens of device c's own four cells. -/
def toks (c : Dev nD) : sProp 𝕄 :=
  iprop((bigSep K fun k => dutyTok ER (barCell c) 0 k) ∗ dutyTok ER (cpCell c) 0 0
    ∗ (bigSep K fun k => dutyTok ER (sendCell c) 0 k) ∗ (bigSep K fun k => dutyTok ER (recvCell c) 0 k))

/-- What the launch element deals device c: the round states, positions and reached-marks of its own four cells, and
    the tokens of its own cells' duties. -/
def dealt (c : Dev nD) : sProp 𝕄 :=
  iprop((bigSep Finset.univ fun j : Fin 4 => roundState ER (sched m) (kcell (c, j)) 0)
    ∗ (bigSep Finset.univ fun j : Fin 4 => iprop(atPos ER (kcell (c, j)) 0 ∅ 0 ∗ reached ER (kcell (c, j)) 0)) ∗ toks c)

/-! ## Funding -/

omit [FloatOps F] in
/-- A separating conjunction over the four kinds of cell, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem dutiesOf_cp : dutiesOf 1 = {0} := if_pos rfl
theorem dutiesOf_K {j : Fin 4} (h : j ≠ 1) : dutiesOf j = K := if_neg h

omit [FloatOps F] in
/-- Over the launch element's cells, device by device and cell by cell. -/
theorem bigSep_ringCells (Φ : GSem nD τ sig → sProp 𝕄) :
    bigSep ringCells Φ = bigSep Finset.univ fun c : Dev nD => bigSep Finset.univ fun j : Fin 4 => Φ (kcell (c, j)) := by
  unfold ringCells; rw [bigSep_map, bigSep_univ_prod]; rfl

omit [FloatOps F] in
/-- The minted tokens, device by device: each device's own four cells' duties. -/
theorem bigSep_ringToks :
    bigSep ringToks (fun x => (dutyTok ER x.1 x.2.1 x.2.2 : sProp 𝕄)) = bigSep Finset.univ fun c : Dev nD => toks c := by
  unfold ringToks
  rw [bigSep_map, Pipeline.bigSep_sigma, bigSep_univ_prod]
  refine bigSep_congr fun c _ => ?_
  unfold toks
  rw [bigSep_fin4]
  show iprop(bigSep (dutiesOf 0) _ ∗ bigSep (dutiesOf 1) _ ∗ bigSep (dutiesOf 2) _ ∗ bigSep (dutiesOf 3) _) = _
  rw [dutiesOf_cp, dutiesOf_K (j := 0) (by decide), dutiesOf_K (j := 2) (by decide), dutiesOf_K (j := 3) (by decide), bigSep_singleton]
  rfl

/-- Funding the protocol's copy of the algebra deals every device its own. -/
theorem fund_ring : BI.own (ER (initOf ringCells ringToks)) ⊢ (|==> bigSep Finset.univ (dealt m) : sProp 𝕄) := by
  iintro HX
  imod (Rounds.fund ER (sched m) ringCells ringToks) $$ HX with ⟨Hst, Hr, Hat, Htok⟩
  imodintro
  ihave Hst' := (Entails.of_eq (bigSep_ringCells fun g => roundState ER (sched m) g 0)) $$ Hst
  ihave Hat' := (Entails.of_eq (bigSep_ringCells (F := F) fun g => atPos ER g 0 ∅ 0)) $$ Hat
  ihave Hr' := (Entails.of_eq (bigSep_ringCells (F := F) fun g => reached ER g 0)) $$ Hr
  ihave Htok' := (Entails.of_eq (bigSep_ringToks (F := F))) $$ Htok
  unfold dealt; simp only [bigSep_sep']
  isplitl [Hst']; · iexact Hst'
  isplitl [Hat' Hr']
  · isplitl [Hat'] <;> iassumption
  iexact Htok'

/-- The launch element splits into the pipeline library's and, funded, every device's deal. -/
theorem hu₀ : (ownU u₀ : sProp 𝕄)
    ⊢ |={Set.univ}=> iprop(BI.own (EP (initOf (Pipeline.cells cfgs cellOf_inj) (Pipeline.launchToks cfgs cellOf_inj))) ∗ bigSep Finset.univ (dealt m)) := by
  unfold u₀
  iintro Hu
  ihave H := (ownU_pair _ _) $$ Hu
  icases H with ⟨HP, HX⟩
  imod (fund_ring m) $$ HX with HG
  imodintro
  isplitl [HP] <;> iassumption

/-! ## The global step -/

omit [FloatOps F] in
/-- The kernel's own three semaphores, each at zero: the copy's, the sends' and the receives'. -/
theorem ownSems0_eq (c : Dev nD) : (Pipeline.ownSems0 (Ix := Unit) (Name := ℕ) (U := UU) (Lvl := ℕ) (Val := Elt F) (τ := τ) osem c : sProp 𝕄)
    = iprop(semVal (cpCell c) 0 ∗ semVal (sendCell c) 0 ∗ semVal (recvCell c) 0) := by
  rw [Pipeline.ownSems0_eq_of_list c osem [0, 1, 2] (by decide) (by decide)]; rfl
omit [FloatOps F] in
/-- The device's one unscoped semaphore is the barrier semaphore, at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the counters of the device's four protocol cells, each at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 4 => semVal (kcell (c, j)) 0 : sProp 𝕄) := by
  rw [ownSems0_eq, unscopedSems0_eq, bigSep_fin4]
  iintro ⟨⟨HC, HS, HV⟩, HB⟩
  isplitl [HB]; · iexact HB
  isplitl [HC]; · iexact HC
  isplitl [HS] <;> iassumption

/-- One device: its four counters at zero and its four round states make its four cells' invariants, at some names. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun j : Fin 4 => semVal (kcell (c, j)) 0) ∗ bigSep Finset.univ fun j : Fin 4 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Two iterated separating conjunctions may be taken in either order. -/
theorem bigSep_swap {I J : Type} (s : Finset I) (t : Finset J) (Φ : I → J → sProp 𝕄) :
    (bigSep s fun i => bigSep t fun j => Φ i j) = bigSep t fun j => bigSep s fun i => Φ i j := by
  classical
  induction t using Finset.induction_on with
  | empty => simp only [bigSep_empty, bigSep_emp_const]
  | insert a t ha ih =>
    rw [bigSep_insert ha, ← ih, ← bigSep_sep]
    exact bigSep_congr fun i _ => bigSep_insert ha

/-- Moving k places along the ring is a bijection of the devices. -/
def shEquiv (k : ℕ) : Dev nD ≃ Dev nD := ⟨fun c => sh c k, fun c => bk c k, fun c => bk_sh c k, fun c => sh_bk c k⟩

omit [FloatOps F] in
/-- Every device holding, for each offset k, its own item k is every device holding, for each k, the item k of the
    device k places after it: for fixed k the items are the same 32, met in another order. -/
theorem deal_shift (Φ : Dev nD → ℕ → sProp 𝕄) :
    (bigSep Finset.univ fun c : Dev nD => bigSep K fun k => Φ c k) = bigSep Finset.univ fun c : Dev nD => bigSep K fun k => Φ (sh c k) k := by
  rw [bigSep_swap, bigSep_swap Finset.univ K fun c k => Φ (sh c k) k]
  exact bigSep_congr fun k _ => bigSep_univ_equiv (shEquiv k) fun c => Φ c k

omit [FloatOps F] in
/-- The tokens pass from the cells' owners to the duties' payers. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal_shift (fun c k => (dutyTok ER (barCell c) 0 k : sProp 𝕄)), deal_shift (fun c k => (dutyTok ER (recvCell c) 0 k : sProp 𝕄))]
  iintro ⟨HB, HC, HS, HV⟩
  isplitl [HB]; · iexact HB
  isplitl [HV]; · iexact HV
  isplitl [HS]; · iexact HS
  iexact HC

/-- The records, a device's positions and the tokens it pays are its ghost state, under the chosen names. -/
theorem ghost_intro (Kn : Dev nD × Fin 4 → ℕ) (c : Dev nD) :
    iprop(records m Kn ∗ positions c ∗ payToks c) ⊢ iprop(∃ Kn, ghost m Kn c) := by
  iintro H; iexists Kn; unfold ghost; iexact H

/-- All devices: one name function for the 128 invariants, the persistent records for everyone, the tokens dealt. -/
theorem regroup :
    (bigSep Finset.univ fun c : Dev nD => iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) : sProp 𝕄)
      ⊢ bigSep Finset.univ (fun c => iprop(∃ Kn, ghost m Kn c)) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun j : Fin 4 => (atPos ER (kcell (c, j)) 0 ∅ 0 : sProp 𝕄)) (fun j => reached ER (kcell (c, j)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%Kn, #HI⟩
  ihave Htk := (toks_around (F := F)) $$ Htok
  iapply (bigSep_with_persistent (R := records m Kn) fun c _ => ghost_intro m Kn c)
  isplitr
  · unfold records; isplitl; · iexact HI
    iexact HR
  · iapply ((Entails.of_eq (bigSep_sep' Finset.univ (fun c : Dev nD => bigSep Finset.univ fun j : Fin 4 => (atPos ER (kcell (c, j)) 0 ∅ 0 : sProp 𝕄)) payToks).symm).trans
      (bigSep_mono fun c _ => show _ ⊢ iprop(positions c ∗ payToks c) from Entails.of_eq (by unfold positions; rw [bigSep_fin4])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (fun c => iprop(∃ Kn, ghost m Kn c)) :=
  ((bigSep_mono fun c _ => core_alloc m c).trans (bigSep_fupd _ _)).trans (BI.fupd_mono (regroup m))

/-- info: 'Cert.KernelIdeal.P.hu₀' depends on axioms: [propext, Classical.choice, Quot.sound] -/
#guard_msgs in #print axioms hu₀
/-- info: 'Cert.KernelIdeal.P.glob' depends on axioms: [propext, Classical.choice, Quot.sound] -/
#guard_msgs in #print axioms glob

end Cert.KernelIdeal.P

end
-- ==== Proof.Launch.lean ====
/-
  The run of @main on the mesh of 32 devices, from each device's body obligation: the launch theorem for kernels whose
  devices owe each other units at launch and meet on the runtime's barrier semaphore, applied to the proof data, the
  ghost state dealt at launch and the side conditions. The result array is read off the final arrays; the block of x,
  which no window stages, travels through the invariant and is read against the final state.
-/
import proofs.«901077_g7700000000001078_dist_sum_ax0_shard0_i_m1536_n768_v7x_i32_bf16_1_alg».proof.Proof.LaunchSide
import proofs.«901077_g7700000000001078_dist_sum_ax0_shard0_i_m1536_n768_v7x_i32_bf16_1_alg».proof.Proof.LaunchGhost

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run -/

set_option maxRecDepth 8000 in
/-- At the compiled mesh of 32 devices, for any float values, from any memory with zero counters, given each device's
    body obligation: every weakly fair execution of @main — every device tells the others it is inside the kernel, sums
    its block's rows, sends the sums to every other device, and adds up the 32 rows it then holds — terminates, and every
    final state has each device's result array at the sum of all devices' column sums and its block of x unchanged. -/
theorem run_main_of (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outV m ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := fun c => iprop(∃ Kn, ghost m Kn c)) (u₀ := u₀)
    (hu₀ := hu₀ m)
    (hglob := glob m)
    (hA := fun _ _ => rfl) (hpf := fun _ k => k.elim0)
    (X := start m) (Y := xPts m) (Z := fun _ => iprop(emp))
    (hX := start_intro m ρ) (hin := phi0_intro m ρ) (hout := phi1_exit m ρ)
    (QY := fun c s => s.mem ((c : Thread nD τ).loc main_arg0) = xs m c)
    (hY := fun c s' => by
      unfold xPts
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.KernelIdeal.P.run_main_of' depends on axioms: [propext, Classical.choice, Quot.sound] -/
#guard_msgs in #print axioms run_main_of

end Cert.KernelIdeal.P

end
-- ==== Proof.Bits.Base.lean ====
/-
  The all-gather sum on a mesh of 32 devices: the protocol, as the rounds discipline sees it.

  Each device c: tells every other device, on that device's barrier semaphore, that it is inside the kernel
  (31 signals of one unit, to the devices 1, 2, …, 31 places after it on the ring of 32); copies its block of x
  into VMEM and sums its 1536 rows into row c of its gather buffer; waits for 31 units on its own barrier
  semaphore — every other device is now inside the kernel and has handed over row c of ITS gather buffer —;
  sends its row into row c of every other device's gather buffer (31 remote copies, each crediting the sender's
  send semaphore and the receiver's receive semaphore by one row); waits for 31 rows on its receive semaphore —
  its gather buffer now holds every device's row —; sums the 32 rows into the result; waits for its 31 sends.

  Duties are named by the OFFSET k ∈ {1, …, 31} on the ring: duty k of device c's barrier cell and of its
  receive cell is paid by the device k places BEFORE c (which reaches c with its own offset k); duty k of
  device c's send cell is its own send to the device k places after it.
-/
import proofs.«901077_g7700000000001078_dist_sum_ax0_shard0_i_m1536_n768_v7x_i32_bf16_1_alg».proof.Proof.Gen.Kernel
import proofs.«901077_g7700000000001078_dist_sum_ax0_shard0_i_m1536_n768_v7x_i32_bf16_1_alg».proof.Proof.Gen.Kernel.Skeleton
import proofs.«901077_g7700000000001078_dist_sum_ax0_shard0_i_m1536_n768_v7x_i32_bf16_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by ring offsets) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of 32 -/

/-- The device k places after c. -/
def sh (c : Dev nD) (k : ℕ) : Dev nD := ⟨(c.val + k) % 32, Nat.mod_lt _ (by decide)⟩
/-- The device k places before c. -/
def bk (c : Dev nD) (k : ℕ) : Dev nD := ⟨(c.val + (32 - k % 32)) % 32, Nat.mod_lt _ (by decide)⟩

theorem sh_bk (c : Dev nD) (k : ℕ) : sh (bk c k) k = c := by
  apply Fin.ext; show ((c.val + (32 - k % 32)) % 32 + k) % 32 = c.val
  have := c.isLt; have : nD = 32 := rfl; omega
theorem bk_sh (c : Dev nD) (k : ℕ) : bk (sh c k) k = c := by
  apply Fin.ext; show ((c.val + k) % 32 + (32 - k % 32)) % 32 = c.val
  have := c.isLt; have : nD = 32 := rfl; omega
theorem sh_ne (c : Dev nD) {k : ℕ} (h1 : 1 ≤ k) (h2 : k ≤ 31) : sh c k ≠ c := by
  intro h; have := congrArg Fin.val h; simp only [sh] at this
  have := c.isLt; have : nD = 32 := rfl; omega
theorem sh_inj (c : Dev nD) {k k' : ℕ} (hk : k ≤ 31) (hk' : k' ≤ 31) (h : sh c k = sh c k') : k = k' := by
  have := congrArg Fin.val h; simp only [sh] at this
  have := c.isLt; have : nD = 32 := rfl; omega
theorem bk_inj (c : Dev nD) {k k' : ℕ} (h1 : 1 ≤ k) (hk : k ≤ 31) (h1' : 1 ≤ k') (hk' : k' ≤ 31) (h : bk c k = bk c k') : k = k' := by
  have := congrArg Fin.val h; simp only [bk] at this
  have := c.isLt; have : nD = 32 := rfl; omega

/-- The offsets: 1, …, 31. -/
abbrev K : Finset ℕ := Finset.Icc 1 31

/-! ## The memrefs and cells -/

/-- This device's block of x in HBM (not staged: the kernel copies it itself), the result's staging buffer, the VMEM
    copy of the block, the gather buffer. -/
abbrev xH : Memref sig .tc .hbm S1536x768 .f32 := Memref.whole main_arg0
abbrev oM : Memref sig .tc .vmem S1x768 .f32 := Memref.whole cc0_stg0_0
abbrev xV : Memref sig .tc .vmem S1536x768 .f32 := Memref.whole cc0_scratch0
abbrev gM : Memref sig .tc .vmem S32x1x768 .f32 := Memref.whole cc0_scratch1

/-- Row d of the gather buffer, as the kernel's transfers name it (a 1×768 view). -/
abbrev rowM (d : Dev nD) : Memref sig .tc .vmem S1x768 .f32 :=
  ((gM : Memref sig .tc .vmem S32x1x768 .f32).slice (Rect.unit (s := S32x1x768) (k0_off2 d) S1x1x768.size (k0_off2_inb d)) (fun _ => rfl)).squeeze S1x768 squeezes_S1x1x768_S1x768

/-- The runtime's barrier semaphore of collective id 0 (unscoped); the local copy's, the sends' and the receives' DMA
    semaphores (scoped scratch). -/
abbrev barS : Sem sig := (SemArray.scalar (sig.barrier 0 rfl) : Sems sig S_).sem
abbrev cpS : DmaSems sig S_ := cc0_scratch2
abbrev sendS : DmaSems sig S_ := cc0_scratch3
abbrev recvS : DmaSems sig S_ := cc0_scratch4

abbrev barCell (c : Dev nD) : GSem nD τ sig := ((c : Thread nD τ), .reg barS)
abbrev cpCell (c : Dev nD) : GSem nD τ sig := ((c : Thread nD τ), .dma cpS.sem)
abbrev sendCell (c : Dev nD) : GSem nD τ sig := ((c : Thread nD τ), .dma sendS.sem)
abbrev recvCell (c : Dev nD) : GSem nD τ sig := ((c : Thread nD τ), .dma recvS.sem)

/-- The kernel's OWN (scoped) semaphores, as the launch theorem indexes them: copy, send, receive; -/
abbrev osem : Fin 3 → SemLoc sig := fun | 0 => .dma cpS.sem | 1 => .dma sendS.sem | 2 => .dma recvS.sem
/-- all four of the protocol's, as this proof indexes them: barrier, copy, send, receive. -/
abbrev csem : Fin 4 → SemLoc sig := fun | 0 => .reg barS | 1 => .dma cpS.sem | 2 => .dma sendS.sem | 3 => .dma recvS.sem
abbrev kcell (ck : Dev nD × Fin 4) : GSem nD τ sig := ((ck.1 : Thread nD τ), csem ck.2)

/-- One row's transfer credit, and the block's. -/
abbrev N : ℕ := (rowM (0 : Dev nD)).view.dmaCredit
abbrev NX : ℕ := (xV : Memref sig .tc .vmem S1536x768 .f32).view.dmaCredit
theorem N_pos : 0 < N := View.dmaCredit_pos _ (by decide)
theorem NX_pos : 0 < NX := View.dmaCredit_pos _ (by decide)
theorem rowM_credit (d : Dev nD) : (rowM d).view.dmaCredit = N := rfl

end Cert.Kernel.P

end
-- ==== Proof.Bits.Spec.lean ====
/-
  What the gather buffer holds once every row has landed, as ONE function of the devices' blocks:
  row d is device d's block of x summed over its 1536 rows.
-/
import proofs.«901077_g7700000000001078_dist_sum_ax0_shard0_i_m1536_n768_v7x_i32_bf16_1_alg».proof.Proof.Gen.Kernel.Skeleton

noncomputable section

namespace Cert.Kernel.Spec

open Cert.Kernel Cert.Kernel.Gen Idealize.ShloMosaic

variable {F : FTy → Type} [FloatOps F]

/-- The index inside a row (a 1×1×768 vector) of an index of the 32×1×768 gather buffer: its column. -/
def rowIx (i : S32x1x768.Idx) : S1x1x768.Idx := fun a => match a with
  | ⟨0, _⟩ => ⟨0, Nat.one_pos⟩
  | ⟨1, _⟩ => ⟨0, Nat.one_pos⟩
  | ⟨2, _⟩ => ⟨(i 2).val, (i 2).isLt⟩

/-- Which device's row an index of the gather buffer lies in. -/
def rowDev (i : S32x1x768.Idx) : Dev nD := ⟨(i 0).val, (i 0).isLt⟩

/-- The gather buffer with every row landed: row d holds the column sums of device d's block. -/
def gatherFn (xs : Dev nD → Vec F S1536x768 .f32) : Vec F S32x1x768 .f32 :=
  fun i => k0_pay1 (xs (rowDev i)) (rowIx i)

/-- The kernel's result on every device: the 32 rows summed. -/
def resultFn (xs : Dev nD → Vec F S1536x768 .f32) : FVec F S1x768 .f32 := k0_pay2 (gatherFn xs)

end Cert.Kernel.Spec

end
-- ==== Proof.Bits.Sched.lean ====
/-
  The schedule of the all-gather sum: one round per cell.

  Device o's barrier cell: 31 unit duties; duty k is the entry signal of the device k places before o, and hands o
  row o of THAT device's gather buffer (what o's send to it will write). Device o's receive cell: 31 duties of one
  row's credit; duty k is the send of the device k places before o, and hands o that device's row of o's own gather
  buffer, holding that device's column sums. Device o's send cell: 31 duties of one row's credit, paid by o's own
  sends; duty k gives back the read share of o's row lent to the send to the device k places after o. Device o's
  copy cell: one duty, its own copy of its block of x into VMEM.
-/
import proofs.«901077_g7700000000001078_dist_sum_ax0_shard0_i_m1536_n768_v7x_i32_bf16_1_alg».proof.Proof.Bits.Base
import proofs.«901077_g7700000000001078_dist_sum_ax0_shard0_i_m1536_n768_v7x_i32_bf16_1_alg».proof.Proof.Bits.Spec

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device d's block of x, as launched. -/
def xs (d : Dev nD) : Vec F S1536x768 .f32 := m ((d : Thread nD τ).loc main_arg0)

/-- The gather buffer with every row landed (the same on every device): row d holds device d's column sums. -/
def G : (cc0_scratch1 : Ref sig .tc).ty.Contents (Elt F) := Cert.Kernel.Spec.gatherFn (xs m)

/-- The result (the same on every device): the 32 rows summed. -/
def outV : (cc0_stg0_0 : Ref sig .tc).ty.Contents (Elt F) := Cert.Kernel.Spec.resultFn (xs m)

/-! ## The points-to's the protocol passes around -/

/-- Row d of device c's gather buffer, at share q and contents f (the whole buffer's contents; only row d's matter). -/
def rowPts (c d : Dev nD) (q : PosShare TreeShare) (f : Buf (Elt F) ((rowM d).view.loc (c : Thread nD τ))) : sProp 𝕄 :=
  (rowM d).view.loc (c : Thread nD τ) ↦[(rowM d).view.set]{q} f

omit [FloatOps F] in
instance rowPts_storable (c d : Dev nD) (q) (f) : BI.Storable (upEmb : UEmb _ 𝕄) (rowPts (F := F) c d q f) := by unfold rowPts; infer_instance

/-- What the entry signal of the device k places before o hands o: row o of that device's gather buffer. -/
def barPay (o : Dev nD) (k : ℕ) : sProp 𝕄 := iprop(∃ f, rowPts (bk o k) o fullShare f)
/-- What the send of the device k places before o hands o: that device's row of o's gather buffer, landed. -/
def recvPay (o : Dev nD) (k : ℕ) : sProp 𝕄 := rowPts o (bk o k) fullShare (G m)
/-- What o's send to the device k places after it gives back: the k-th read share of o's own row. -/
def sendPay (o : Dev nD) (k : ℕ) : sProp 𝕄 := rowPts o o (Transfers.shareTokN fullShare k) (G m)
/-- What o's copy of its block hands back: the VMEM copy holding the block, and the block in HBM. -/
def cpPay (o : Dev nD) : sProp 𝕄 :=
  iprop(((xV : Memref sig .tc .vmem S1536x768 .f32).view.loc (o : Thread nD τ) ↦[(xV : Memref sig .tc .vmem S1536x768 .f32).view.set]{fullShare} xs m o)
    ∗ ((xH : Memref sig .tc .hbm S1536x768 .f32).view.loc (o : Thread nD τ) ↦[(xH : Memref sig .tc .hbm S1536x768 .f32).view.set]{fullShare} xs m o))

/-! ## The schedule -/

/-- The copy cell's one amount: the block's transfer credit, kept opaque (a number of six digits that nothing here
    needs to evaluate). -/
def cpAmt : ℕ := NX
theorem cpAmt_def : cpAmt = (xV : Memref sig .tc .vmem S1536x768 .f32).view.dmaCredit := rfl
theorem cpAmt_pos : 0 < cpAmt := NX_pos
attribute [irreducible] cpAmt

abbrev IsK (g : GSem nD τ sig) : Prop := g.2 = .reg barS ∨ g.2 = .dma sendS.sem ∨ g.2 = .dma recvS.sem

def sched : Rounds.Schedule (GSem nD τ sig) ℕ 𝕄 where
  duties g r := if r = 0 ∧ g.1.2 = .tc then (if IsK g then K else if g.2 = .dma cpS.sem then {0} else ∅) else ∅
  unitless _ := False
  amount g _ _ := if g.2 = .reg barS then 1 else if g.2 = .dma cpS.sem then cpAmt else N
  payload g _ k :=
    if g.2 = .reg barS then barPay g.1.1 k
    else if g.2 = .dma recvS.sem then recvPay m g.1.1 k
    else if g.2 = .dma sendS.sem then sendPay m g.1.1 k
    else if g.2 = .dma cpS.sem then cpPay m g.1.1
    else iprop(emp)
  amount_pos g _ _ _ := by
    by_cases h : g.2 = .reg barS
    · rw [if_pos h]; exact Nat.one_pos
    · rw [if_neg h]
      by_cases h' : g.2 = .dma cpS.sem
      · rw [if_pos h']; exact cpAmt_pos
      · rw [if_neg h']; exact N_pos

instance sched_payload_storable (g : GSem nD τ sig) (r : ℕ) (d : ℕ) :
    BI.Storable (upEmb : UEmb _ 𝕄) ((sched (F := F) m).payload g r d) := by
  show BI.Storable upEmb (if g.2 = .reg barS then barPay g.1.1 d else if g.2 = .dma recvS.sem then recvPay m g.1.1 d
    else if g.2 = .dma sendS.sem then sendPay m g.1.1 d else if g.2 = .dma cpS.sem then cpPay m g.1.1 else iprop(emp))
  unfold barPay recvPay sendPay cpPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem cp_ne_bar : (SemLoc.dma cpS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide
theorem cp_ne_send : (SemLoc.dma cpS.sem : SemLoc sig) ≠ .dma sendS.sem := by decide
theorem cp_ne_recv : (SemLoc.dma cpS.sem : SemLoc sig) ≠ .dma recvS.sem := by decide
theorem send_ne_cp : (SemLoc.dma sendS.sem : SemLoc sig) ≠ .dma cpS.sem := by decide
theorem recv_ne_cp : (SemLoc.dma recvS.sem : SemLoc sig) ≠ .dma cpS.sem := by decide

theorem not_K_cp : ¬ IsK (cpCell c) := fun h => by
  rcases h with h | h | h
  · exact cp_ne_bar h
  · exact cp_ne_send h
  · exact cp_ne_recv h

theorem duties_bar : (sched (F := F) m).duties (barCell c) 0 = K := by
  dsimp only [sched]; rw [if_pos ⟨rfl, rfl⟩, if_pos (Or.inl rfl)]
theorem duties_send : (sched (F := F) m).duties (sendCell c) 0 = K := by
  dsimp only [sched]; rw [if_pos ⟨rfl, rfl⟩, if_pos (Or.inr (Or.inl rfl))]
theorem duties_recv : (sched (F := F) m).duties (recvCell c) 0 = K := by
  dsimp only [sched]; rw [if_pos ⟨rfl, rfl⟩, if_pos (Or.inr (Or.inr rfl))]
theorem duties_cp : (sched (F := F) m).duties (cpCell c) 0 = {0} := by
  dsimp only [sched]; rw [if_pos ⟨rfl, rfl⟩, if_neg (not_K_cp c), if_pos rfl]
theorem duties_later (g : GSem nD τ sig) : ∀ r, 1 ≤ r → (sched (F := F) m).duties g r = ∅ :=
  fun r hr => by dsimp only [sched]; rw [if_neg fun h => by omega]

theorem amount_bar (d : ℕ) : (sched (F := F) m).amount (barCell c) 0 d = 1 := by dsimp only [sched]; exact if_pos rfl
theorem amount_send (d : ℕ) : (sched (F := F) m).amount (sendCell c) 0 d = N := by
  dsimp only [sched]; rw [if_neg send_ne_bar, if_neg send_ne_cp]
theorem amount_recv (d : ℕ) : (sched (F := F) m).amount (recvCell c) 0 d = N := by
  dsimp only [sched]; rw [if_neg recv_ne_bar, if_neg recv_ne_cp]
theorem amount_cp (d : ℕ) : (sched (F := F) m).amount (cpCell c) 0 d = cpAmt := by
  dsimp only [sched]; rw [if_neg cp_ne_bar, if_pos rfl]

theorem card_K : K.card = 31 := by decide

theorem expect_bar : (sched (F := F) m).expect (barCell c) 0 = 31 := by
  unfold Schedule.expect Schedule.amountOf
  rw [duties_bar, Finset.sum_congr rfl fun d _ => amount_bar m c d, Finset.sum_const, card_K, smul_eq_mul]
theorem expect_send : (sched (F := F) m).expect (sendCell c) 0 = 31 * N := by
  unfold Schedule.expect Schedule.amountOf
  rw [duties_send, Finset.sum_congr rfl fun d _ => amount_send m c d, Finset.sum_const, card_K, smul_eq_mul]
theorem expect_recv : (sched (F := F) m).expect (recvCell c) 0 = 31 * N := by
  unfold Schedule.expect Schedule.amountOf
  rw [duties_recv, Finset.sum_congr rfl fun d _ => amount_recv m c d, Finset.sum_const, card_K, smul_eq_mul]
theorem expect_eq (g : GSem nD τ sig) (r : ℕ) :
    (sched (F := F) m).expect g r = ∑ d ∈ (sched (F := F) m).duties g r, (sched (F := F) m).amount g r d := rfl
theorem expect_cp : (sched (F := F) m).expect (cpCell c) 0 = cpAmt := by
  rw [expect_eq, duties_cp, Finset.sum_singleton, amount_cp]

theorem payload_bar (k : ℕ) : (sched (F := F) m).payload (barCell c) 0 k = barPay c k := by dsimp only [sched]; rw [if_pos rfl]
theorem payload_recv (k : ℕ) : (sched (F := F) m).payload (recvCell c) 0 k = recvPay m c k := by
  dsimp only [sched]; rw [if_neg recv_ne_bar, if_pos rfl]
theorem payload_send (k : ℕ) : (sched (F := F) m).payload (sendCell c) 0 k = sendPay m c k := by
  dsimp only [sched]; rw [if_neg send_ne_bar, if_neg send_ne_recv, if_pos rfl]
theorem payload_cp (k : ℕ) : (sched (F := F) m).payload (cpCell c) 0 k = cpPay m c := by
  dsimp only [sched]; rw [if_neg cp_ne_bar, if_neg cp_ne_recv, if_neg cp_ne_send, if_pos rfl]

end Sched

end Cert.Kernel.P

end
-- ==== Proof.Bits.Owe.lean ====
/-
  What each device owes the others' cells, and the levels that order the waits: barrier cells below receive cells,
  every other cell below both. A device waits on its barrier cell owing only receive credits, and on its receive
  cell owing nothing.
-/
import proofs.«901077_g7700000000001078_dist_sum_ax0_shard0_i_m1536_n768_v7x_i32_bf16_1_alg».proof.Proof.Bits.Sched

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What device c still owes after its first js entry signals and its first jx sends: a row's credit to the receive
    cell of each device jx+1, …, 31 places after it, a unit to the barrier cell of each device js+1, …, 31 places after it. -/
def owe (c : Dev nD) (js jx : ℕ) : CellTallies nD τ sig Unit :=
  (∑ k ∈ Finset.Ioc jx 31, tallyAt (recvCell (sh c k)) () N) + (∑ k ∈ Finset.Ioc js 31, tallyAt (barCell (sh c k)) () 1)

def O₀ (c : Dev nD) : CellTallies nD τ sig Unit := owe c 0 0

theorem Ioc_peel {j : ℕ} (h : j < 31) : Finset.Ioc j 31 = insert (j + 1) (Finset.Ioc (j + 1) 31) := by
  ext x; simp only [Finset.mem_Ioc, Finset.mem_insert]; omega
theorem notMem_Ioc_succ (j : ℕ) : j + 1 ∉ Finset.Ioc (j + 1) 31 := by
  simp only [Finset.mem_Ioc]; omega

theorem owe_sig (c : Dev nD) (js jx : ℕ) (h : js < 31) :
    owe c js jx = owe c (js + 1) jx + tallyAt (barCell (sh c (js + 1))) () 1 := by
  unfold owe
  rw [Ioc_peel h, Finset.sum_insert (notMem_Ioc_succ js), add_comm (tallyAt (barCell (sh c (js + 1))) () 1), add_assoc]
theorem owe_send (c : Dev nD) (js jx : ℕ) (h : jx < 31) :
    owe c js jx = owe c js (jx + 1) + tallyAt (recvCell (sh c (jx + 1))) () N := by
  unfold owe
  rw [Ioc_peel h, Finset.sum_insert (notMem_Ioc_succ jx), add_comm (tallyAt (recvCell (sh c (jx + 1))) () N), add_right_comm]
theorem owe_done (c : Dev nD) : owe c 31 31 = 0 := by
  unfold owe; rw [Finset.Ioc_self, Finset.sum_empty, Finset.sum_empty, add_zero]

theorem owe_pos {c : Dev nD} {js jx : ℕ} {g : GSem nD τ sig} {u : Unit} (h : 0 < owe c js jx g u) :
    (∃ k, jx < k ∧ k ≤ 31 ∧ g = recvCell (sh c k)) ∨ (∃ k, js < k ∧ k ≤ 31 ∧ g = barCell (sh c k)) := by
  unfold owe at h
  rw [Pi.add_apply, Finsupp.add_apply, Finset.sum_apply, Finset.sum_apply, Finsupp.finset_sum_apply, Finsupp.finset_sum_apply] at h
  rcases Nat.add_pos_iff_pos_or_pos.mp h with h | h
  · left
    obtain ⟨k, hk, hp⟩ := Finset.exists_ne_zero_of_sum_ne_zero (Nat.pos_iff_ne_zero.mp h)
    rw [tallyAt_apply] at hp
    by_cases hg : g = recvCell (sh c k) ∧ u = ()
    · exact ⟨k, (Finset.mem_Ioc.mp hk).1, (Finset.mem_Ioc.mp hk).2, hg.1⟩
    · rw [if_neg hg] at hp; exact absurd rfl hp
  · right
    obtain ⟨k, hk, hp⟩ := Finset.exists_ne_zero_of_sum_ne_zero (Nat.pos_iff_ne_zero.mp h)
    rw [tallyAt_apply] at hp
    by_cases hg : g = barCell (sh c k) ∧ u = ()
    · exact ⟨k, (Finset.mem_Ioc.mp hk).1, (Finset.mem_Ioc.mp hk).2, hg.1⟩
    · rw [if_neg hg] at hp; exact absurd rfl hp

/-! ## The levels -/

def L (g : GSem nD τ sig) : Finset Unit := if g.1.2 = .tc then {()} else ∅
/-- barrier cells at 1, receive cells at 2, everything else (staging, copy, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A wait on any DMA cell but the receive cell sits below everything a device can owe. -/
theorem mayWait_low (c : Dev nD) (q : DmaSem sig) (hq : SemLoc.dma q ≠ .dma recvS.sem) (js jx : ℕ) :
    (levAts L lv : sProp 𝕄) ⊢ MayWait (c : Thread nD τ) (.dma q) () (owe c js jx) :=
  MayOwe.of_cut (L := L) (lev := lv) 0 (fun p hp => by rw [Finset.mem_singleton.mp hp, L_tc]; exact Finset.mem_singleton_self _)
    (fun g u hg => by rcases owe_pos hg with ⟨k, _, _, rfl⟩ | ⟨k, _, _, rfl⟩ <;> exact Finset.mem_singleton_self _)
    (fun p hp => by rw [Finset.mem_singleton.mp hp]; dsimp only [lv]; rw [if_neg (fun h => by cases h), if_neg hq])
    (fun g u hg => by
      rcases owe_pos hg with ⟨k, _, _, rfl⟩ | ⟨k, _, _, rfl⟩
      · dsimp only [lv]; rw [if_neg recv_ne_bar, if_pos rfl]; decide
      · dsimp only [lv]; rw [if_pos rfl]; decide)

omit [FloatOps F] in
/-- At its barrier wait a device has signalled everyone and owes receive credits only: above its barrier cell. -/
theorem mayWait_bar (c : Dev nD) (jx : ℕ) :
    (levAts L lv : sProp 𝕄) ⊢ MayWait (c : Thread nD τ) (.reg barS) () (owe c 31 jx) :=
  MayOwe.of_cut (L := L) (lev := lv) 1 (fun p hp => by rw [Finset.mem_singleton.mp hp, L_tc]; exact Finset.mem_singleton_self _)
    (fun g u hg => by rcases owe_pos hg with ⟨k, _, _, rfl⟩ | ⟨k, _, _, rfl⟩ <;> exact Finset.mem_singleton_self _)
    (fun p hp => by rw [Finset.mem_singleton.mp hp]; dsimp only [lv]; rw [if_pos rfl])
    (fun g u hg => by
      rcases owe_pos hg with ⟨k, _, _, rfl⟩ | ⟨k, h1, h2, rfl⟩
      · dsimp only [lv]; rw [if_neg recv_ne_bar, if_pos rfl]; decide
      · omega)

end Cert.Kernel.P

end
-- ==== Proof.Bits.Data.lean ====
/-
  The proof data of the launch: what each device's body starts from and what it leaves.

  A device starts with: every cell's invariant and that round 0 of every cell is reached (persistent); its positions
  at round 0 of its own four cells; the one-shot tokens of the duties IT pays (an entry signal and a send to each of
  the 31 others, the 31 give-backs of its own send cell, its own copy); credit for the 31 units it will wait for on
  its barrier cell and the 31 rows on its receive cell; its block of x in HBM; its two scratch buffers at unknown
  contents. It ends with the block of x untouched, the scratch buffers whole again, its three own cells closed at
  zero, and the result's staging buffer holding the sum of all 32 rows.
-/
import proofs.«901077_g7700000000001078_dist_sum_ax0_shard0_i_m1536_n768_v7x_i32_bf16_1_alg».proof.Proof.Bits.Owe

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, under the names the launch allocated them at, and that round 0 of every cell is reached. -/
def records (Kn : Dev nD × Fin 4 → ℕ) : sProp 𝕄 :=
  iprop((bigSep Finset.univ fun ck : Dev nD × Fin 4 => cellInv ER (sched m) (Kn ck) (kcell ck))
    ∗ bigSep Finset.univ fun ck : Dev nD × Fin 4 => reached ER (kcell ck) 0)

instance records_persistent (Kn : Dev nD × Fin 4 → ℕ) : BI.Persistent (records m Kn) := by unfold records; infer_instance

theorem inv_at' (Kn : Dev nD × Fin 4 → ℕ) (ck : Dev nD × Fin 4) :
    (bigSep Finset.univ fun ck : Dev nD × Fin 4 => (cellInv ER (sched m) (Kn ck) (kcell ck) : sProp 𝕄)) ⊢ cellInv ER (sched m) (Kn ck) (kcell ck) :=
  bigSep_elim (Finset.mem_univ ck)
omit [FloatOps F] in
theorem reached_at' (ck : Dev nD × Fin 4) :
    (bigSep Finset.univ fun ck : Dev nD × Fin 4 => (reached ER (kcell ck) 0 : sProp 𝕄)) ⊢ reached ER (kcell ck) 0 :=
  bigSep_elim (Finset.mem_univ ck)
theorem inv_at (Kn : Dev nD × Fin 4 → ℕ) (ck : Dev nD × Fin 4) : records m Kn ⊢ cellInv ER (sched m) (Kn ck) (kcell ck) := by
  unfold records; iintro ⟨HI, -⟩; iapply (inv_at' m Kn ck); iexact HI
theorem reached_at (Kn : Dev nD × Fin 4 → ℕ) (ck : Dev nD × Fin 4) : records m Kn ⊢ reached ER (kcell ck) 0 := by
  unfold records; iintro ⟨-, HR⟩; iapply (reached_at' (F := F) ck); iexact HR

/-- Device c's positions at round 0 of its own four cells. -/
def positions (c : Dev nD) : sProp 𝕄 :=
  iprop(atPos ER (barCell c) 0 ∅ 0 ∗ atPos ER (cpCell c) 0 ∅ 0 ∗ atPos ER (sendCell c) 0 ∅ 0 ∗ atPos ER (recvCell c) 0 ∅ 0)

/-- The tokens of the duties device c pays: the entry signal and the send to each device k places after it, the
    give-backs of its own send cell, its own copy. -/
def payToks (c : Dev nD) : sProp 𝕄 :=
  iprop((bigSep K fun k => dutyTok ER (barCell (sh c k)) 0 k) ∗ (bigSep K fun k => dutyTok ER (recvCell (sh c k)) 0 k)
    ∗ (bigSep K fun k => dutyTok ER (sendCell c) 0 k) ∗ dutyTok ER (cpCell c) 0 0)

def ghost (Kn : Dev nD × Fin 4 → ℕ) (c : Dev nD) : sProp 𝕄 := iprop(records m Kn ∗ positions c ∗ payToks c)

/-- Device c's block of x in HBM, as launched. -/
def xPts (c : Dev nD) : sProp 𝕄 := ((c : Thread nD τ).loc main_arg0) ↦{fullShare} xs m c

def start (c : Dev nD) : sProp 𝕄 :=
  iprop((∃ Kn, ghost m Kn c) ∗ cred (tallyAt (barCell c) () 31) ∗ cred (tallyAt (recvCell c) () (31 * N)) ∗ levAts L lv ∗ xPts m c)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
def Φ₁ (c : Dev nD) : sProp 𝕄 :=
  iprop(xPts m c ∗ scratch c ∗ semVal (cpCell c) 0 ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, with the names opened, -/
def bodyPre (Kn : Dev nD × Fin 4 → ℕ) (c : Dev nD) : sProp 𝕄 :=
  iprop((ghost m Kn c ∗ cred (tallyAt (barCell c) () 31) ∗ cred (tallyAt (recvCell c) () (31 * N)) ∗ levAts L lv ∗ xPts m c ∗ scratch c)
    ∗ (dats m ρ 0 c).owesAt () t₀.castSucc
    ∗ (∃ d, stg c cc0_stg0_0 ((dats m ρ 0 c).before (0 : Fin 1) t₀ d)))

/-- and what it leaves. -/
def bodyPost (c : Dev nD) : sProp 𝕄 :=
  iprop(Φ₁ m c ∗ (dats m ρ 0 c).owesAt () t₀.succ ∗ stg c cc0_stg0_0 (outV m))

end Cert.Kernel.P

end
-- ==== Proof.Bits.Rows.lean ====
/-
  Row d of the 32×1×768 gather buffer: the indices whose first coordinate is d. The two ways the kernel
  names it — the 1×768 transfer view and the 1×1×768 vector access — cover exactly these indices; the buffer
  is the disjoint union of its 32 rows; reading and writing through a row is reading and writing those indices.
-/
import proofs.«901077_g7700000000001078_dist_sum_ax0_shard0_i_m1536_n768_v7x_i32_bf16_1_alg».proof.Proof.Bits.Base
import proofs.«901077_g7700000000001078_dist_sum_ax0_shard0_i_m1536_n768_v7x_i32_bf16_1_alg».proof.Proof.Bits.Spec
import Idealize.ShloMosaic.Rules.PointsTo
import Idealize.ShloMosaic.Signature.View
import Idealize.ShloMosaic.Signature.Memref

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Row d of the gather buffer: the indices whose first coordinate is d -/

/-- The indices of the 32×1×768 gather buffer that lie in row d. -/
def rowSet (d : Dev nD) : Finset S32x1x768.Idx := Finset.univ.filter fun i => (i 0).val = d.val

theorem mem_rowSet {d : Dev nD} {i : S32x1x768.Idx} : i ∈ rowSet d ↔ (i 0).val = d.val := by
  simp [rowSet]

/-- A unit-stride 1×1×768 rectangle at offsets (d, 0, 0) is row d, coordinate by coordinate. -/
theorem mem_unit_row (d : Dev nD) {off : Fin 3 → Nat} (h : off = ![d.val, 0, 0])
    (inb : ∀ a, off a + S1x1x768.size a ≤ S32x1x768.size a) (i : S32x1x768.Idx) :
    i ∈ (Rect.unit (s := S32x1x768) off S1x1x768.size inb).set ↔ (i 0).val = d.val := by
  subst h
  rw [Rect.mem_set_unit]
  constructor
  · intro h
    have h0 := h 0
    simp only [Matrix.cons_val_zero] at h0
    omega
  · intro h a
    have h1 : (i 1).val < 1 := (i 1).isLt
    have h2 : (i 2).val < 768 := (i 2).isLt
    fin_cases a
    · show d.val ≤ (i 0).val ∧ (i 0).val < d.val + 1; omega
    · show 0 ≤ (i 1).val ∧ (i 1).val < 0 + 1; omega
    · show 0 ≤ (i 2).val ∧ (i 2).val < 0 + 768; omega

theorem unit_row_set (d : Dev nD) {off : Fin 3 → Nat} (h : off = ![d.val, 0, 0])
    (inb : ∀ a, off a + S1x1x768.size a ≤ S32x1x768.size a) :
    (Rect.unit (s := S32x1x768) off S1x1x768.size inb).set = rowSet d := by
  ext i; rw [mem_unit_row d h inb i, mem_rowSet]

theorem rowM_set (d : Dev nD) : (rowM d).view.set = rowSet d :=
  (View.set_reshape _ _).trans ((View.set_slice_whole cc0_scratch1 _).trans (unit_row_set d (k0_off2_eq d) (k0_off2_inb d)))

theorem rowM_loc (c d : Dev nD) : (rowM d).view.loc (c : Thread nD τ) = (c : Thread nD τ).loc cc0_scratch1 := rfl

theorem acc1_set (d : Dev nD) :
    ((gM : Memref sig .tc .vmem S32x1x768 .f32).access (Rect.unit (s := S32x1x768) (k0_off1 d) S1x1x768.size (k0_off1_inb d)) : View sig .tc _ _ _).set = rowSet d :=
  (View.set_slice_whole cc0_scratch1 _).trans (unit_row_set d (k0_off1_eq d) (k0_off1_inb d))

/-- What the load at row d reads lies in row d. -/
theorem acc1_load_sub (d : Dev nD) :
    (gM : Memref sig .tc .vmem S32x1x768 .f32).view.setOn (Rect.unit (s := S32x1x768) (k0_off1 d) S1x1x768.size (k0_off1_inb d)).toLoadRect.set ⊆ rowSet d := by
  intro i hi
  obtain ⟨j, hj, rfl⟩ := Finset.mem_map.mp hi
  exact (unit_row_set d (k0_off1_eq d) (k0_off1_inb d)) ▸ hj

/-- What the store at row d writes lies in row d. -/
theorem acc1_store_sub (d : Dev nD) :
    ((gM : Memref sig .tc .vmem S32x1x768 .f32).access (Rect.unit (s := S32x1x768) (k0_off1 d) S1x1x768.size (k0_off1_inb d)) : View sig .tc _ _ _).setOn Finset.univ ⊆ rowSet d := by
  rw [View.setOn_univ, acc1_set]

/-! ## Whole-buffer reads and writes -/

omit [FloatOps F] in
theorem read_g (G : (cc0_scratch1 : Ref sig .tc).ty.Contents (Elt F)) :
    (gM : Memref sig .tc .vmem S32x1x768 .f32).view.readAt (Elt F) (Rect.unit (s := S32x1x768) ![0, 0, 0] S32x1x768.size inb_S32x1x768_S32x1x768_0_0_0).toLoadRect G = G :=
  Memref.readAt_unit_zero (Elt F) cc0_scratch1 (by decide) inb_S32x1x768_S32x1x768_0_0_0 G

omit [FloatOps F] in
theorem read_xv (G : (cc0_scratch0 : Ref sig .tc).ty.Contents (Elt F)) :
    (xV : Memref sig .tc .vmem S1536x768 .f32).view.readAt (Elt F) (Rect.unit (s := S1536x768) ![0, 0] S1536x768.size inb_S1536x768_S1536x768_0_0).toLoadRect G = G :=
  Memref.readAt_unit_zero (Elt F) cc0_scratch0 (by decide) inb_S1536x768_S1536x768_0_0 G

omit [FloatOps F] in
theorem read_o (G : (cc0_stg0_0 : Ref sig .tc).ty.Contents (Elt F)) :
    (oM : Memref sig .tc .vmem S1x768 .f32).view.readAt (Elt F) (Rect.unit (s := S1x768) ![0, 0] S1x768.size inb_S1x768_S1x768_0_0).toLoadRect G = G :=
  Memref.readAt_unit_zero (Elt F) cc0_stg0_0 (by decide) inb_S1x768_S1x768_0_0 G

omit [FloatOps F] in
theorem write_o (f w : (cc0_stg0_0 : Ref sig .tc).ty.Contents (Elt F)) :
    ((oM : Memref sig .tc .vmem S1x768 .f32).access (Rect.unit (s := S1x768) ![0, 0] S1x768.size inb_S1x768_S1x768_0_0) : View sig .tc _ _ _).write (Elt F) f w Finset.univ = w :=
  Memref.write_access_unit_zero_univ (Elt F) cc0_stg0_0 (by decide) inb_S1x768_S1x768_0_0 f w

/-! ## Writing and reading through a row -/

omit [FloatOps F] in
/-- Writing into row d of any contents what row d of G reads gives G on row d, -/
theorem row_write_read (d : Dev nD) (fd G : (cc0_scratch1 : Ref sig .tc).ty.Contents (Elt F)) :
    ∀ i ∈ rowSet d, ((rowM d).view.write (Elt F) fd ((rowM d).view.read (Elt F) G) Finset.univ) i = G i := by
  intro i hi
  rw [View.write_read_eq_piecewise]
  exact Finset.piecewise_eq_of_mem _ _ _ (by rw [View.setOn_univ, rowM_set]; exact hi)

omit [FloatOps F] in
/-- and leaves every other row as it was. -/
theorem row_write_read_off (d : Dev nD) (fd G : (cc0_scratch1 : Ref sig .tc).ty.Contents (Elt F)) :
    ∀ i, i ∉ rowSet d → ((rowM d).view.write (Elt F) fd ((rowM d).view.read (Elt F) G) Finset.univ) i = fd i := by
  intro i hi
  rw [View.write_read_eq_piecewise]
  exact Finset.piecewise_eq_of_notMem _ _ _ (by rw [View.setOn_univ, rowM_set]; exact hi)

/-- An index of row d sits, in the 1×1×768 access at row d, under its column. -/
theorem acc1_emb_rowIx (d : Dev nD) (i : S32x1x768.Idx) (hi : i ∈ rowSet d) :
    ((gM : Memref sig .tc .vmem S32x1x768 .f32).access (Rect.unit (s := S32x1x768) (k0_off1 d) S1x1x768.size (k0_off1_inb d)) : View sig .tc _ _ _).emb (Cert.Kernel.Spec.rowIx i) = i := by
  funext a
  apply Fin.ext
  show (k0_off1 d) a + 1 * (Cert.Kernel.Spec.rowIx i a).val = (i a).val
  rw [k0_off1_eq d]
  have h0 := mem_rowSet.mp hi
  have h1 : (i 1).val < 1 := (i 1).isLt
  fin_cases a
  · show d.val + 1 * 0 = (i 0).val; omega
  · show 0 + 1 * 0 = (i 1).val; omega
  · show 0 + 1 * (i 2).val = (i 2).val; omega

omit [FloatOps F] in
/-- The vector store at row d puts the vector's column j at (d, 0, j), -/
theorem row_store (d : Dev nD) (f0 : (cc0_scratch1 : Ref sig .tc).ty.Contents (Elt F)) (w : Vec F S1x1x768 .f32) :
    ∀ i ∈ rowSet d, (((gM : Memref sig .tc .vmem S32x1x768 .f32).access (Rect.unit (s := S32x1x768) (k0_off1 d) S1x1x768.size (k0_off1_inb d)) : View sig .tc _ _ _).write (Elt F) f0 w Finset.univ) i = w (Cert.Kernel.Spec.rowIx i) := by
  intro i hi
  have h := View.write_emb_of_mem (v := ((gM : Memref sig .tc .vmem S32x1x768 .f32).access (Rect.unit (s := S32x1x768) (k0_off1 d) S1x1x768.size (k0_off1_inb d)) : View sig .tc _ _ _))
    (Val := Elt F) f0 w (M := Finset.univ) (x := Cert.Kernel.Spec.rowIx i) (Finset.mem_univ _)
  rw [acc1_emb_rowIx d i hi] at h
  exact h

omit [FloatOps F] in
/-- and leaves every other row as it was. -/
theorem row_store_off (d : Dev nD) (f0 : (cc0_scratch1 : Ref sig .tc).ty.Contents (Elt F)) (w : Vec F S1x1x768 .f32) :
    ∀ i, i ∉ rowSet d → (((gM : Memref sig .tc .vmem S32x1x768 .f32).access (Rect.unit (s := S32x1x768) (k0_off1 d) S1x1x768.size (k0_off1_inb d)) : View sig .tc _ _ _).write (Elt F) f0 w Finset.univ) i = f0 i := by
  intro i hi
  exact View.write_of_not_mem _ _ _ (fun h => hi (acc1_store_sub d h))

/-! ## The buffer is the disjoint union of its rows -/

theorem rowSet_disjoint {d d' : Dev nD} (h : d ≠ d') : Disjoint (rowSet d) (rowSet d') := by
  rw [Finset.disjoint_left]
  intro i hi hi'
  exact h (Fin.ext ((mem_rowSet.mp hi).symm.trans (mem_rowSet.mp hi')))

/-- Every index lies in the row its first coordinate names. -/
theorem mem_rowSet_rowDev (i : S32x1x768.Idx) : i ∈ rowSet (Cert.Kernel.Spec.rowDev i) := mem_rowSet.mpr rfl

/-- The 32 rows cover the buffer (whatever decision procedure for equality of indices the union is formed with). -/
theorem biUnion_rowSet {inst : DecidableEq S32x1x768.Idx} :
    @Finset.biUnion (Dev nD) S32x1x768.Idx inst Finset.univ rowSet = Finset.univ := by
  ext i
  simp only [Finset.mem_biUnion, Finset.mem_univ, true_and, iff_true]
  exact ⟨Cert.Kernel.Spec.rowDev i, mem_rowSet_rowDev i⟩

/-- What is left of the buffer without row d is the other 31 rows. -/
theorem sdiff_rowSet {i1 i2 : DecidableEq S32x1x768.Idx} (d : Dev nD) :
    @SDiff.sdiff (Finset S32x1x768.Idx) (@Finset.instSDiff S32x1x768.Idx i1) Finset.univ (rowSet d)
      = @Finset.biUnion (Dev nD) S32x1x768.Idx i2 (Finset.univ.erase d) rowSet := by
  ext i
  simp only [Finset.mem_sdiff, Finset.mem_univ, true_and, Finset.mem_biUnion, Finset.mem_erase, and_true]
  constructor
  · intro h
    exact ⟨Cert.Kernel.Spec.rowDev i, fun e => h (e ▸ mem_rowSet_rowDev i), mem_rowSet_rowDev i⟩
  · rintro ⟨d', hne, hd'⟩ h
    exact hne (Fin.ext ((mem_rowSet.mp hd').symm.trans (mem_rowSet.mp h)))

omit [FloatOps F] in
/-- The whole gather buffer is its 32 rows, side by side. -/
theorem rows_split (c : Dev nD) (q : PosShare TreeShare) (f : Buf (Elt F) ((c : Thread nD τ).loc cc0_scratch1)) :
    ((((c : Thread nD τ).loc cc0_scratch1) ↦{q} f) : sProp 𝕄)
      ⊣⊢ bigSep Finset.univ (fun d : Dev nD => ((c : Thread nD τ).loc cc0_scratch1) ↦[rowSet d]{q} f) := by
  have hd : ∀ t ∈ (Finset.univ : Finset (Dev nD)), ∀ t' ∈ (Finset.univ : Finset (Dev nD)), t ≠ t' →
      @Disjoint (Finset (Idx ((c : Thread nD τ).loc cc0_scratch1))) _ _ (rowSet t) (rowSet t') :=
    fun t _ t' _ hne => rowSet_disjoint hne
  have h := @pointsTo_biUnion nD τ sig Unit _ (Elt F) ℕ _ UU _ ℕ ((c : Thread nD τ).loc cc0_scratch1) q f (Dev nD)
    Finset.univ rowSet hd
  exact .of_eq ((congrArg (fun S => (pointsTo ((c : Thread nD τ).loc cc0_scratch1) S q f : sProp 𝕄))
    (biUnion_rowSet (inst := _)).symm).trans h)

omit [FloatOps F] in
/-- One row carved out of the buffer, -/
theorem row_split (c d : Dev nD) (q : PosShare TreeShare) (f : Buf (Elt F) ((c : Thread nD τ).loc cc0_scratch1)) :
    ((((c : Thread nD τ).loc cc0_scratch1) ↦{q} f) : sProp 𝕄)
      ⊣⊢ iprop((((c : Thread nD τ).loc cc0_scratch1) ↦[rowSet d]{q} f) ∗ (((c : Thread nD τ).loc cc0_scratch1) ↦[Finset.univ \ rowSet d]{q} f)) :=
  pointsTo_split_subset (Finset.subset_univ _)

omit [FloatOps F] in
/-- and the rest of the buffer is the other 31 rows. -/
theorem others_split (c d : Dev nD) (q : PosShare TreeShare) (f : Buf (Elt F) ((c : Thread nD τ).loc cc0_scratch1)) :
    ((((c : Thread nD τ).loc cc0_scratch1) ↦[Finset.univ \ rowSet d]{q} f) : sProp 𝕄)
      ⊣⊢ bigSep (Finset.univ.erase d) (fun d' : Dev nD => ((c : Thread nD τ).loc cc0_scratch1) ↦[rowSet d']{q} f) := by
  have hd : ∀ t ∈ (Finset.univ : Finset (Dev nD)).erase d, ∀ t' ∈ (Finset.univ : Finset (Dev nD)).erase d, t ≠ t' →
      @Disjoint (Finset (Idx ((c : Thread nD τ).loc cc0_scratch1))) _ _ (rowSet t) (rowSet t') :=
    fun t _ t' _ hne => rowSet_disjoint hne
  have h := @pointsTo_biUnion nD τ sig Unit _ (Elt F) ℕ _ UU _ ℕ ((c : Thread nD τ).loc cc0_scratch1) q f (Dev nD)
    (Finset.univ.erase d) rowSet hd
  exact .of_eq ((congrArg (fun S => (pointsTo ((c : Thread nD τ).loc cc0_scratch1) S q f : sProp 𝕄))
    (sdiff_rowSet (i1 := _) (i2 := _) d)).trans h)

/-- info: 'Cert.Kernel.P.rows_split' depends on axioms: [propext, Classical.choice, Quot.sound] -/
#guard_msgs in
#print axioms rows_split

end Cert.Kernel.P

end
-- ==== Proof.Bits.Steps.lean ====
/-
  The protocol's steps, one lemma each, at a symbolic device c and a symbolic offset: the entry signal to the device
  j+1 places on, the send to it, the barrier wait, the copy of the block and its wait, one instalment of the receive
  and of the send waits.
-/
import proofs.«901077_g7700000000001078_dist_sum_ax0_shard0_i_m1536_n768_v7x_i32_bf16_1_alg».proof.Proof.Bits.Data
import proofs.«901077_g7700000000001078_dist_sum_ax0_shard0_i_m1536_n768_v7x_i32_bf16_1_alg».proof.Proof.Bits.Rows
import proofs.«901077_g7700000000001078_dist_sum_ax0_shard0_i_m1536_n768_v7x_i32_bf16_1_alg».proof.Proof.LibWaitAcc

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

theorem mem_K {k : ℕ} (h1 : 1 ≤ k) (h2 : k ≤ 31) : k ∈ K := Finset.mem_Icc.mpr ⟨h1, h2⟩

theorem rest_cp (c : Dev nD) :
    bigSep ((sched (F := F) m).duties (cpCell c) 0 \ ∅) (fun d => (sched (F := F) m).payload (cpCell c) 0 d) = cpPay m c := by
  rw [Finset.sdiff_empty, duties_cp, bigSep_singleton, payload_cp]
theorem rest_bar (c : Dev nD) :
    bigSep ((sched (F := F) m).duties (barCell c) 0 \ ∅) (fun d => (sched (F := F) m).payload (barCell c) 0 d) = bigSep K (fun k => barPay (F := F) c k) := by
  rw [Finset.sdiff_empty, duties_bar]; exact bigSep_congr fun k _ => payload_bar m c k

omit [FloatOps F] in
/-- Writing the whole VMEM copy with what the whole block reads leaves the block. -/
theorem cp_landed (c : Dev nD) (fd : Buf (Elt F) ((xV : Memref sig .tc .vmem S1536x768 .f32).view.loc (c : Thread nD τ))) (fs : (main_arg0 : Ref sig .tc).ty.Contents (Elt F)) :
    (xV : Memref sig .tc .vmem S1536x768 .f32).view.write (Elt F) fd ((xH : Memref sig .tc .hbm S1536x768 .f32).view.read (Elt F) fs) Finset.univ = fs := by
  show (View.whole cc0_scratch0).write (Elt F) fd ((View.whole main_arg0).read (Elt F) fs) Finset.univ = fs
  rw [View.read_whole]
  exact View.write_whole_univ _ _ _

/-- The entry signal to the device j+1 places on: it pays duty j+1 of that device's barrier cell and hands over that
    device's row of c's gather buffer. -/
theorem step_signal (c : Dev nD) (j jx : ℕ) (hj : j < 31) (n : Dev nD) (hn : n = sh c (j + 1)) (k' : ℕ) (hk' : k' = 1)
    {α : Type} {Q : α → sProp 𝕄} {k : PUnit → Prog (TpuEff nD τ sig (Elt F) Λ₀ .tc) α} (W : Waits sig Unit)
    (f : Buf (Elt F) ((rowM (sh c (j + 1))).view.loc (c : Thread nD τ))) :
    iprop(records m Kn ∗ owes (c : Thread nD τ) (owe c j jx) W ∗ dutyTok ER (barCell (sh c (j + 1))) 0 (j + 1)
        ∗ rowPts c (sh c (j + 1)) fullShare f)
      ⊢ iprop((owes (c : Thread nD τ) (owe c (j + 1) jx) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  subst hn hk'
  iintro ⟨#HR, HO, Htok, Hrow⟩
  iapply (Rounds.wp_signal 𝒱₀ ER (sched m) (c : Thread nD τ) none (dst := (sh c (j + 1) : Thread nD τ)) (κ := Kn (sh c (j + 1), 0))
      (d := j + 1) (by rw [duties_bar]; exact mem_K (by omega) (by omega)) (amount_bar m (sh c (j + 1)) (j + 1)) () (owe c (j + 1) jx) (owe_sig c j jx hj))
    $$ [HO Htok Hrow]
  · isplitr; · iapply (inv_at m Kn (sh c (j + 1), 0)); iexact HR
    isplitl [HO]; · iexact HO
    isplitl [Htok]; · iexact Htok
    isplitl [Hrow]
    · rw [payload_bar]; unfold barPay; rw [bk_sh]; iexists f; iexact Hrow
    · iapply (reached_at m Kn (sh c (j + 1), 0)); iexact HR

/-- The send to the device j+1 places on: c's row, read at its (j+1)-th share, written into c's row of that device's
    gather buffer (handed over by that device's entry signal); it pays duty j+1 of c's send cell and duty j+1 of that
    device's receive cell, whose payload is that row landed. -/
theorem step_send (c : Dev nD) (j : ℕ) (hj : j < 31) (n : Dev nD) (hn : n = sh c (j + 1))
    {hsc : ((rowM c) : Memref sig (Dev.tc n : Thread nD τ).2.kind .vmem S1x768 .f32).view.ref.isScScratch = false}
    {hsrc : (rowM c).view.WordExact} {hdst : (rowM c).view.WordExact}
    {hsem : DmaTarget.Typed .vmem (.dma recvS.sem) (.remote (Dev.tc n : Thread nD τ) (rowM c) (.dma sendS.sem) hsc)}
    {α : Type} {Q : α → sProp 𝕄} {k : PUnit → Prog (TpuEff nD τ sig (Elt F) Λ₀ .tc) α} (W : Waits sig Unit)
    (fd : Buf (Elt F) ((rowM c).view.loc (sh c (j + 1) : Thread nD τ))) :
    iprop(records m Kn ∗ rowPts c c (Transfers.shareTokN fullShare (j + 1)) (G m) ∗ rowPts (sh c (j + 1)) c fullShare fd
        ∗ owes (c : Thread nD τ) (owe c 31 j) W
        ∗ dutyTok ER (sendCell c) 0 (j + 1) ∗ dutyTok ER (recvCell (sh c (j + 1))) 0 (j + 1))
      ⊢ iprop(((cred (tallyAt (sendCell c) () N) ∗ owes (c : Thread nD τ) (owe c 31 (j + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma sendS.sem) hsc) (.dma recvS.sem) hsrc hdst hsem) k) Q) := by
  subst hn
  iintro ⟨#HR, Hsrc, Hdst, HO, HtS, HtV⟩
  unfold rowPts
  iapply (Rounds.wp_send_pointsTo 𝒱₀ ER (sched m) (c : Thread nD τ) none (κ₁ := Kn (c, 2)) (κ₂ := Kn (sh c (j + 1), 3))
      (r₁ := 0) (r₂ := 0) (d₁ := j + 1) (d₂ := j + 1) (fd := fd)
      (by rw [duties_send]; exact mem_K (by omega) (by omega)) (by rw [duties_recv]; exact mem_K (by omega) (by omega))
      () () N rfl (amount_send m c (j + 1)) (amount_recv m (sh c (j + 1)) (j + 1)) (owe c 31 (j + 1)) (owe_send c 31 j hj) (W := W)
      (by rw [payload_send]; unfold sendPay rowPts; exact BI.Entails.refl _)
      (by
        rw [payload_recv]; unfold recvPay rowPts; rw [bk_sh]
        refine Entails.of_eq ?_
        rw [rowM_set]
        exact pointsTo_congr (row_write_read c fd (G m)))) $$ [Hsrc Hdst HO HtS HtV]
  · isplitr; · iapply (inv_at m Kn (c, 2)); iexact HR
    isplitr; · iapply (inv_at m Kn (sh c (j + 1), 3)); iexact HR
    isplitl [Hsrc]; · iexact Hsrc
    isplitl [Hdst]; · iexact Hdst
    isplitl [HO]; · iexact HO
    isplitl [HtS]; · iexact HtS
    isplitr; · iapply (reached_at m Kn (c, 2)); iexact HR
    isplitl [HtV]; · iexact HtV
    iapply (reached_at m Kn (sh c (j + 1), 3)); iexact HR

/-- The barrier wait: 31 units, the rest (all) of the round; every other device's copy of c's row comes with it. -/
theorem step_barwait (c : Dev nD) (jx : ℕ) (k' : ℕ) (hk' : k' = 31)
    {α : Type} {Q : α → sProp 𝕄} {k : PUnit → Prog (TpuEff nD τ sig (Elt F) Λ₀ .tc) α} (W : Waits sig Unit) :
    iprop(records m Kn ∗ cred (tallyAt (barCell c) () 31) ∗ owes (c : Thread nD τ) (owe c 31 jx) W ∗ levAts L lv ∗ atPos ER (barCell c) 0 ∅ 0)
      ⊢ iprop(((owes (c : Thread nD τ) (owe c 31 jx) (insert (SemLoc.reg barS, ()) W) ∗ bigSep K (fun k => barPay (F := F) c k))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, #Hlev, Hat⟩
  iintro Hk
  iapply (Rounds.wp_wait_rest_token 𝒱₀ ER (sched m) (c : Thread nD τ) none (κ := Kn (c, 0))
      (wpE_semWait_eq 𝒱₀ (c : Thread nD τ) none Set.univ) (Set.mem_univ _) () (O := owe c 31 jx) (W := W) (R := 0) (m := 0) (T := ∅)
      (by rw [expect_bar])) $$ [Hc HO Hat]
  · isplitr; · iapply (inv_at m Kn (c, 0)); iexact HR
    isplitl [Hc]; · iexact Hc
    isplitl [HO]; · iexact HO
    isplitr; · iapply (mayWait_bar c jx); iexact Hlev
    iexact Hat
  iintro ⟨HO, -, -, Hpay⟩
  ihave Hp := (Entails.of_eq (rest_bar m c)) $$ Hpay
  iapply Hk
  isplitl [HO]; · iexact HO
  iexact Hp

/-- The copy of the block of x into VMEM: it pays the one duty of c's copy cell; what comes back with the wait is the
    VMEM buffer holding the block, and the block itself. -/
theorem step_copy (c : Dev nD)
    {hsrc : (xH : Memref sig .tc .hbm S1536x768 .f32).view.WordExact} {hdst : (xV : Memref sig .tc .vmem S1536x768 .f32).view.WordExact}
    {hsem : DmaTarget.Typed (nD := nD) .hbm (.dma cpS.sem) (DmaTarget.here (p := (c : Thread nD τ).2) (xV : Memref sig .tc .vmem S1536x768 .f32))}
    {α : Type} {Q : α → sProp 𝕄} {k : PUnit → Prog (TpuEff nD τ sig (Elt F) Λ₀ .tc) α}
    (fd : Buf (Elt F) ((c : Thread nD τ).loc cc0_scratch0)) :
    iprop(records m Kn ∗ xPts m c ∗ (((c : Thread nD τ).loc cc0_scratch0) ↦{fullShare} fd) ∗ dutyTok ER (cpCell c) 0 0)
      ⊢ iprop((cred (tallyAt (cpCell c) () cpAmt) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xH : Memref sig .tc .hbm S1536x768 .f32) (DmaTarget.here (p := (c : Thread nD τ).2) (xV : Memref sig .tc .vmem S1536x768 .f32)) (.dma cpS.sem) hsrc hdst hsem) k) Q) := by
  iintro ⟨#HR, Hx, Hv, Htok⟩
  unfold xPts
  iapply (Rounds.wp_copy_pointsTo 𝒱₀ ER (sched m) (c : Thread nD τ) none (κ := Kn (c, 1)) (r := 0) (d := 0) (fd := fd) (fs := xs m c) (q := fullShare)
      (by rw [duties_cp]; exact Finset.mem_singleton_self _) () cpAmt (by rw [cpAmt_def]) (amount_cp m c 0)
      (by rw [payload_cp]; unfold cpPay; rw [cp_landed])) $$ [Hx Hv Htok]
  · isplitr; · iapply (inv_at m Kn (c, 1)); iexact HR
    isplitl [Hx]; · rw [View.set_whole]; iexact Hx
    isplitl [Hv]; · rw [View.set_whole]; iexact Hv
    isplitl [Htok]; · iexact Htok
    iapply (reached_at m Kn (c, 1)); iexact HR

/-- The wait for the copy: the rest (all) of the copy cell's round. -/
theorem step_cpwait (c : Dev nD) (js jx : ℕ)
    {src : Memref sig .tc .hbm S1536x768 .f32} {hsrc : src.view.WordExact} {hdst : (xV : Memref sig .tc .vmem S1536x768 .f32).view.WordExact}
    {α : Type} {Q : α → sProp 𝕄} {k : PUnit → Prog (TpuEff nD τ sig (Elt F) Λ₀ .tc) α} (W : Waits sig Unit) :
    iprop(records m Kn ∗ cred (tallyAt (cpCell c) () cpAmt) ∗ owes (c : Thread nD τ) (owe c js jx) W ∗ levAts L lv ∗ atPos ER (cpCell c) 0 ∅ 0)
      ⊢ iprop(((owes (c : Thread nD τ) (owe c js jx) (insert (SemLoc.dma cpS.sem, ()) W) ∗ atPos ER (cpCell c) 1 ∅ 0 ∗ cpPay m c)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 cpS.sem src (xV : Memref sig .tc .vmem S1536x768 .f32) hsrc hdst) k) Q) := by
  iintro ⟨#HR, Hc, HO, #Hlev, Hat⟩
  iintro Hk
  rw [cpAmt_def]
  iapply (Rounds.wp_wait_rest_token 𝒱₀ ER (sched m) (c : Thread nD τ) none (κ := Kn (c, 1))
      (wpE_waitDma2_eq 𝒱₀ (c : Thread nD τ) none Set.univ) (Set.mem_univ _) () (O := owe c js jx) (W := W) (R := 0) (m := 0) (T := ∅)
      (by rw [Nat.zero_add, expect_cp, cpAmt_def])) $$ [Hc HO Hat]
  · isplitr; · iapply (inv_at m Kn (c, 1)); iexact HR
    isplitl [Hc]; · iexact Hc
    isplitl [HO]; · iexact HO
    isplitr; · iapply (mayWait_low c cpS.sem cp_ne_recv js jx); iexact Hlev
    iexact Hat
  iintro ⟨HO, Hat, -, Hpay⟩
  ihave Hp := (Entails.of_eq (rest_cp m c)) $$ Hpay
  iapply Hk
  isplitl [HO]; · iexact HO
  isplitl [Hat]; · iexact Hat
  iexact Hp

end Cert.Kernel.P

end
-- ==== Proof.Bits.States.lean ====
/-
  The body's progress through its four runs of 31 steps, as four families of assertions indexed by how many steps are
  done: the entry signals, the sends, the receive waits, the send waits. One lemma per family moves it one step on.
-/
import proofs.«901077_g7700000000001078_dist_sum_ax0_shard0_i_m1536_n768_v7x_i32_bf16_1_alg».proof.Proof.Bits.Steps

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

/-- After js entry signals: what c still owes, and for each offset still to come the signal's token and the row of c's
    gather buffer it hands over. -/
def sigSt (c : Dev nD) (js : ℕ) : sProp 𝕄 :=
  iprop((∃ W, owes (c : Thread nD τ) (owe c js 0) W)
    ∗ bigSep (Finset.Ioc js 31) (fun k => iprop(dutyTok ER (barCell (sh c k)) 0 k ∗ ∃ f, rowPts (F := F) c (sh c k) fullShare f)))

/-- After jx sends: what c still owes, the credit its sends have earned on its send cell, for each offset still to come
    the two tokens and the read share of its own row, and what the barrier wait handed over and no send has used yet:
    c's row of the gather buffer of each device 1, …, 31 - jx places BEFORE c (the device jx + 1 places after c is the
    one 31 - jx places before it). -/
def sendSt (c : Dev nD) (jx : ℕ) : sProp 𝕄 :=
  iprop((∃ W, owes (c : Thread nD τ) (owe c 31 jx) W) ∗ cred (tallyAt (sendCell c) () (jx * N))
    ∗ bigSep (Finset.Ioc jx 31) (fun k => iprop(dutyTok ER (sendCell c) 0 k ∗ dutyTok ER (recvCell (sh c k)) 0 k
        ∗ rowPts c c (Transfers.shareTokN fullShare k) (G m)))
    ∗ bigSep (Finset.Icc 1 (31 - jx)) (fun k => barPay (F := F) c k))

/-- After jr receive waits: nothing owed, the credit for the waits to come, and the rows that have landed so far. -/
def recvSt (c : Dev nD) (jr : ℕ) : sProp 𝕄 :=
  iprop((∃ W, owes (c : Thread nD τ) (0 : CellTallies nD τ sig Unit) W) ∗ cred (tallyAt (recvCell c) () ((31 - jr) * N))
    ∗ waitAcc ER (sched m) (c : Thread nD τ) (.dma recvS.sem) 0 (jr * N))

/-- After jw send waits: nothing owed, the credit for the waits to come, and the read shares that have come back. -/
def swSt (c : Dev nD) (jw : ℕ) : sProp 𝕄 :=
  iprop((∃ W, owes (c : Thread nD τ) (0 : CellTallies nD τ sig Unit) W) ∗ cred (tallyAt (sendCell c) () ((31 - jw) * N))
    ∗ waitAcc ER (sched m) (c : Thread nD τ) (.dma sendS.sem) 0 (jw * N))

omit [FloatOps F] in
theorem bigSep_Ioc_peel {j : ℕ} (h : j < 31) (Φ : ℕ → sProp 𝕄) :
    bigSep (Finset.Ioc j 31) Φ = iprop(Φ (j + 1) ∗ bigSep (Finset.Ioc (j + 1) 31) Φ) := by
  rw [Ioc_peel h, BI.bigSep_insert (notMem_Ioc_succ j)]; rfl

/-- One entry signal on. -/
theorem step_sig_st (c : Dev nD) (js : ℕ) (hj : js < 31) (n : Dev nD) (hn : n = sh c (js + 1)) (k' : ℕ) (hk' : k' = 1)
    {α : Type} {Q : α → sProp 𝕄} {k : PUnit → Prog (TpuEff nD τ sig (Elt F) Λ₀ .tc) α} :
    iprop(records m Kn ∗ sigSt c js)
      ⊢ iprop((sigSt c (js + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n : Dev nD) : Thread nD τ) barS k') k) Q) := by
  unfold sigSt
  rw [bigSep_Ioc_peel hj]
  iintro ⟨#HR, ⟨%W, HO⟩, ⟨Htok, ⟨%f, Hrow⟩⟩, Hrest⟩
  iintro Hk
  iapply (step_signal m Kn c js 0 hj n hn k' hk' W f) $$ [HO Htok Hrow]
  · isplitr; · iexact HR
    isplitl [HO]; · iexact HO
    isplitl [Htok]; · iexact Htok
    iexact Hrow
  iintro HO
  iapply Hk
  isplitl [HO]; · iexists W; iexact HO
  iexact Hrest

theorem bk_flip (c : Dev nD) {j : ℕ} (h : j < 31) : bk c (31 - j) = sh c (j + 1) := by
  apply Fin.ext; show (c.val + (32 - (31 - j) % 32)) % 32 = (c.val + (j + 1)) % 32
  have := c.isLt; have : nD = 32 := rfl; omega

theorem Icc_peel_top {j : ℕ} (h : j < 31) : Finset.Icc 1 (31 - j) = insert (31 - j) (Finset.Icc 1 (31 - (j + 1))) := by
  ext x; simp only [Finset.mem_Icc, Finset.mem_insert]; omega
omit [FloatOps F] in
theorem bigSep_Icc_top {j : ℕ} (h : j < 31) (Φ : ℕ → sProp 𝕄) :
    bigSep (Finset.Icc 1 (31 - j)) Φ = iprop(Φ (31 - j) ∗ bigSep (Finset.Icc 1 (31 - (j + 1))) Φ) := by
  rw [Icc_peel_top h, BI.bigSep_insert (by simp only [Finset.mem_Icc]; omega)]; rfl

/-- One send on. -/
theorem step_send_st (c : Dev nD) (jx : ℕ) (hj : jx < 31) (n : Dev nD) (hn : n = sh c (jx + 1))
    {hsc : ((rowM c) : Memref sig (Dev.tc n : Thread nD τ).2.kind .vmem S1x768 .f32).view.ref.isScScratch = false}
    {hsrc : (rowM c).view.WordExact} {hdst : (rowM c).view.WordExact}
    {hsem : DmaTarget.Typed .vmem (.dma recvS.sem) (.remote (Dev.tc n : Thread nD τ) (rowM c) (.dma sendS.sem) hsc)}
    {α : Type} {Q : α → sProp 𝕄} {k : PUnit → Prog (TpuEff nD τ sig (Elt F) Λ₀ .tc) α} :
    iprop(records m Kn ∗ sendSt m c jx)
      ⊢ iprop((sendSt m c (jx + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma sendS.sem) hsc) (.dma recvS.sem) hsrc hdst hsem) k) Q) := by
  unfold sendSt
  rw [bigSep_Ioc_peel hj, bigSep_Icc_top hj]
  unfold barPay
  rw [bk_flip c hj]
  iintro ⟨#HR, ⟨%W, HO⟩, Hcr, ⟨⟨HtS, HtV, Hsrc⟩, Hrest⟩, ⟨%fd, Hdst⟩, Hrows⟩
  iintro Hk
  iapply (step_send m Kn c jx hj n hn W fd) $$ [HO HtS HtV Hsrc Hdst]
  · isplitr; · iexact HR
    isplitl [Hsrc]; · iexact Hsrc
    isplitl [Hdst]; · iexact Hdst
    isplitl [HO]; · iexact HO
    isplitl [HtS]; · iexact HtS
    iexact HtV
  iintro ⟨Hc1, HO⟩
  iapply Hk
  isplitl [HO]; · iexists W; iexact HO
  isplitl [Hcr Hc1]
  · rw [Nat.succ_mul, ← tallyAt_add]
    iapply (cred_add _ _).2
    isplitl [Hcr]; · iexact Hcr
    iexact Hc1
  isplitl [Hrest]; · iexact Hrest
  iexact Hrows

/-- One recv wait on (not the last): one row's credit consumed, whatever has landed taken. -/
theorem step_recvwait_st (c : Dev nD) (j : ℕ) (hj : j < 30)
    {hsrc : (rowM c).view.WordExact} {hdst : (rowM c).view.WordExact}
    {α : Type} {Q : α → sProp 𝕄} {k : PUnit → Prog (TpuEff nD τ sig (Elt F) Λ₀ .tc) α} :
    iprop(records m Kn ∗ recvSt m c j)
      ⊢ iprop((recvSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS.sem (rowM c) (rowM c) hsrc hdst) k) Q) := by
  have hdstN : (rowM c).view.amount (.dma recvS.sem) = N := rfl
  unfold recvSt
  rw [show (31 - j) * N = (31 - (j + 1)) * N + N from by rw [show 31 - j = (31 - (j + 1)) + 1 from by omega, Nat.succ_mul], ← tallyAt_add]
  iintro ⟨#HR, ⟨%W, HO⟩, Hcr, Hacc⟩
  iintro Hk
  ihave Hcr2 := (cred_add _ _).1 $$ Hcr
  icases Hcr2 with ⟨Hcr, Hc1⟩
  rw [← hdstN]
  iapply (Rounds.wp_wait_acc 𝒱₀ ER (sched m) (c : Thread nD τ) none (κ := Kn (c, 3))
      (wpE_waitDma2_eq 𝒱₀ (c : Thread nD τ) none Set.univ) (Set.mem_univ _) () (O := 0) (W := W) (R := 0) (mm := j * (rowM c).view.amount (.dma recvS.sem))) $$ [Hc1 HO Hacc]
  · isplitr; · iapply (inv_at m Kn (c, 3)); iexact HR
    isplitl [Hc1]; · iexact Hc1
    isplitl [HO]; · iexact HO
    isplitr; · rw [MayWait_zero]; iempintro
    iexact Hacc
  iintro ⟨HO, Hacc⟩
  iapply Hk
  isplitl [HO]; · iexists _; iexact HO
  isplitl [Hcr]; · iexact Hcr
  rw [Nat.succ_mul]; iexact Hacc

/-- The last recv wait: the rest of the round; every payload of the round is now held. -/
theorem step_recvwait_last (c : Dev nD)
    {hsrc : (rowM c).view.WordExact} {hdst : (rowM c).view.WordExact}
    {α : Type} {Q : α → sProp 𝕄} {k : PUnit → Prog (TpuEff nD τ sig (Elt F) Λ₀ .tc) α} :
    iprop(records m Kn ∗ recvSt m c 30)
      ⊢ iprop((((∃ W, owes (c : Thread nD τ) (0 : CellTallies nD τ sig Unit) W) ∗ atPos ER (recvCell c) 1 ∅ 0
                ∗ bigSep K (fun k => (sched (F := F) m).payload (recvCell c) 0 k))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS.sem (rowM c) (rowM c) hsrc hdst) k) Q) := by
  have hdstN : (rowM c).view.amount (.dma recvS.sem) = N := rfl
  unfold recvSt
  rw [show (31 - 30) * N = N from by rw [show 31 - 30 = 1 from rfl, Nat.one_mul]]
  iintro ⟨#HR, ⟨%W, HO⟩, Hc1, Hacc⟩
  iintro Hk
  rw [← hdstN]
  iapply (Rounds.wp_wait_acc_rest 𝒱₀ ER (sched m) (c : Thread nD τ) none (κ := Kn (c, 3))
      (wpE_waitDma2_eq 𝒱₀ (c : Thread nD τ) none Set.univ) (Set.mem_univ _) () (O := 0) (W := W) (R := 0) (mm := 30 * (rowM c).view.amount (.dma recvS.sem))
      (by rw [expect_recv]; have h2 : (rowM c).view.dmaCredit = N := hdstN; have h3 : (rowM c).view.amount (.dma recvS.sem) = N := hdstN; omega)) $$ [Hc1 HO Hacc]
  · isplitr; · iapply (inv_at m Kn (c, 3)); iexact HR
    isplitl [Hc1]; · iexact Hc1
    isplitl [HO]; · iexact HO
    isplitr; · rw [MayWait_zero]; iempintro
    iexact Hacc
  iintro ⟨HO, Hat, #Hr1, Hpay⟩
  iapply Hk
  isplitl [HO]; · iexists _; iexact HO
  isplitl [Hat]; · iexact Hat
  rw [duties_recv]; iexact Hpay

/-- One send wait on (not the last): one row's credit consumed, whatever has landed taken. -/
theorem step_sendwait_st (c : Dev nD) (j : ℕ) (hj : j < 30)
    {hsrc : (rowM c).view.WordExact} {hdst : (rowM c).view.WordExact}
    {α : Type} {Q : α → sProp 𝕄} {k : PUnit → Prog (TpuEff nD τ sig (Elt F) Λ₀ .tc) α} :
    iprop(records m Kn ∗ swSt m c j)
      ⊢ iprop((swSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS.sem (rowM c) (rowM c) hsrc hdst) k) Q) := by
  have hdstN : (rowM c).view.amount (.dma sendS.sem) = N := rfl
  unfold swSt
  rw [show (31 - j) * N = (31 - (j + 1)) * N + N from by rw [show 31 - j = (31 - (j + 1)) + 1 from by omega, Nat.succ_mul], ← tallyAt_add]
  iintro ⟨#HR, ⟨%W, HO⟩, Hcr, Hacc⟩
  iintro Hk
  ihave Hcr2 := (cred_add _ _).1 $$ Hcr
  icases Hcr2 with ⟨Hcr, Hc1⟩
  rw [← hdstN]
  iapply (Rounds.wp_wait_acc 𝒱₀ ER (sched m) (c : Thread nD τ) none (κ := Kn (c, 2))
      (wpE_waitDma2_eq 𝒱₀ (c : Thread nD τ) none Set.univ) (Set.mem_univ _) () (O := 0) (W := W) (R := 0) (mm := j * (rowM c).view.amount (.dma sendS.sem))) $$ [Hc1 HO Hacc]
  · isplitr; · iapply (inv_at m Kn (c, 2)); iexact HR
    isplitl [Hc1]; · iexact Hc1
    isplitl [HO]; · iexact HO
    isplitr; · rw [MayWait_zero]; iempintro
    iexact Hacc
  iintro ⟨HO, Hacc⟩
  iapply Hk
  isplitl [HO]; · iexists _; iexact HO
  isplitl [Hcr]; · iexact Hcr
  rw [Nat.succ_mul]; iexact Hacc

/-- The last send wait: the rest of the round; every payload of the round is now held. -/
theorem step_sendwait_last (c : Dev nD)
    {hsrc : (rowM c).view.WordExact} {hdst : (rowM c).view.WordExact}
    {α : Type} {Q : α → sProp 𝕄} {k : PUnit → Prog (TpuEff nD τ sig (Elt F) Λ₀ .tc) α} :
    iprop(records m Kn ∗ swSt m c 30)
      ⊢ iprop((((∃ W, owes (c : Thread nD τ) (0 : CellTallies nD τ sig Unit) W) ∗ atPos ER (sendCell c) 1 ∅ 0
                ∗ bigSep K (fun k => (sched (F := F) m).payload (sendCell c) 0 k))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS.sem (rowM c) (rowM c) hsrc hdst) k) Q) := by
  have hdstN : (rowM c).view.amount (.dma sendS.sem) = N := rfl
  unfold swSt
  rw [show (31 - 30) * N = N from by rw [show 31 - 30 = 1 from rfl, Nat.one_mul]]
  iintro ⟨#HR, ⟨%W, HO⟩, Hc1, Hacc⟩
  iintro Hk
  rw [← hdstN]
  iapply (Rounds.wp_wait_acc_rest 𝒱₀ ER (sched m) (c : Thread nD τ) none (κ := Kn (c, 2))
      (wpE_waitDma2_eq 𝒱₀ (c : Thread nD τ) none Set.univ) (Set.mem_univ _) () (O := 0) (W := W) (R := 0) (mm := 30 * (rowM c).view.amount (.dma sendS.sem))
      (by rw [expect_send]; have h2 : (rowM c).view.dmaCredit = N := hdstN; have h3 : (rowM c).view.amount (.dma sendS.sem) = N := hdstN; omega)) $$ [Hc1 HO Hacc]
  · isplitr; · iapply (inv_at m Kn (c, 2)); iexact HR
    isplitl [Hc1]; · iexact Hc1
    isplitl [HO]; · iexact HO
    isplitr; · rw [MayWait_zero]; iempintro
    iexact Hacc
  iintro ⟨HO, Hat, #Hr1, Hpay⟩
  iapply Hk
  isplitl [HO]; · iexists _; iexact HO
  isplitl [Hat]; · iexact Hat
  rw [duties_send]; iexact Hpay

end Cert.Kernel.P

end
-- ==== Proof.Bits.PartsSig.lean ====
/-
  The entry signals, part by part of the printed body: each part sends the next few signals in order.
-/
import proofs.«901077_g7700000000001078_dist_sum_ax0_shard0_i_m1536_n768_v7x_i32_bf16_1_alg».proof.Proof.Bits.States

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 4000000 in
theorem part2_spec (c : Dev nD) (v2 : BitVec 32) (Kt : PUnit → sProp 𝕄) :
    iprop(records m Kn ∗ sigSt (F := F) c 8 ∗ (sigSt (F := F) c 18 -∗ Kt ⟨⟩))
      ⊢ wp frame (wpE (defs₀ (F := F)) 𝒱₀ (c : Thread nD τ) none) Set.univ
          (k0_part2 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 (SemArray.scalar (sig.barrier 0 rfl) : Sems sig S_)) Kt := by
  rw [k0_part2_eq_skeleton]; unfold k0_part2_skel
  simp only [semSignalWord, Prog.lift, Prog.bind_op, Prog.bind_ret, Prog.pure_eq_ret]
  iintro ⟨#HR, Hst, Hk⟩
  iapply (step_sig_st m Kn c 8 (by omega) _ (Fin.ext (k0_dev9_eq c)) _ (by decide)) $$ [Hst]
  · isplitr; · iexact HR
    iexact Hst
  iintro Hst
  iapply (step_sig_st m Kn c 9 (by omega) _ (Fin.ext (k0_dev10_eq c)) _ (by decide)) $$ [Hst]
  · isplitr; · iexact HR
    iexact Hst
  iintro Hst
  iapply (step_sig_st m Kn c 10 (by omega) _ (Fin.ext (k0_dev11_eq c)) _ (by decide)) $$ [Hst]
  · isplitr; · iexact HR
    iexact Hst
  iintro Hst
  iapply (step_sig_st m Kn c 11 (by omega) _ (Fin.ext (k0_dev12_eq c)) _ (by decide)) $$ [Hst]
  · isplitr; · iexact HR
    iexact Hst
  iintro Hst
  iapply (step_sig_st m Kn c 12 (by omega) _ (Fin.ext (k0_dev13_eq c)) _ (by decide)) $$ [Hst]
  · isplitr; · iexact HR
    iexact Hst
  iintro Hst
  iapply (step_sig_st m Kn c 13 (by omega) _ (Fin.ext (k0_dev14_eq c)) _ (by decide)) $$ [Hst]
  · isplitr; · iexact HR
    iexact Hst
  iintro Hst
  iapply (step_sig_st m Kn c 14 (by omega) _ (Fin.ext (k0_dev15_eq c)) _ (by decide)) $$ [Hst]
  · isplitr; · iexact HR
    iexact Hst
  iintro Hst
  iapply (step_sig_st m Kn c 15 (by omega) _ (Fin.ext (k0_dev16_eq c)) _ (by decide)) $$ [Hst]
  · isplitr; · iexact HR
    iexact Hst
  iintro Hst
  iapply (step_sig_st m Kn c 16 (by omega) _ (Fin.ext (k0_dev17_eq c)) _ (by decide)) $$ [Hst]
  · isplitr; · iexact HR
    iexact Hst
  iintro Hst
  iapply (step_sig_st m Kn c 17 (by omega) _ (Fin.ext (k0_dev18_eq c)) _ (by decide)) $$ [Hst]
  · isplitr; · iexact HR
    iexact Hst
  iintro Hst
  rw [wp_ret]; imodintro
  iapply Hk; iexact Hst

set_option maxHeartbeats 4000000 in
/-- The first part of the body: the device reads its own id, then sends the first eight entry signals;
    it returns its id, its id's word reduced modulo 32, and the barrier semaphore. -/
theorem part1_spec (c : Dev nD) (Kt : (Σ' (d0 : Dev nD) (v2 : BitVec 32), Sems sig S_) → sProp 𝕄) :
    iprop(records m Kn ∗ sigSt (F := F) c 0
        ∗ (sigSt (F := F) c 8 -∗ Kt ⟨c, Scalar.remsi (Scalar.divsi (Dev.word c) 1#32) 32#32, (SemArray.scalar (sig.barrier 0 rfl) : Sems sig S_)⟩))
      ⊢ wp frame (wpE (defs₀ (F := F)) 𝒱₀ (c : Thread nD τ) none) Set.univ
          (k0_part1 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS) Kt := by
  rw [k0_part1_eq_skeleton]; unfold k0_part1_skel
  simp only [semSignalWord, Prog.lift, Prog.bind_op, Prog.bind_ret, Prog.pure_eq_ret, wp_deviceId]
  iintro ⟨#HR, Hst, Hk⟩
  iapply (step_sig_st m Kn c 0 (by omega) _ (Fin.ext (k0_dev1_eq c)) _ (by decide)) $$ [Hst]
  · isplitr; · iexact HR
    iexact Hst
  iintro Hst
  iapply (step_sig_st m Kn c 1 (by omega) _ (Fin.ext (k0_dev2_eq c)) _ (by decide)) $$ [Hst]
  · isplitr; · iexact HR
    iexact Hst
  iintro Hst
  iapply (step_sig_st m Kn c 2 (by omega) _ (Fin.ext (k0_dev3_eq c)) _ (by decide)) $$ [Hst]
  · isplitr; · iexact HR
    iexact Hst
  iintro Hst
  iapply (step_sig_st m Kn c 3 (by omega) _ (Fin.ext (k0_dev4_eq c)) _ (by decide)) $$ [Hst]
  · isplitr; · iexact HR
    iexact Hst
  iintro Hst
  iapply (step_sig_st m Kn c 4 (by omega) _ (Fin.ext (k0_dev5_eq c)) _ (by decide)) $$ [Hst]
  · isplitr; · iexact HR
    iexact Hst
  iintro Hst
  iapply (step_sig_st m Kn c 5 (by omega) _ (Fin.ext (k0_dev6_eq c)) _ (by decide)) $$ [Hst]
  · isplitr; · iexact HR
    iexact Hst
  iintro Hst
  iapply (step_sig_st m Kn c 6 (by omega) _ (Fin.ext (k0_dev7_eq c)) _ (by decide)) $$ [Hst]
  · isplitr; · iexact HR
    iexact Hst
  iintro Hst
  iapply (step_sig_st m Kn c 7 (by omega) _ (Fin.ext (k0_dev8_eq c)) _ (by decide)) $$ [Hst]
  · isplitr; · iexact HR
    iexact Hst
  iintro Hst
  rw [wp_ret]; imodintro
  iapply Hk; iexact Hst

set_option maxHeartbeats 4000000 in
/-- The third part of the body: the entry signals 19 to 28. -/
theorem part3_spec (c : Dev nD) (v2 : BitVec 32) (Kt : PUnit → sProp 𝕄) :
    iprop(records m Kn ∗ sigSt (F := F) c 18 ∗ (sigSt (F := F) c 28 -∗ Kt ⟨⟩))
      ⊢ wp frame (wpE (defs₀ (F := F)) 𝒱₀ (c : Thread nD τ) none) Set.univ
          (k0_part3 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 (SemArray.scalar (sig.barrier 0 rfl) : Sems sig S_)) Kt := by
  rw [k0_part3_eq_skeleton]; unfold k0_part3_skel
  simp only [semSignalWord, Prog.lift, Prog.bind_op, Prog.bind_ret, Prog.pure_eq_ret]
  iintro ⟨#HR, Hst, Hk⟩
  iapply (step_sig_st m Kn c 18 (by omega) _ (Fin.ext (k0_dev19_eq c)) _ (by decide)) $$ [Hst]
  · isplitr; · iexact HR
    iexact Hst
  iintro Hst
  iapply (step_sig_st m Kn c 19 (by omega) _ (Fin.ext (k0_dev20_eq c)) _ (by decide)) $$ [Hst]
  · isplitr; · iexact HR
    iexact Hst
  iintro Hst
  iapply (step_sig_st m Kn c 20 (by omega) _ (Fin.ext (k0_dev21_eq c)) _ (by decide)) $$ [Hst]
  · isplitr; · iexact HR
    iexact Hst
  iintro Hst
  iapply (step_sig_st m Kn c 21 (by omega) _ (Fin.ext (k0_dev22_eq c)) _ (by decide)) $$ [Hst]
  · isplitr; · iexact HR
    iexact Hst
  iintro Hst
  iapply (step_sig_st m Kn c 22 (by omega) _ (Fin.ext (k0_dev23_eq c)) _ (by decide)) $$ [Hst]
  · isplitr; · iexact HR
    iexact Hst
  iintro Hst
  iapply (step_sig_st m Kn c 23 (by omega) _ (Fin.ext (k0_dev24_eq c)) _ (by decide)) $$ [Hst]
  · isplitr; · iexact HR
    iexact Hst
  iintro Hst
  iapply (step_sig_st m Kn c 24 (by omega) _ (Fin.ext (k0_dev25_eq c)) _ (by decide)) $$ [Hst]
  · isplitr; · iexact HR
    iexact Hst
  iintro Hst
  iapply (step_sig_st m Kn c 25 (by omega) _ (Fin.ext (k0_dev26_eq c)) _ (by decide)) $$ [Hst]
  · isplitr; · iexact HR
    iexact Hst
  iintro Hst
  iapply (step_sig_st m Kn c 26 (by omega) _ (Fin.ext (k0_dev27_eq c)) _ (by decide)) $$ [Hst]
  · isplitr; · iexact HR
    iexact Hst
  iintro Hst
  iapply (step_sig_st m Kn c 27 (by omega) _ (Fin.ext (k0_dev28_eq c)) _ (by decide)) $$ [Hst]
  · isplitr; · iexact HR
    iexact Hst
  iintro Hst
  rw [wp_ret]; imodintro
  iapply Hk; iexact Hst

end Cert.Kernel.P

end
-- ==== Proof.Bits.PartsSend.lean ====
/-
  The sends, part by part of the printed body: each part issues the next few sends in order, each send
  copying the device's own row of the gather buffer to the same row of the device that many places after it.
-/
import proofs.«901077_g7700000000001078_dist_sum_ax0_shard0_i_m1536_n768_v7x_i32_bf16_1_alg».proof.Proof.Bits.States

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 4000000 in
/-- The fifth part of the body: the sends 3 to 6. -/
theorem part5_spec (c : Dev nD) (v2 : BitVec 32) (v86 : BitVec 32) (Kt : PUnit → sProp 𝕄) :
    iprop(records m Kn ∗ sendSt (F := F) m c 2 ∗ (sendSt (F := F) m c 6 -∗ Kt ⟨⟩))
      ⊢ wp frame (wpE (defs₀ (F := F)) 𝒱₀ (c : Thread nD τ) none) Set.univ
          (k0_part5 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 v86) Kt := by
  rw [k0_part5_eq_skeleton]; unfold k0_part5_skel
  simp only [Prog.lift, Prog.bind_op, Prog.bind_ret, Prog.pure_eq_ret]
  iintro ⟨#HR, Hst, Hk⟩
  iapply (step_send_st m Kn c 2 (by omega) _ (Fin.ext (k0_dev34_eq c))) $$ [Hst]
  · isplitr; · iexact HR
    iexact Hst
  iintro Hst
  iapply (step_send_st m Kn c 3 (by omega) _ (Fin.ext (k0_dev35_eq c))) $$ [Hst]
  · isplitr; · iexact HR
    iexact Hst
  iintro Hst
  iapply (step_send_st m Kn c 4 (by omega) _ (Fin.ext (k0_dev36_eq c))) $$ [Hst]
  · isplitr; · iexact HR
    iexact Hst
  iintro Hst
  iapply (step_send_st m Kn c 5 (by omega) _ (Fin.ext (k0_dev37_eq c))) $$ [Hst]
  · isplitr; · iexact HR
    iexact Hst
  iintro Hst
  rw [wp_ret]; imodintro
  iapply Hk; iexact Hst

set_option maxHeartbeats 4000000 in
/-- The sixth part of the body: the sends 7 to 11. -/
theorem part6_spec (c : Dev nD) (v2 : BitVec 32) (Kt : PUnit → sProp 𝕄) :
    iprop(records m Kn ∗ sendSt (F := F) m c 6 ∗ (sendSt (F := F) m c 11 -∗ Kt ⟨⟩))
      ⊢ wp frame (wpE (defs₀ (F := F)) 𝒱₀ (c : Thread nD τ) none) Set.univ
          (k0_part6 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part6_eq_skeleton]; unfold k0_part6_skel
  simp only [Prog.lift, Prog.bind_op, Prog.bind_ret, Prog.pure_eq_ret]
  iintro ⟨#HR, Hst, Hk⟩
  iapply (step_send_st m Kn c 6 (by omega) _ (Fin.ext (k0_dev38_eq c))) $$ [Hst]
  · isplitr; · iexact HR
    iexact Hst
  iintro Hst
  iapply (step_send_st m Kn c 7 (by omega) _ (Fin.ext (k0_dev39_eq c))) $$ [Hst]
  · isplitr; · iexact HR
    iexact Hst
  iintro Hst
  iapply (step_send_st m Kn c 8 (by omega) _ (Fin.ext (k0_dev40_eq c))) $$ [Hst]
  · isplitr; · iexact HR
    iexact Hst
  iintro Hst
  iapply (step_send_st m Kn c 9 (by omega) _ (Fin.ext (k0_dev41_eq c))) $$ [Hst]
  · isplitr; · iexact HR
    iexact Hst
  iintro Hst
  iapply (step_send_st m Kn c 10 (by omega) _ (Fin.ext (k0_dev42_eq c))) $$ [Hst]
  · isplitr; · iexact HR
    iexact Hst
  iintro Hst
  rw [wp_ret]; imodintro
  iapply Hk; iexact Hst

set_option maxHeartbeats 4000000 in
/-- The seventh part of the body: the sends 12 to 16. -/
theorem part7_spec (c : Dev nD) (v2 : BitVec 32) (Kt : PUnit → sProp 𝕄) :
    iprop(records m Kn ∗ sendSt (F := F) m c 11 ∗ (sendSt (F := F) m c 16 -∗ Kt ⟨⟩))
      ⊢ wp frame (wpE (defs₀ (F := F)) 𝒱₀ (c : Thread nD τ) none) Set.univ
          (k0_part7 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part7_eq_skeleton]; unfold k0_part7_skel
  simp only [Prog.lift, Prog.bind_op, Prog.bind_ret, Prog.pure_eq_ret]
  iintro ⟨#HR, Hst, Hk⟩
  iapply (step_send_st m Kn c 11 (by omega) _ (Fin.ext (k0_dev43_eq c))) $$ [Hst]
  · isplitr; · iexact HR
    iexact Hst
  iintro Hst
  iapply (step_send_st m Kn c 12 (by omega) _ (Fin.ext (k0_dev44_eq c))) $$ [Hst]
  · isplitr; · iexact HR
    iexact Hst
  iintro Hst
  iapply (step_send_st m Kn c 13 (by omega) _ (Fin.ext (k0_dev45_eq c))) $$ [Hst]
  · isplitr; · iexact HR
    iexact Hst
  iintro Hst
  iapply (step_send_st m Kn c 14 (by omega) _ (Fin.ext (k0_dev46_eq c))) $$ [Hst]
  · isplitr; · iexact HR
    iexact Hst
  iintro Hst
  iapply (step_send_st m Kn c 15 (by omega) _ (Fin.ext (k0_dev47_eq c))) $$ [Hst]
  · isplitr; · iexact HR
    iexact Hst
  iintro Hst
  rw [wp_ret]; imodintro
  iapply Hk; iexact Hst

set_option maxHeartbeats 4000000 in
/-- The eighth part of the body: the sends 17 to 20. -/
theorem part8_spec (c : Dev nD) (v2 : BitVec 32) (Kt : PUnit → sProp 𝕄) :
    iprop(records m Kn ∗ sendSt (F := F) m c 16 ∗ (sendSt (F := F) m c 20 -∗ Kt ⟨⟩))
      ⊢ wp frame (wpE (defs₀ (F := F)) 𝒱₀ (c : Thread nD τ) none) Set.univ
          (k0_part8 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part8_eq_skeleton]; unfold k0_part8_skel
  simp only [Prog.lift, Prog.bind_op, Prog.bind_ret, Prog.pure_eq_ret]
  iintro ⟨#HR, Hst, Hk⟩
  iapply (step_send_st m Kn c 16 (by omega) _ (Fin.ext (k0_dev48_eq c))) $$ [Hst]
  · isplitr; · iexact HR
    iexact Hst
  iintro Hst
  iapply (step_send_st m Kn c 17 (by omega) _ (Fin.ext (k0_dev49_eq c))) $$ [Hst]
  · isplitr; · iexact HR
    iexact Hst
  iintro Hst
  iapply (step_send_st m Kn c 18 (by omega) _ (Fin.ext (k0_dev50_eq c))) $$ [Hst]
  · isplitr; · iexact HR
    iexact Hst
  iintro Hst
  iapply (step_send_st m Kn c 19 (by omega) _ (Fin.ext (k0_dev51_eq c))) $$ [Hst]
  · isplitr; · iexact HR
    iexact Hst
  iintro Hst
  rw [wp_ret]; imodintro
  iapply Hk; iexact Hst

set_option maxHeartbeats 4000000 in
/-- The ninth part of the body: the sends 21 to 25; it returns two words the next part takes. -/
theorem part9_spec (c : Dev nD) (v2 : BitVec 32) (Kt : (Σ' (v224 : BitVec 32), BitVec 32) → sProp 𝕄) :
    iprop(records m Kn ∗ sendSt (F := F) m c 20 ∗ (∀ r, sendSt (F := F) m c 25 -∗ Kt r))
      ⊢ wp frame (wpE (defs₀ (F := F)) 𝒱₀ (c : Thread nD τ) none) Set.univ
          (k0_part9 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part9_eq_skeleton]; unfold k0_part9_skel
  simp only [Prog.lift, Prog.bind_op, Prog.bind_ret, Prog.pure_eq_ret]
  iintro ⟨#HR, Hst, Hk⟩
  iapply (step_send_st m Kn c 20 (by omega) _ (Fin.ext (k0_dev52_eq c))) $$ [Hst]
  · isplitr; · iexact HR
    iexact Hst
  iintro Hst
  iapply (step_send_st m Kn c 21 (by omega) _ (Fin.ext (k0_dev53_eq c))) $$ [Hst]
  · isplitr; · iexact HR
    iexact Hst
  iintro Hst
  iapply (step_send_st m Kn c 22 (by omega) _ (Fin.ext (k0_dev54_eq c))) $$ [Hst]
  · isplitr; · iexact HR
    iexact Hst
  iintro Hst
  iapply (step_send_st m Kn c 23 (by omega) _ (Fin.ext (k0_dev55_eq c))) $$ [Hst]
  · isplitr; · iexact HR
    iexact Hst
  iintro Hst
  iapply (step_send_st m Kn c 24 (by omega) _ (Fin.ext (k0_dev56_eq c))) $$ [Hst]
  · isplitr; · iexact HR
    iexact Hst
  iintro Hst
  rw [wp_ret]; imodintro
  iapply Hk; iexact Hst

set_option maxHeartbeats 4000000 in
/-- The tenth part of the body: the sends 26 to 29. -/
theorem part10_spec (c : Dev nD) (v2 : BitVec 32) (v224 : BitVec 32) (c32_i32_217 : BitVec 32) (Kt : PUnit → sProp 𝕄) :
    iprop(records m Kn ∗ sendSt (F := F) m c 25 ∗ (sendSt (F := F) m c 29 -∗ Kt ⟨⟩))
      ⊢ wp frame (wpE (defs₀ (F := F)) 𝒱₀ (c : Thread nD τ) none) Set.univ
          (k0_part10 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 v224 c32_i32_217) Kt := by
  rw [k0_part10_eq_skeleton]; unfold k0_part10_skel
  simp only [Prog.lift, Prog.bind_op, Prog.bind_ret, Prog.pure_eq_ret]
  iintro ⟨#HR, Hst, Hk⟩
  iapply (step_send_st m Kn c 25 (by omega) _ (Fin.ext (k0_dev57_eq c))) $$ [Hst]
  · isplitr; · iexact HR
    iexact Hst
  iintro Hst
  iapply (step_send_st m Kn c 26 (by omega) _ (Fin.ext (k0_dev58_eq c))) $$ [Hst]
  · isplitr; · iexact HR
    iexact Hst
  iintro Hst
  iapply (step_send_st m Kn c 27 (by omega) _ (Fin.ext (k0_dev59_eq c))) $$ [Hst]
  · isplitr; · iexact HR
    iexact Hst
  iintro Hst
  iapply (step_send_st m Kn c 28 (by omega) _ (Fin.ext (k0_dev60_eq c))) $$ [Hst]
  · isplitr; · iexact HR
    iexact Hst
  iintro Hst
  rw [wp_ret]; imodintro
  iapply Hk; iexact Hst

end Cert.Kernel.P

end
-- ==== Proof.Bits.PartsWait.lean ====
/-
  The receive waits and the send waits, part by part of the printed body: each part waits for the next few rows in order.
-/
import proofs.«901077_g7700000000001078_dist_sum_ax0_shard0_i_m1536_n768_v7x_i32_bf16_1_alg».proof.Proof.Bits.States

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 4000000 in
/-- Part 12: 6 receive waits, the 6th to the 11th. -/
theorem part12_spec (c : Dev nD) (Kt : PUnit → sProp 𝕄) :
    iprop(records m Kn ∗ recvSt (F := F) m c 5 ∗ (recvSt (F := F) m c 11 -∗ Kt ⟨⟩))
      ⊢ wp frame (wpE (defs₀ (F := F)) 𝒱₀ (c : Thread nD τ) none) Set.univ
          (k0_part12 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part12_eq_skeleton]; unfold k0_part12_skel
  simp only [semSignalWord, semWaitWord, Prog.lift, Prog.bind_op, Prog.bind_ret, Prog.pure_eq_ret]
  iintro ⟨#HR, Hst, Hk⟩
  iapply (step_recvwait_st m Kn c 5 (by omega)) $$ [Hst]
  · isplitr; · iexact HR
    iexact Hst
  iintro Hst
  iapply (step_recvwait_st m Kn c 6 (by omega)) $$ [Hst]
  · isplitr; · iexact HR
    iexact Hst
  iintro Hst
  iapply (step_recvwait_st m Kn c 7 (by omega)) $$ [Hst]
  · isplitr; · iexact HR
    iexact Hst
  iintro Hst
  iapply (step_recvwait_st m Kn c 8 (by omega)) $$ [Hst]
  · isplitr; · iexact HR
    iexact Hst
  iintro Hst
  iapply (step_recvwait_st m Kn c 9 (by omega)) $$ [Hst]
  · isplitr; · iexact HR
    iexact Hst
  iintro Hst
  iapply (step_recvwait_st m Kn c 10 (by omega)) $$ [Hst]
  · isplitr; · iexact HR
    iexact Hst
  iintro Hst
  rw [wp_ret]; imodintro
  iapply Hk; iexact Hst

set_option maxHeartbeats 4000000 in
/-- Part 13: 7 receive waits, the 12th to the 18th. -/
theorem part13_spec (c : Dev nD) (Kt : PUnit → sProp 𝕄) :
    iprop(records m Kn ∗ recvSt (F := F) m c 11 ∗ (recvSt (F := F) m c 18 -∗ Kt ⟨⟩))
      ⊢ wp frame (wpE (defs₀ (F := F)) 𝒱₀ (c : Thread nD τ) none) Set.univ
          (k0_part13 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part13_eq_skeleton]; unfold k0_part13_skel
  simp only [semSignalWord, semWaitWord, Prog.lift, Prog.bind_op, Prog.bind_ret, Prog.pure_eq_ret]
  iintro ⟨#HR, Hst, Hk⟩
  iapply (step_recvwait_st m Kn c 11 (by omega)) $$ [Hst]
  · isplitr; · iexact HR
    iexact Hst
  iintro Hst
  iapply (step_recvwait_st m Kn c 12 (by omega)) $$ [Hst]
  · isplitr; · iexact HR
    iexact Hst
  iintro Hst
  iapply (step_recvwait_st m Kn c 13 (by omega)) $$ [Hst]
  · isplitr; · iexact HR
    iexact Hst
  iintro Hst
  iapply (step_recvwait_st m Kn c 14 (by omega)) $$ [Hst]
  · isplitr; · iexact HR
    iexact Hst
  iintro Hst
  iapply (step_recvwait_st m Kn c 15 (by omega)) $$ [Hst]
  · isplitr; · iexact HR
    iexact Hst
  iintro Hst
  iapply (step_recvwait_st m Kn c 16 (by omega)) $$ [Hst]
  · isplitr; · iexact HR
    iexact Hst
  iintro Hst
  iapply (step_recvwait_st m Kn c 17 (by omega)) $$ [Hst]
  · isplitr; · iexact HR
    iexact Hst
  iintro Hst
  rw [wp_ret]; imodintro
  iapply Hk; iexact Hst

set_option maxHeartbeats 4000000 in
/-- Part 14: 7 receive waits, the 19th to the 25th. -/
theorem part14_spec (c : Dev nD) (Kt : PUnit → sProp 𝕄) :
    iprop(records m Kn ∗ recvSt (F := F) m c 18 ∗ (recvSt (F := F) m c 25 -∗ Kt ⟨⟩))
      ⊢ wp frame (wpE (defs₀ (F := F)) 𝒱₀ (c : Thread nD τ) none) Set.univ
          (k0_part14 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part14_eq_skeleton]; unfold k0_part14_skel
  simp only [semSignalWord, semWaitWord, Prog.lift, Prog.bind_op, Prog.bind_ret, Prog.pure_eq_ret]
  iintro ⟨#HR, Hst, Hk⟩
  iapply (step_recvwait_st m Kn c 18 (by omega)) $$ [Hst]
  · isplitr; · iexact HR
    iexact Hst
  iintro Hst
  iapply (step_recvwait_st m Kn c 19 (by omega)) $$ [Hst]
  · isplitr; · iexact HR
    iexact Hst
  iintro Hst
  iapply (step_recvwait_st m Kn c 20 (by omega)) $$ [Hst]
  · isplitr; · iexact HR
    iexact Hst
  iintro Hst
  iapply (step_recvwait_st m Kn c 21 (by omega)) $$ [Hst]
  · isplitr; · iexact HR
    iexact Hst
  iintro Hst
  iapply (step_recvwait_st m Kn c 22 (by omega)) $$ [Hst]
  · isplitr; · iexact HR
    iexact Hst
  iintro Hst
  iapply (step_recvwait_st m Kn c 23 (by omega)) $$ [Hst]
  · isplitr; · iexact HR
    iexact Hst
  iintro Hst
  iapply (step_recvwait_st m Kn c 24 (by omega)) $$ [Hst]
  · isplitr; · iexact HR
    iexact Hst
  iintro Hst
  rw [wp_ret]; imodintro
  iapply Hk; iexact Hst

set_option maxHeartbeats 4000000 in
/-- Part 17: 6 send waits, the 6th to the 11th. -/
theorem part17_spec (c : Dev nD) (Kt : PUnit → sProp 𝕄) :
    iprop(records m Kn ∗ swSt (F := F) m c 5 ∗ (swSt (F := F) m c 11 -∗ Kt ⟨⟩))
      ⊢ wp frame (wpE (defs₀ (F := F)) 𝒱₀ (c : Thread nD τ) none) Set.univ
          (k0_part17 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part17_eq_skeleton]; unfold k0_part17_skel
  simp only [semSignalWord, semWaitWord, Prog.lift, Prog.bind_op, Prog.bind_ret, Prog.pure_eq_ret]
  iintro ⟨#HR, Hst, Hk⟩
  iapply (step_sendwait_st m Kn c 5 (by omega)) $$ [Hst]
  · isplitr; · iexact HR
    iexact Hst
  iintro Hst
  iapply (step_sendwait_st m Kn c 6 (by omega)) $$ [Hst]
  · isplitr; · iexact HR
    iexact Hst
  iintro Hst
  iapply (step_sendwait_st m Kn c 7 (by omega)) $$ [Hst]
  · isplitr; · iexact HR
    iexact Hst
  iintro Hst
  iapply (step_sendwait_st m Kn c 8 (by omega)) $$ [Hst]
  · isplitr; · iexact HR
    iexact Hst
  iintro Hst
  iapply (step_sendwait_st m Kn c 9 (by omega)) $$ [Hst]
  · isplitr; · iexact HR
    iexact Hst
  iintro Hst
  iapply (step_sendwait_st m Kn c 10 (by omega)) $$ [Hst]
  · isplitr; · iexact HR
    iexact Hst
  iintro Hst
  rw [wp_ret]; imodintro
  iapply Hk; iexact Hst

set_option maxHeartbeats 4000000 in
/-- Part 18: 6 send waits, the 12th to the 17th. -/
theorem part18_spec (c : Dev nD) (Kt : PUnit → sProp 𝕄) :
    iprop(records m Kn ∗ swSt (F := F) m c 11 ∗ (swSt (F := F) m c 17 -∗ Kt ⟨⟩))
      ⊢ wp frame (wpE (defs₀ (F := F)) 𝒱₀ (c : Thread nD τ) none) Set.univ
          (k0_part18 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part18_eq_skeleton]; unfold k0_part18_skel
  simp only [semSignalWord, semWaitWord, Prog.lift, Prog.bind_op, Prog.bind_ret, Prog.pure_eq_ret]
  iintro ⟨#HR, Hst, Hk⟩
  iapply (step_sendwait_st m Kn c 11 (by omega)) $$ [Hst]
  · isplitr; · iexact HR
    iexact Hst
  iintro Hst
  iapply (step_sendwait_st m Kn c 12 (by omega)) $$ [Hst]
  · isplitr; · iexact HR
    iexact Hst
  iintro Hst
  iapply (step_sendwait_st m Kn c 13 (by omega)) $$ [Hst]
  · isplitr; · iexact HR
    iexact Hst
  iintro Hst
  iapply (step_sendwait_st m Kn c 14 (by omega)) $$ [Hst]
  · isplitr; · iexact HR
    iexact Hst
  iintro Hst
  iapply (step_sendwait_st m Kn c 15 (by omega)) $$ [Hst]
  · isplitr; · iexact HR
    iexact Hst
  iintro Hst
  iapply (step_sendwait_st m Kn c 16 (by omega)) $$ [Hst]
  · isplitr; · iexact HR
    iexact Hst
  iintro Hst
  rw [wp_ret]; imodintro
  iapply Hk; iexact Hst

set_option maxHeartbeats 4000000 in
/-- Part 19: 6 send waits, the 18th to the 23th. -/
theorem part19_spec (c : Dev nD) (Kt : PUnit → sProp 𝕄) :
    iprop(records m Kn ∗ swSt (F := F) m c 17 ∗ (swSt (F := F) m c 23 -∗ Kt ⟨⟩))
      ⊢ wp frame (wpE (defs₀ (F := F)) 𝒱₀ (c : Thread nD τ) none) Set.univ
          (k0_part19 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part19_eq_skeleton]; unfold k0_part19_skel
  simp only [semSignalWord, semWaitWord, Prog.lift, Prog.bind_op, Prog.bind_ret, Prog.pure_eq_ret]
  iintro ⟨#HR, Hst, Hk⟩
  iapply (step_sendwait_st m Kn c 17 (by omega)) $$ [Hst]
  · isplitr; · iexact HR
    iexact Hst
  iintro Hst
  iapply (step_sendwait_st m Kn c 18 (by omega)) $$ [Hst]
  · isplitr; · iexact HR
    iexact Hst
  iintro Hst
  iapply (step_sendwait_st m Kn c 19 (by omega)) $$ [Hst]
  · isplitr; · iexact HR
    iexact Hst
  iintro Hst
  iapply (step_sendwait_st m Kn c 20 (by omega)) $$ [Hst]
  · isplitr; · iexact HR
    iexact Hst
  iintro Hst
  iapply (step_sendwait_st m Kn c 21 (by omega)) $$ [Hst]
  · isplitr; · iexact HR
    iexact Hst
  iintro Hst
  iapply (step_sendwait_st m Kn c 22 (by omega)) $$ [Hst]
  · isplitr; · iexact HR
    iexact Hst
  iintro Hst
  rw [wp_ret]; imodintro
  iapply Hk; iexact Hst

set_option maxHeartbeats 4000000 in
/-- Part 20: 6 send waits, the 24th to the 29th. -/
theorem part20_spec (c : Dev nD) (Kt : PUnit → sProp 𝕄) :
    iprop(records m Kn ∗ swSt (F := F) m c 23 ∗ (swSt (F := F) m c 29 -∗ Kt ⟨⟩))
      ⊢ wp frame (wpE (defs₀ (F := F)) 𝒱₀ (c : Thread nD τ) none) Set.univ
          (k0_part20 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part20_eq_skeleton]; unfold k0_part20_skel
  simp only [semSignalWord, semWaitWord, Prog.lift, Prog.bind_op, Prog.bind_ret, Prog.pure_eq_ret]
  iintro ⟨#HR, Hst, Hk⟩
  iapply (step_sendwait_st m Kn c 23 (by omega)) $$ [Hst]
  · isplitr; · iexact HR
    iexact Hst
  iintro Hst
  iapply (step_sendwait_st m Kn c 24 (by omega)) $$ [Hst]
  · isplitr; · iexact HR
    iexact Hst
  iintro Hst
  iapply (step_sendwait_st m Kn c 25 (by omega)) $$ [Hst]
  · isplitr; · iexact HR
    iexact Hst
  iintro Hst
  iapply (step_sendwait_st m Kn c 26 (by omega)) $$ [Hst]
  · isplitr; · iexact HR
    iexact Hst
  iintro Hst
  iapply (step_sendwait_st m Kn c 27 (by omega)) $$ [Hst]
  · isplitr; · iexact HR
    iexact Hst
  iintro Hst
  iapply (step_sendwait_st m Kn c 28 (by omega)) $$ [Hst]
  · isplitr; · iexact HR
    iexact Hst
  iintro Hst
  rw [wp_ret]; imodintro
  iapply Hk; iexact Hst

end Cert.Kernel.P

end
-- ==== Proof.Bits.Glue.lean ====
/-
  Regrouping the gather buffer: whole, row by row, and by read share. Pure separation logic — no program step.
  The 31 devices other than c are those 1, …, 31 places after it and also those 1, …, 31 places before it, so a
  family indexed by the other devices is a family indexed by the offsets; a row at the full share is its remainder
  after 32 read shares and those 32 shares.
-/
import proofs.«901077_g7700000000001078_dist_sum_ax0_shard0_i_m1536_n768_v7x_i32_bf16_1_alg».proof.Proof.Bits.States
import Idealize.SL.ProofMode.BigOp

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A row's points-to, by its index set; the row the vector store leaves -/

omit [FloatOps F] in
theorem rowPts_eq (c d : Dev nD) (q : PosShare TreeShare) (f : Buf (Elt F) ((c : Thread nD τ).loc cc0_scratch1)) :
    rowPts (F := F) c d q f = ((((c : Thread nD τ).loc cc0_scratch1) ↦[rowSet d]{q} f) : sProp 𝕄) := by
  unfold rowPts; rw [rowM_set]

/-- On row c the landed gather buffer holds the column sums of device c's block, column by column. -/
theorem G_row (c : Dev nD) (i : S32x1x768.Idx) (hi : i ∈ rowSet c) :
    G m i = k0_pay1 (xs m c) (Cert.Kernel.Spec.rowIx i) := by
  have h : Cert.Kernel.Spec.rowDev i = c := Fin.ext (mem_rowSet.mp hi)
  show k0_pay1 (xs m (Cert.Kernel.Spec.rowDev i)) (Cert.Kernel.Spec.rowIx i) = _
  rw [h]

/-- Row c after the vector store of device c's column sums is row c of the landed gather buffer. -/
theorem row_stored (c : Dev nD) (f0 : Buf (Elt F) ((c : Thread nD τ).loc cc0_scratch1)) :
    ((((c : Thread nD τ).loc cc0_scratch1) ↦[rowSet c]{fullShare}
        (((gM : Memref sig .tc .vmem S32x1x768 .f32).access (Rect.unit (s := S32x1x768) (k0_off1 c) S1x1x768.size (k0_off1_inb c)) : View sig .tc _ _ _).write (Elt F) f0 (k0_pay1 (xs m c)) Finset.univ)) : sProp 𝕄)
      = (((c : Thread nD τ).loc cc0_scratch1) ↦[rowSet c]{fullShare} G m) :=
  pointsTo_congr fun i hi => (row_store c f0 (k0_pay1 (xs m c)) i hi).trans (G_row m c i hi).symm

/-! ## The offsets 1, …, 31 and the 31 other devices -/

theorem K_eq_Ioc : K = Finset.Ioc 0 31 := by
  ext x; simp only [Finset.mem_Icc, Finset.mem_Ioc]; omega

theorem zero_notMem_K : 0 ∉ K := by simp only [Finset.mem_Icc]; omega

theorem range32 : Finset.range 32 = insert 0 K := by
  ext x; simp only [Finset.mem_range, Finset.mem_insert, Finset.mem_Icc]; omega

theorem injOn_sh (c : Dev nD) : Set.InjOn (sh c) (K : Finset ℕ) := by
  intro k hk k' hk' h
  have hk := Finset.mem_Icc.mp (Finset.mem_coe.mp hk)
  have hk' := Finset.mem_Icc.mp (Finset.mem_coe.mp hk')
  exact sh_inj c hk.2 hk'.2 h

theorem injOn_bk (c : Dev nD) : Set.InjOn (bk c) (K : Finset ℕ) := by
  intro k hk k' hk' h
  have hk := Finset.mem_Icc.mp (Finset.mem_coe.mp hk)
  have hk' := Finset.mem_Icc.mp (Finset.mem_coe.mp hk')
  exact bk_inj c hk.1 hk.2 hk'.1 hk'.2 h

/-- The devices other than c are those 1, …, 31 places after it, -/
theorem erase_eq_image_sh (c : Dev nD) : Finset.univ.erase c = K.image (sh c) := by
  ext d
  simp only [Finset.mem_erase, Finset.mem_univ, and_true, Finset.mem_image, Finset.mem_Icc]
  constructor
  · intro hne
    have hv : d.val ≠ c.val := fun e => hne (Fin.ext e)
    have hc := c.isLt; have hd := d.isLt; have hn : nD = 32 := rfl
    refine ⟨(d.val + 32 - c.val) % 32, ⟨by omega, by omega⟩, Fin.ext ?_⟩
    show (c.val + (d.val + 32 - c.val) % 32) % 32 = d.val
    omega
  · rintro ⟨k, ⟨h1, h2⟩, rfl⟩
    exact sh_ne c h1 h2

/-- and those 1, …, 31 places before it. -/
theorem erase_eq_image_bk (c : Dev nD) : Finset.univ.erase c = K.image (bk c) := by
  ext d
  simp only [Finset.mem_erase, Finset.mem_univ, and_true, Finset.mem_image, Finset.mem_Icc]
  constructor
  · intro hne
    have hv : d.val ≠ c.val := fun e => hne (Fin.ext e)
    have hc := c.isLt; have hd := d.isLt; have hn : nD = 32 := rfl
    refine ⟨(c.val + 32 - d.val) % 32, ⟨by omega, by omega⟩, Fin.ext ?_⟩
    show (c.val + (32 - ((c.val + 32 - d.val) % 32) % 32)) % 32 = d.val
    omega
  · rintro ⟨k, ⟨h1, h2⟩, rfl⟩ e
    have := congrArg Fin.val e
    simp only [bk] at this
    have hc := c.isLt; have hn : nD = 32 := rfl
    omega

/-! ## The other 31 rows, by offset; a row by read share -/

omit [FloatOps F] in
/-- The buffer without row c is the rows of the devices 1, …, 31 places after c, -/
theorem others_rows_sh (c : Dev nD) (q : PosShare TreeShare) (f : Buf (Elt F) ((c : Thread nD τ).loc cc0_scratch1)) :
    ((((c : Thread nD τ).loc cc0_scratch1) ↦[Finset.univ \ rowSet c]{q} f) : sProp 𝕄)
      ⊣⊢ bigSep K (fun k => rowPts (F := F) c (sh c k) q f) := by
  simp only [rowPts_eq]
  have h := others_split (F := F) c c q f
  rw [erase_eq_image_sh c, bigSep_image_of_injOn (injOn_sh c)] at h
  exact h

omit [FloatOps F] in
/-- and the rows of the devices 1, …, 31 places before c. -/
theorem others_rows_bk (c : Dev nD) (q : PosShare TreeShare) (f : Buf (Elt F) ((c : Thread nD τ).loc cc0_scratch1)) :
    ((((c : Thread nD τ).loc cc0_scratch1) ↦[Finset.univ \ rowSet c]{q} f) : sProp 𝕄)
      ⊣⊢ bigSep K (fun k => rowPts (F := F) c (bk c k) q f) := by
  simp only [rowPts_eq]
  have h := others_split (F := F) c c q f
  rw [erase_eq_image_bk c, bigSep_image_of_injOn (injOn_bk c)] at h
  exact h

omit [FloatOps F] in
/-- Any elements of the buffer at the full share: their remainder after 32 read shares, and the 32 read shares; -/
theorem toks_range (c : Dev nD) (S : Finset S32x1x768.Idx) (f : Buf (Elt F) ((c : Thread nD τ).loc cc0_scratch1)) :
    ((((c : Thread nD τ).loc cc0_scratch1) ↦[S]{fullShare} f) : sProp 𝕄)
      ⊣⊢ iprop((((c : Thread nD τ).loc cc0_scratch1) ↦[S]{Transfers.shareDrop fullShare 32} f)
          ∗ bigSep (Finset.range 32) (fun i => ((c : Thread nD τ).loc cc0_scratch1) ↦[S]{Transfers.shareTokN fullShare i} f)) :=
  Transfers.pointsTo_toks_range fullShare 32

omit [FloatOps F] in
/-- read share 0 apart from the read shares 1, …, 31. -/
theorem toks_split (c : Dev nD) (S : Finset S32x1x768.Idx) (f : Buf (Elt F) ((c : Thread nD τ).loc cc0_scratch1)) :
    ((((c : Thread nD τ).loc cc0_scratch1) ↦[S]{fullShare} f) : sProp 𝕄)
      ⊣⊢ iprop((((c : Thread nD τ).loc cc0_scratch1) ↦[S]{Transfers.shareDrop fullShare 32} f)
          ∗ (((c : Thread nD τ).loc cc0_scratch1) ↦[S]{Transfers.shareTokN fullShare 0} f)
          ∗ bigSep K (fun k => ((c : Thread nD τ).loc cc0_scratch1) ↦[S]{Transfers.shareTokN fullShare k} f)) := by
  have h := toks_range (F := F) c S f
  rw [range32, bigSep_insert zero_notMem_K] at h
  exact h

omit [FloatOps F] in
/-- A row at the full share: its remainder, read share 0, and the read shares 1, …, 31. -/
theorem row_toks (c d : Dev nD) (f : Buf (Elt F) ((c : Thread nD τ).loc cc0_scratch1)) :
    (rowPts (F := F) c d fullShare f : sProp 𝕄)
      ⊣⊢ iprop(rowPts c d (Transfers.shareDrop fullShare 32) f ∗ rowPts c d (Transfers.shareTokN fullShare 0) f
          ∗ bigSep K (fun k => rowPts c d (Transfers.shareTokN fullShare k) f)) := by
  simp only [rowPts_eq]
  exact toks_split c (rowSet d) f

/-! ## Entering and leaving the runs of steps -/

omit [FloatOps F] in
theorem rows_ex (c : Dev nD) (f : Buf (Elt F) ((c : Thread nD τ).loc cc0_scratch1)) :
    (bigSep K (fun k => rowPts (F := F) c (sh c k) fullShare f) : sProp 𝕄)
      ⊢ bigSep K (fun k => iprop(∃ f', rowPts (F := F) c (sh c k) fullShare f')) :=
  bigSep_mono fun k _ => (show (rowPts (F := F) c (sh c k) fullShare f : sProp 𝕄) ⊢ iprop(∃ f', rowPts (F := F) c (sh c k) fullShare f') from by
    iintro H; iexists f; iexact H)

/-- Before the first entry signal: the gather buffer, whole at unknown contents, is row c and the rows the signals hand over. -/
theorem enter_sig (c : Dev nD) :
    (iprop((∃ W, owes (c : Thread nD τ) (O₀ c) W) ∗ bigSep K (fun k => dutyTok ER (barCell (sh c k)) 0 k)
        ∗ (∃ f : Buf (Elt F) ((c : Thread nD τ).loc cc0_scratch1), ((c : Thread nD τ).loc cc0_scratch1) ↦{fullShare} f)) : sProp 𝕄)
      ⊢ iprop(sigSt (F := F) c 0 ∗ ∃ f, rowPts (F := F) c c fullShare f) := by
  unfold sigSt O₀
  rw [← K_eq_Ioc, bigSep_sep']
  iintro ⟨HO, Htok, ⟨%f, Hf⟩⟩
  ihave Hf2 := (row_split (F := F) c c fullShare f).1 $$ Hf
  icases Hf2 with ⟨Hrow, Hoth⟩
  ihave Hoth2 := ((others_rows_sh (F := F) c fullShare f).1.trans (rows_ex c f)) $$ Hoth
  isplitr [Hrow]
  · isplitl [HO]; · iexact HO
    isplitl [Htok]; · iexact Htok
    iexact Hoth2
  · iexists f; rw [rowPts_eq]; iexact Hrow

/-- Before the first send: row c, at the full share, is its remainder and 32 read shares; share 0 is set aside, the
    shares 1, …, 31 go with the sends. -/
theorem enter_send (c : Dev nD) :
    (iprop((∃ W, owes (c : Thread nD τ) (owe c 31 0) W) ∗ bigSep K (fun k => dutyTok ER (sendCell c) 0 k)
        ∗ bigSep K (fun k => dutyTok ER (recvCell (sh c k)) 0 k) ∗ rowPts c c fullShare (G m)
        ∗ bigSep K (fun k => barPay (F := F) c k)) : sProp 𝕄)
      ⊢ iprop(sendSt m c 0 ∗ rowPts c c (Transfers.shareDrop fullShare 32) (G m) ∗ rowPts c c (Transfers.shareTokN fullShare 0) (G m)) := by
  unfold sendSt
  rw [← K_eq_Ioc, Nat.zero_mul, tallyAt_zero, cred_zero, show Finset.Icc 1 (31 - 0) = K from rfl, bigSep_sep', bigSep_sep']
  iintro ⟨HO, HtS, HtV, Hrow, Hbar⟩
  ihave Hrow2 := (row_toks (F := F) c c (G m)).1 $$ Hrow
  icases Hrow2 with ⟨Hd, H0, HK⟩
  isplitr [Hd H0]
  · isplitl [HO]; · iexact HO
    isplitr; · iempintro
    isplitr [Hbar]
    · isplitl [HtS]; · iexact HtS
      isplitl [HtV]; · iexact HtV
      iexact HK
    · iexact Hbar
  · isplitl [Hd]; · iexact Hd
    iexact H0

/-- After the last send: nothing owed, and the credit the 31 sends have earned. -/
theorem leave_send (c : Dev nD) :
    (sendSt m c 31 : sProp 𝕄)
      ⊢ iprop((∃ W, owes (c : Thread nD τ) (0 : CellTallies nD τ sig Unit) W) ∗ cred (tallyAt (sendCell c) () (31 * N))) := by
  unfold sendSt
  rw [owe_done, Finset.Ioc_self, show Finset.Icc 1 (31 - 31) = (∅ : Finset ℕ) from rfl, bigSep_empty, bigSep_empty]
  iintro ⟨HO, Hc, -, -⟩
  isplitl [HO]; · iexact HO
  iexact Hc

/-! ## The gather buffer whole again, at the read remainder and back at the full share -/

/-- The 32 read shares of the buffer without row c. -/
def othersRest (c : Dev nD) : sProp 𝕄 :=
  bigSep (Finset.range 32) (fun i => ((c : Thread nD τ).loc cc0_scratch1) ↦[Finset.univ \ rowSet c]{Transfers.shareTokN fullShare i} G m)

/-- Once every row has landed: the whole buffer at the read remainder, the other rows' read shares kept aside. -/
theorem gather_whole (c : Dev nD) :
    (iprop(rowPts c c (Transfers.shareDrop fullShare 32) (G m) ∗ bigSep K (fun k => recvPay m c k)) : sProp 𝕄)
      ⊢ iprop((((c : Thread nD τ).loc cc0_scratch1) ↦{Transfers.shareDrop fullShare 32} G m) ∗ othersRest m c) := by
  unfold recvPay othersRest
  rw [rowPts_eq]
  iintro ⟨Hrow, Hrows⟩
  ihave Hoth := (others_rows_bk (F := F) c fullShare (G m)).2 $$ Hrows
  ihave Hoth2 := (toks_range (F := F) c (Finset.univ \ rowSet c) (G m)).1 $$ Hoth
  icases Hoth2 with ⟨Hod, Hrest⟩
  isplitr [Hrest]
  · iapply (row_split (F := F) c c (Transfers.shareDrop fullShare 32) (G m)).2
    isplitl [Hrow]; · iexact Hrow
    iexact Hod
  · iexact Hrest

/-- After the last send wait: every read share is back, and the buffer is whole at the full share. -/
theorem gather_back (c : Dev nD) :
    (iprop((((c : Thread nD τ).loc cc0_scratch1) ↦{Transfers.shareDrop fullShare 32} G m) ∗ othersRest m c
        ∗ rowPts c c (Transfers.shareTokN fullShare 0) (G m) ∗ bigSep K (fun k => sendPay m c k)) : sProp 𝕄)
      ⊢ ((((c : Thread nD τ).loc cc0_scratch1) ↦{fullShare} G m) : sProp 𝕄) := by
  unfold sendPay othersRest
  simp only [rowPts_eq]
  iintro ⟨Hw, Hrest, H0, HK⟩
  ihave Hw2 := (row_split (F := F) c c (Transfers.shareDrop fullShare 32) (G m)).1 $$ Hw
  icases Hw2 with ⟨Hrd, Hod⟩
  iapply (row_split (F := F) c c fullShare (G m)).2
  isplitl [Hrd H0 HK]
  · iapply (toks_split (F := F) c (rowSet c) (G m)).2
    isplitl [Hrd]; · iexact Hrd
    isplitl [H0]; · iexact H0
    iexact HK
  · iapply (toks_range (F := F) c (Finset.univ \ rowSet c) (G m)).2
    isplitl [Hod]; · iexact Hod
    iexact Hrest

/-- info: 'Cert.Kernel.P.gather_back' depends on axioms: [propext, Classical.choice, Quot.sound] -/
#guard_msgs in
#print axioms gather_back

end Cert.Kernel.P

end
-- ==== Proof.Bits.Part4.lean ====
/-
  The middle of the body: the last three entry signals; the copy of the block into VMEM and its wait; the column sums
  stored into c's own row of the gather buffer; the barrier wait, which brings c's row of every other device's gather
  buffer; the first two sends.
-/
import proofs.«901077_g7700000000001078_dist_sum_ax0_shard0_i_m1536_n768_v7x_i32_bf16_1_alg».proof.Proof.Bits.Glue

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

set_option maxHeartbeats 8000000 in
theorem part4_spec (c : Dev nD) (v2 : BitVec 32) (Kt : BitVec 32 → sProp 𝕄) :
    iprop(records m Kn ∗ levAts L lv ∗ sigSt (F := F) c 28 ∗ xPts m c
        ∗ (∃ f : Buf (Elt F) ((c : Thread nD τ).loc cc0_scratch0), ((c : Thread nD τ).loc cc0_scratch0) ↦{fullShare} f)
        ∗ dutyTok ER (cpCell c) 0 0 ∗ atPos ER (cpCell c) 0 ∅ 0 ∗ (∃ f, rowPts (F := F) c c fullShare f)
        ∗ cred (tallyAt (barCell c) () 31) ∗ atPos ER (barCell c) 0 ∅ 0
        ∗ bigSep K (fun k => dutyTok ER (sendCell c) 0 k) ∗ bigSep K (fun k => dutyTok ER (recvCell (sh c k)) 0 k)
        ∗ (∀ r, (sendSt m c 2 ∗ rowPts c c (Transfers.shareDrop fullShare 32) (G m) ∗ rowPts c c (Transfers.shareTokN fullShare 0) (G m) ∗ cpPay m c ∗ atPos ER (cpCell c) 1 ∅ 0) -∗ Kt r))
      ⊢ wp frame (wpE (defs₀ (F := F)) 𝒱₀ (c : Thread nD τ) none) Set.univ
          (k0_part4 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2 (SemArray.scalar (sig.barrier 0 rfl) : Sems sig S_)) Kt := by
  rw [k0_part4_eq_skeleton]; unfold k0_part4_skel
  simp only [semSignalWord, semWaitWord, Prog.lift, Prog.bind_op, Prog.bind_ret, Prog.pure_eq_ret]
  iintro ⟨#HR, #Hlev, Hst, Hx, ⟨%fv, Hv⟩, Htcp, Hacp, ⟨%f0, Hrow⟩, Hcb, Hab, HtS, HtV, Hk⟩
  iapply (step_sig_st m Kn c 28 (by omega) _ (Fin.ext (k0_dev29_eq c)) _ (by decide)) $$ [Hst]
  · isplitr; · iexact HR
    iexact Hst
  iintro Hst
  iapply (step_sig_st m Kn c 29 (by omega) _ (Fin.ext (k0_dev30_eq c)) _ (by decide)) $$ [Hst]
  · isplitr; · iexact HR
    iexact Hst
  iintro Hst
  iapply (step_sig_st m Kn c 30 (by omega) _ (Fin.ext (k0_dev31_eq c)) _ (by decide)) $$ [Hst]
  · isplitr; · iexact HR
    iexact Hst
  iintro Hst
  -- every signal is sent: what is owed now is the receive credits only
  unfold sigSt
  rw [Finset.Ioc_self, BI.bigSep_empty]
  icases Hst with ⟨⟨%W, HO⟩, -⟩
  -- the block of x into VMEM, and the wait for it
  iapply (step_copy m Kn c fv) $$ [Hx Hv Htcp]
  · isplitr; · iexact HR
    isplitl [Hx]; · iexact Hx
    isplitl [Hv]; · iexact Hv
    iexact Htcp
  iintro Hccp
  iapply (step_cpwait m Kn c 31 0 W) $$ [Hccp HO Hacp]
  · isplitr; · iexact HR
    isplitl [Hccp]; · iexact Hccp
    isplitl [HO]; · iexact HO
    isplitr; · iexact Hlev
    iexact Hacp
  iintro ⟨HO, Hacp, Hcp⟩
  unfold cpPay
  icases Hcp with ⟨Hxv, Hxh⟩
  -- the block read back, its columns summed, the sums stored into row c
  iapply (wp_load 𝒱₀ (c : Thread nD τ) none Set.univ (m := (xV : Memref sig .tc .vmem S1536x768 .f32)) (by rw [View.set_whole]; exact Finset.subset_univ _)) $$ Hxv
  iintro Hxv
  rw [read_xv]
  ihave Hrow := (Entails.of_eq (rowPts_eq c c fullShare f0)) $$ Hrow
  iapply (wp_load 𝒱₀ (c : Thread nD τ) none Set.univ (m := (gM : Memref sig .tc .vmem S32x1x768 .f32)) (acc1_load_sub c)) $$ Hrow
  iintro Hrow
  iapply (wp_store 𝒱₀ (c : Thread nD τ) none Set.univ (m := (gM : Memref sig .tc .vmem S32x1x768 .f32))
      (r := Rect.unit (s := S32x1x768) (k0_off1 c) S1x1x768.size (k0_off1_inb c)) (Mk := Finset.univ) (acc1_store_sub c)) $$ Hrow
  iintro Hrow
  ihave Hrow := (Entails.of_eq (row_stored m c f0)) $$ Hrow
  ihave Hrow := (Entails.of_eq (rowPts_eq c c fullShare (G m)).symm) $$ Hrow
  -- the barrier wait: every other device is inside the kernel and has handed over c's row of its gather buffer
  iapply (step_barwait m Kn c 0 _ (by decide) _) $$ [Hcb HO Hab]
  · isplitr; · iexact HR
    isplitl [Hcb]; · iexact Hcb
    isplitl [HO]; · iexact HO
    isplitr; · iexact Hlev
    iexact Hab
  iintro ⟨HO, Hbp⟩
  ihave Hs := (enter_send m c) $$ [HO HtS HtV Hrow Hbp]
  · isplitl [HO]; · iexists _; iexact HO
    isplitl [HtS]; · iexact HtS
    isplitl [HtV]; · iexact HtV
    isplitl [Hrow]; · iexact Hrow
    iexact Hbp
  icases Hs with ⟨Hst, Hdrop, Htok0⟩
  iapply (step_send_st m Kn c 0 (by omega) _ (Fin.ext (k0_dev32_eq c))) $$ [Hst]
  · isplitr; · iexact HR
    iexact Hst
  iintro Hst
  iapply (step_send_st m Kn c 1 (by omega) _ (Fin.ext (k0_dev33_eq c))) $$ [Hst]
  · isplitr; · iexact HR
    iexact Hst
  iintro Hst
  rw [wp_ret]; imodintro
  iapply Hk
  isplitl [Hst]; · iexact Hst
  isplitl [Hdrop]; · iexact Hdrop
  isplitl [Htok0]; · iexact Htok0
  isplitl [Hxv Hxh]
  · isplitl [Hxv]; · iexact Hxv
    iexact Hxh
  iexact Hacp

end Cert.Kernel.P

end
-- ==== Proof.Bits.PartsMid.lean ====
/-
  The parts of the body where one run of steps ends and the next begins: the last two sends and the first receive
  waits; the last receive waits, after which the whole gather buffer is read and summed; the result stored, and the
  first send waits.
-/
import proofs.«901077_g7700000000001078_dist_sum_ax0_shard0_i_m1536_n768_v7x_i32_bf16_1_alg».proof.Proof.Bits.Glue

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

theorem recvSt_intro (c : Dev nD) :
    iprop((∃ W, owes (c : Thread nD τ) (0 : CellTallies nD τ sig Unit) W) ∗ cred (tallyAt (recvCell c) () (31 * N)) ∗ atPos ER (recvCell c) 0 ∅ 0)
      ⊢ recvSt m c 0 := by
  unfold recvSt
  rw [Nat.sub_zero, Nat.zero_mul]
  iintro ⟨HO, Hc, Hat⟩
  isplitl [HO]; · iexact HO
  isplitl [Hc]; · iexact Hc
  iapply (Rounds.waitAcc_intro ER (sched m) (c : Thread nD τ) (.dma recvS.sem) 0); iexact Hat

theorem swSt_intro (c : Dev nD) :
    iprop((∃ W, owes (c : Thread nD τ) (0 : CellTallies nD τ sig Unit) W) ∗ cred (tallyAt (sendCell c) () (31 * N)) ∗ atPos ER (sendCell c) 0 ∅ 0)
      ⊢ swSt m c 0 := by
  unfold swSt
  rw [Nat.sub_zero, Nat.zero_mul]
  iintro ⟨HO, Hc, Hat⟩
  isplitl [HO]; · iexact HO
  isplitl [Hc]; · iexact Hc
  iapply (Rounds.waitAcc_intro ER (sched m) (c : Thread nD τ) (.dma sendS.sem) 0); iexact Hat

set_option maxHeartbeats 4000000 in
theorem part11_spec (c : Dev nD) (v2 : BitVec 32) (Kt : PUnit → sProp 𝕄) :
    iprop(records m Kn ∗ sendSt m c 29 ∗ atPos ER (recvCell c) 0 ∅ 0 ∗ cred (tallyAt (recvCell c) () (31 * N))
        ∗ ((recvSt m c 5 ∗ cred (tallyAt (sendCell c) () (31 * N))) -∗ Kt ⟨⟩))
      ⊢ wp frame (wpE (defs₀ (F := F)) 𝒱₀ (c : Thread nD τ) none) Set.univ
          (k0_part11 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v2) Kt := by
  rw [k0_part11_eq_skeleton]; unfold k0_part11_skel
  simp only [semSignalWord, semWaitWord, Prog.lift, Prog.bind_op, Prog.bind_ret, Prog.pure_eq_ret]
  iintro ⟨#HR, Hst, Harv, Hcrv, Hk⟩
  iapply (step_send_st m Kn c 29 (by omega) _ (Fin.ext (k0_dev61_eq c))) $$ [Hst]
  · isplitr; · iexact HR
    iexact Hst
  iintro Hst
  iapply (step_send_st m Kn c 30 (by omega) _ (Fin.ext (k0_dev62_eq c))) $$ [Hst]
  · isplitr; · iexact HR
    iexact Hst
  iintro Hst
  ihave Hl := (leave_send m c) $$ Hst
  icases Hl with ⟨HO, Hcs⟩
  ihave Hst := (recvSt_intro m c) $$ [HO Hcrv Harv]
  · isplitl [HO]; · iexact HO
    isplitl [Hcrv]; · iexact Hcrv
    iexact Harv
  iapply (step_recvwait_st m Kn c 0 (by omega)) $$ [Hst]
  · isplitr; · iexact HR
    iexact Hst
  iintro Hst
  iapply (step_recvwait_st m Kn c 1 (by omega)) $$ [Hst]
  · isplitr; · iexact HR
    iexact Hst
  iintro Hst
  iapply (step_recvwait_st m Kn c 2 (by omega)) $$ [Hst]
  · isplitr; · iexact HR
    iexact Hst
  iintro Hst
  iapply (step_recvwait_st m Kn c 3 (by omega)) $$ [Hst]
  · isplitr; · iexact HR
    iexact Hst
  iintro Hst
  iapply (step_recvwait_st m Kn c 4 (by omega)) $$ [Hst]
  · isplitr; · iexact HR
    iexact Hst
  iintro Hst
  rw [wp_ret]; imodintro
  iapply Hk
  isplitl [Hst]; · iexact Hst
  iexact Hcs

theorem recv_payloads (c : Dev nD) :
    bigSep K (fun k => (sched (F := F) m).payload (recvCell c) 0 k) = bigSep K (fun k => recvPay m c k) :=
  bigSep_congr fun k _ => payload_recv m c k
theorem send_payloads (c : Dev nD) :
    bigSep K (fun k => (sched (F := F) m).payload (sendCell c) 0 k) = bigSep K (fun k => sendPay m c k) :=
  bigSep_congr fun k _ => payload_send m c k

set_option maxHeartbeats 4000000 in
theorem part15_spec (c : Dev nD) (Kt : FVec F S1x768 .f32 → sProp 𝕄) :
    iprop(records m Kn ∗ recvSt m c 25 ∗ rowPts c c (Transfers.shareDrop fullShare 32) (G m)
        ∗ (((∃ W, owes (c : Thread nD τ) (0 : CellTallies nD τ sig Unit) W) ∗ atPos ER (recvCell c) 1 ∅ 0
              ∗ (((c : Thread nD τ).loc cc0_scratch1) ↦{(Transfers.shareDrop fullShare 32)} G m) ∗ othersRest m c) -∗ Kt (k0_pay2 (G m))))
      ⊢ wp frame (wpE (defs₀ (F := F)) 𝒱₀ (c : Thread nD τ) none) Set.univ
          (k0_part15 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c) Kt := by
  rw [k0_part15_eq_skeleton]; unfold k0_part15_skel
  simp only [semSignalWord, semWaitWord, Prog.lift, Prog.bind_op, Prog.bind_ret, Prog.pure_eq_ret]
  iintro ⟨#HR, Hst, Hdrop, Hk⟩
  iapply (step_recvwait_st m Kn c 25 (by omega)) $$ [Hst]
  · isplitr; · iexact HR
    iexact Hst
  iintro Hst
  iapply (step_recvwait_st m Kn c 26 (by omega)) $$ [Hst]
  · isplitr; · iexact HR
    iexact Hst
  iintro Hst
  iapply (step_recvwait_st m Kn c 27 (by omega)) $$ [Hst]
  · isplitr; · iexact HR
    iexact Hst
  iintro Hst
  iapply (step_recvwait_st m Kn c 28 (by omega)) $$ [Hst]
  · isplitr; · iexact HR
    iexact Hst
  iintro Hst
  iapply (step_recvwait_st m Kn c 29 (by omega)) $$ [Hst]
  · isplitr; · iexact HR
    iexact Hst
  iintro Hst
  iapply (step_recvwait_last m Kn c) $$ [Hst]
  · isplitr; · iexact HR
    iexact Hst
  iintro ⟨HO, Hat, Hpay⟩
  ihave Hp := (Entails.of_eq (recv_payloads m c)) $$ Hpay
  ihave Hw := (gather_whole m c) $$ [Hdrop Hp]
  · isplitl [Hdrop]; · iexact Hdrop
    iexact Hp
  icases Hw with ⟨Hg, Hrest⟩
  iapply (wp_load 𝒱₀ (c : Thread nD τ) none Set.univ (m := (gM : Memref sig .tc .vmem S32x1x768 .f32)) (Finset.subset_univ _)) $$ Hg
  iintro Hg
  rw [read_g, wp_ret]; imodintro
  iapply Hk
  isplitl [HO]; · iexact HO
  isplitl [Hat]; · iexact Hat
  isplitl [Hg]; · iexact Hg
  iexact Hrest

set_option maxHeartbeats 4000000 in
theorem part16_spec (c : Dev nD) (v385 : FVec F S1x768 .f32) (Kt : PUnit → sProp 𝕄) :
    iprop(records m Kn ∗ (∃ W, owes (c : Thread nD τ) (0 : CellTallies nD τ sig Unit) W)
        ∗ (∃ f : Buf (Elt F) ((c : Thread nD τ).loc cc0_stg0_0), ((c : Thread nD τ).loc cc0_stg0_0) ↦{fullShare} f)
        ∗ cred (tallyAt (sendCell c) () (31 * N)) ∗ atPos ER (sendCell c) 0 ∅ 0
        ∗ ((swSt m c 5 ∗ (((c : Thread nD τ).loc cc0_stg0_0) ↦{fullShare} v385)) -∗ Kt ⟨⟩))
      ⊢ wp frame (wpE (defs₀ (F := F)) 𝒱₀ (c : Thread nD τ) none) Set.univ
          (k0_part16 (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS c v385) Kt := by
  rw [k0_part16_eq_skeleton]; unfold k0_part16_skel
  simp only [semSignalWord, semWaitWord, Prog.lift, Prog.bind_op, Prog.bind_ret, Prog.pure_eq_ret]
  iintro ⟨#HR, HO, ⟨%fo, Hout⟩, Hcs, Hats, Hk⟩
  iapply (wp_load 𝒱₀ (c : Thread nD τ) none Set.univ (m := (oM : Memref sig .tc .vmem S1x768 .f32)) (Finset.subset_univ _)) $$ Hout
  iintro Hout
  iapply (wp_store 𝒱₀ (c : Thread nD τ) none Set.univ (m := (oM : Memref sig .tc .vmem S1x768 .f32))
      (r := Rect.unit (s := S1x768) ![0, 0] S1x768.size inb_S1x768_S1x768_0_0) (Mk := Finset.univ) (Finset.subset_univ _)) $$ Hout
  iintro Hout
  rw [write_o]
  ihave Hst := (swSt_intro m c) $$ [HO Hcs Hats]
  · isplitl [HO]; · iexact HO
    isplitl [Hcs]; · iexact Hcs
    iexact Hats
  iapply (step_sendwait_st m Kn c 0 (by omega)) $$ [Hst]
  · isplitr; · iexact HR
    iexact Hst
  iintro Hst
  iapply (step_sendwait_st m Kn c 1 (by omega)) $$ [Hst]
  · isplitr; · iexact HR
    iexact Hst
  iintro Hst
  iapply (step_sendwait_st m Kn c 2 (by omega)) $$ [Hst]
  · isplitr; · iexact HR
    iexact Hst
  iintro Hst
  iapply (step_sendwait_st m Kn c 3 (by omega)) $$ [Hst]
  · isplitr; · iexact HR
    iexact Hst
  iintro Hst
  iapply (step_sendwait_st m Kn c 4 (by omega)) $$ [Hst]
  · isplitr; · iexact HR
    iexact Hst
  iintro Hst
  rw [wp_ret]; imodintro
  iapply Hk
  isplitl [Hst]; · iexact Hst
  iexact Hout

end Cert.Kernel.P

end
-- ==== Proof.Bits.Body.lean ====
/-
  One device's body, from what the launch hands it to what it hands back: the twenty printed parts in order, the last
  two send waits, the three own cells closed, and the gather buffer, the block's copy and the block put back whole.
-/
import proofs.«901077_g7700000000001078_dist_sum_ax0_shard0_i_m1536_n768_v7x_i32_bf16_1_alg».proof.Proof.Bits.PartsSig
import proofs.«901077_g7700000000001078_dist_sum_ax0_shard0_i_m1536_n768_v7x_i32_bf16_1_alg».proof.Proof.Bits.PartsSend
import proofs.«901077_g7700000000001078_dist_sum_ax0_shard0_i_m1536_n768_v7x_i32_bf16_1_alg».proof.Proof.Bits.PartsWait
import proofs.«901077_g7700000000001078_dist_sum_ax0_shard0_i_m1536_n768_v7x_i32_bf16_1_alg».proof.Proof.Bits.Part4
import proofs.«901077_g7700000000001078_dist_sum_ax0_shard0_i_m1536_n768_v7x_i32_bf16_1_alg».proof.Proof.Bits.PartsMid

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (Kn : Dev nD × Fin 4 → ℕ)

theorem fetch_none (t : Fin cfg0.N) : (cfg0.win (0 : Fin 1)).fetch t = false := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem outV_eq : k0_pay2 (G m) = outV m := rfl

set_option maxHeartbeats 8000000 in
/-- The body, part by part, from bodyPre to bodyPost. -/
theorem sound_body (c : Dev nD) (Kt : PUnit → sProp 𝕄) :
    iprop(bodyPre m ρ Kn c ∗ (bodyPost m ρ c -∗ Kt ⟨⟩))
      ⊢ wp frame (wpE (defs₀ (F := F)) 𝒱₀ (c : Thread nD τ) none) Set.univ
          (cc0_body (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS) Kt := by
  rw [cc0_body_eq_skeleton]; unfold cc0_body_skel
  unfold bodyPre ghost positions payToks scratch
  iintro ⟨⟨⟨⟨#HR, ⟨Hab, Hacp, Has, Har⟩, ⟨HtB, HtV, HtS, Htcp⟩⟩, Hcb, Hcrv, #Hlev, Hx, ⟨⟨%fv, Hv⟩, ⟨%fg, Hg⟩⟩⟩, Ho, ⟨%d1, %g1, %hg1, Hout⟩⟩, Hk⟩
  unfold Dat.owesAt Pipeline.owesWithin
  icases Ho with ⟨%W, %hW, HO⟩
  rw [show (dats m ρ 0 c).owed t₀.castSucc = O₀ c from rfl]
  ihave Hs := (enter_sig (F := F) c) $$ [HO HtB Hg]
  · isplitl [HO]; · iexists W; iexact HO
    isplitl [HtB]; · iexact HtB
    iexists fg; iexact Hg
  icases Hs with ⟨Hst, Hrow⟩
  -- parts 1–3: the entry signals
  rw [wp_bind]
  iapply (part1_spec m Kn c)
  isplitr; · iexact HR
  isplitl [Hst]; · iexact Hst
  iintro Hst
  dsimp only
  rw [wp_bind]
  iapply (part2_spec m Kn c _)
  isplitr; · iexact HR
  isplitl [Hst]; · iexact Hst
  iintro Hst
  rw [wp_bind]
  iapply (part3_spec m Kn c _)
  isplitr; · iexact HR
  isplitl [Hst]; · iexact Hst
  iintro Hst
  -- part 4: the copy, the column sums, the barrier wait, the first sends
  rw [wp_bind]
  iapply (part4_spec m Kn c _)
  isplitr; · iexact HR
  isplitr; · iexact Hlev
  isplitl [Hst]; · iexact Hst
  isplitl [Hx]; · iexact Hx
  isplitl [Hv]; · iexists fv; iexact Hv
  isplitl [Htcp]; · iexact Htcp
  isplitl [Hacp]; · iexact Hacp
  isplitl [Hrow]; · iexact Hrow
  isplitl [Hcb]; · iexact Hcb
  isplitl [Hab]; · iexact Hab
  isplitl [HtS]; · iexact HtS
  isplitl [HtV]; · iexact HtV
  iintro %v86 ⟨Hst, Hdrop, Htok0, Hcp, Hacp⟩
  -- parts 5–10: the sends
  rw [wp_bind]
  iapply (part5_spec m Kn c _ _)
  isplitr; · iexact HR
  isplitl [Hst]; · iexact Hst
  iintro Hst
  rw [wp_bind]
  iapply (part6_spec m Kn c _)
  isplitr; · iexact HR
  isplitl [Hst]; · iexact Hst
  iintro Hst
  rw [wp_bind]
  iapply (part7_spec m Kn c _)
  isplitr; · iexact HR
  isplitl [Hst]; · iexact Hst
  iintro Hst
  rw [wp_bind]
  iapply (part8_spec m Kn c _)
  isplitr; · iexact HR
  isplitl [Hst]; · iexact Hst
  iintro Hst
  rw [wp_bind]
  iapply (part9_spec m Kn c _)
  isplitr; · iexact HR
  isplitl [Hst]; · iexact Hst
  iintro %r9 Hst
  rw [wp_bind]
  iapply (part10_spec m Kn c _ _ _)
  isplitr; · iexact HR
  isplitl [Hst]; · iexact Hst
  iintro Hst
  -- part 11: the last sends, the first receive waits
  rw [wp_bind]
  iapply (part11_spec m Kn c _)
  isplitr; · iexact HR
  isplitl [Hst]; · iexact Hst
  isplitl [Har]; · iexact Har
  isplitl [Hcrv]; · iexact Hcrv
  iintro ⟨Hst, Hcs⟩
  rw [wp_bind]
  iapply (part12_spec m Kn c)
  isplitr; · iexact HR
  isplitl [Hst]; · iexact Hst
  iintro Hst
  rw [wp_bind]
  iapply (part13_spec m Kn c)
  isplitr; · iexact HR
  isplitl [Hst]; · iexact Hst
  iintro Hst
  rw [wp_bind]
  iapply (part14_spec m Kn c)
  isplitr; · iexact HR
  isplitl [Hst]; · iexact Hst
  iintro Hst
  -- part 15: the last receive waits; the gather buffer read whole
  rw [wp_bind]
  iapply (part15_spec m Kn c)
  isplitr; · iexact HR
  isplitl [Hst]; · iexact Hst
  isplitl [Hdrop]; · iexact Hdrop
  iintro ⟨HO, Har, Hg, Hrest⟩
  -- part 16: the result stored; the first send waits
  rw [wp_bind]
  iapply (part16_spec m Kn c _)
  isplitr; · iexact HR
  isplitl [HO]; · iexact HO
  isplitl [Hout]; · iexists g1; iexact Hout
  isplitl [Hcs]; · iexact Hcs
  isplitl [Has]; · iexact Has
  iintro ⟨Hst, Hout⟩
  rw [wp_bind]
  iapply (part17_spec m Kn c)
  isplitr; · iexact HR
  isplitl [Hst]; · iexact Hst
  iintro Hst
  rw [wp_bind]
  iapply (part18_spec m Kn c)
  isplitr; · iexact HR
  isplitl [Hst]; · iexact Hst
  iintro Hst
  rw [wp_bind]
  iapply (part19_spec m Kn c)
  isplitr; · iexact HR
  isplitl [Hst]; · iexact Hst
  iintro Hst
  rw [wp_bind]
  iapply (part20_spec m Kn c)
  isplitr; · iexact HR
  isplitl [Hst]; · iexact Hst
  iintro Hst
  -- the last two send waits
  simp only [Prog.lift, Prog.bind_op, Prog.bind_ret, Prog.pure_eq_ret]
  iapply (step_sendwait_st m Kn c 29 (by omega)) $$ [Hst]
  · isplitr; · iexact HR
    iexact Hst
  iintro Hst
  iapply (step_sendwait_last m Kn c) $$ [Hst]
  · isplitr; · iexact HR
    iexact Hst
  iintro ⟨HO, Has, Hpay⟩
  ihave Hp := (Entails.of_eq (send_payloads m c)) $$ Hpay
  ihave Hg := (gather_back m c) $$ [Hg Hrest Htok0 Hp]
  · isplitl [Hg]; · iexact Hg
    isplitl [Hrest]; · iexact Hrest
    isplitl [Htok0]; · iexact Htok0
    iexact Hp
  -- the three own cells close: their counters at zero are the core's again
  imod (Rounds.cell_close ER (sched m) (Set.mem_univ (Kn (c, 1))) (fun h => h) (R := 0 + 1) (duties_later m (cpCell c))) $$ [Hacp] with HzC
  · isplitr; · iapply (inv_at m Kn (c, 1)); iexact HR
    iexact Hacp
  imod (Rounds.cell_close ER (sched m) (Set.mem_univ (Kn (c, 2))) (fun h => h) (R := 0 + 1) (duties_later m (sendCell c))) $$ [Has] with HzS
  · isplitr; · iapply (inv_at m Kn (c, 2)); iexact HR
    iexact Has
  imod (Rounds.cell_close ER (sched m) (Set.mem_univ (Kn (c, 3))) (fun h => h) (R := 0 + 1) (duties_later m (recvCell c))) $$ [Har] with HzV
  · isplitr; · iapply (inv_at m Kn (c, 3)); iexact HR
    iexact Har
  rw [wp_ret]; imodintro
  iapply Hk
  unfold bodyPost Φ₁ scratch cpPay xPts Dat.owesAt Pipeline.owesWithin
  rw [show (dats m ρ 0 c).owed t₀.succ = 0 from rfl]
  icases Hcp with ⟨Hxv, Hxh⟩
  isplitl [Hxh Hxv Hg HzC HzS HzV]
  · isplitl [Hxh]; · rw [View.set_whole]; iexact Hxh
    isplitl [Hxv Hg]
    · isplitl [Hxv]; · iexists _; rw [View.set_whole]; iexact Hxv
      iexists _; iexact Hg
    isplitl [HzC]; · iexact HzC
    isplitl [HzS]; · iexact HzS
    iexact HzV
  isplitl [HO]
  · icases HO with ⟨%W', HO⟩
    iexists W'
    isplitr; · ipureintro; exact fun _ _ => Or.inl trivial
    iexact HO
  iexists _; isplitr; · (ipureintro; rfl)
  iexact Hout

set_option maxRecDepth 65536 in
/-- The library's body obligation on device c. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc ∗ (∃ d, stg c cc0_stg0_0 ((dats m ρ 0 c).before (0 : Fin 1) t₀ d)))
    ⊢ wp frame (wpE (defs₀ (F := F)) 𝒱₀ c none) Set.univ
      (cc0_body (xH : Memref sig .tc .hbm S1536x768 .f32) (Memref.isWhole_whole _) (oM : Memref sig .tc .vmem S1x768 .f32) (Memref.isWhole_whole _) (xV : Memref sig .tc .vmem S1536x768 .f32) (Memref.isWhole_whole _) (gM : Memref sig .tc .vmem S32x1x768 .f32) (Memref.isWhole_whole _) cpS sendS recvS) (fun _ => bodyPost m ρ c)
  unfold Φ₀ start
  iintro ⟨⟨⟨⟨%Kn, Hg⟩, Hrest⟩, Hscr⟩, Ho, Hout⟩
  iapply (sound_body m ρ Kn c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    iexact Hout
  · iintro H; iexact H

/-- info: 'Cert.Kernel.P.body_obligation' depends on axioms: [propext, Classical.choice, Quot.sound] -/
#guard_msgs in #print axioms body_obligation

end Cert.Kernel.P

end
-- ==== Proof.Bits.LaunchSide.lean ====
/-
  The side conditions of the launch.

  At launch each of the 31 other devices owes a device's barrier cell one unit and its receive cell one row's credit,
  so the launch deals the device credit for 31 units and for 31 rows. From its launch holdings a device sorts out what
  its body starts from: its ghost state, the two credit tokens, the level facts, and its block of x. With the two
  scratch buffers that is the invariant before the one grid point; the invariant after it gives back the block of x,
  the three own semaphores at zero and the scratch buffers. The result window's write-back waits on a staging cell,
  below everything a device owes. After the one point the result array holds what the body left in the staging
  buffer: the sum of the 32 rows.
-/
import proofs.«901077_g7700000000001078_dist_sum_ax0_shard0_i_m1536_n768_v7x_i32_bf16_1_alg».proof.Proof.Bits.Data
import proofs.«901077_g7700000000001078_dist_sum_ax0_shard0_i_m1536_n768_v7x_i32_bf16_1_alg».proof.Proof.Gen.Kernel.Points

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- Two devices' cells on the same semaphore are the same cell only if the devices are. -/
private theorem cell_eq_iff (sm : SemLoc sig) {a b : Dev nD} :
    (((a : Thread nD τ), sm) : GSem nD τ sig) = ((b : Thread nD τ), sm) ↔ a = b :=
  ⟨fun h => congrArg (fun g : GSem nD τ sig => g.1.1) h, fun h => h ▸ rfl⟩

/-- Each offset k reaches device c from exactly one device, the one k places before it: so the 32 devices, each owing
    the cell on semaphore sm of the device k places after it an amount n for every offset k = 1, …, 31, together owe
    c's cell 31 such amounts. -/
private theorem sum_ring (sm : SemLoc sig) (n : ℕ) (c : Dev nD) :
    ∑ d : Dev nD, ∑ k ∈ Finset.Ioc 0 31, tallyAt (((sh d k : Dev nD) : Thread nD τ), sm) () n ((c : Thread nD τ), sm) () = 31 * n := by
  rw [Finset.sum_comm]
  have h1 : ∀ k ∈ Finset.Ioc 0 31, ∑ d : Dev nD, tallyAt (((sh d k : Dev nD) : Thread nD τ), sm) () n ((c : Thread nD τ), sm) () = n := fun k _ => by
    have h0 : ∀ d ∈ (Finset.univ : Finset (Dev nD)), d ≠ bk c k →
        tallyAt (((sh d k : Dev nD) : Thread nD τ), sm) () n ((c : Thread nD τ), sm) () = 0 := fun d _ hd => by
      rw [tallyAt_apply, if_neg]
      rintro ⟨h, -⟩
      exact hd (by rw [(cell_eq_iff sm).mp h, bk_sh])
    rw [Finset.sum_eq_single (bk c k) h0 (fun h => absurd (Finset.mem_univ _) h), sh_bk, tallyAt_self]
  rw [Finset.sum_congr rfl h1, Finset.sum_const, Nat.card_Ioc, Nat.sub_zero, smul_eq_mul]

/-- What device d owes device c's barrier cell: its entry signals only. -/
private theorem owed_bar (d c : Dev nD) :
    O₀ d (barCell c) () = ∑ k ∈ Finset.Ioc 0 31, tallyAt (barCell (sh d k)) () 1 (barCell c) () := by
  have h0 : ∑ k ∈ Finset.Ioc 0 31, tallyAt (recvCell (sh d k)) () N (barCell c) () = 0 := Finset.sum_eq_zero fun k _ => by
    rw [tallyAt_apply, if_neg]
    rintro ⟨h, -⟩
    exact recv_ne_bar (congrArg Prod.snd h).symm
  unfold O₀ owe
  rw [Pi.add_apply, Finsupp.add_apply, Finset.sum_apply, Finset.sum_apply, Finsupp.finsetSum_apply, Finsupp.finsetSum_apply, h0, Nat.zero_add]

/-- What device d owes device c's receive cell: its sends only. -/
private theorem owed_recv (d c : Dev nD) :
    O₀ d (recvCell c) () = ∑ k ∈ Finset.Ioc 0 31, tallyAt (recvCell (sh d k)) () N (recvCell c) () := by
  have h0 : ∑ k ∈ Finset.Ioc 0 31, tallyAt (barCell (sh d k)) () 1 (recvCell c) () = 0 := Finset.sum_eq_zero fun k _ => by
    rw [tallyAt_apply, if_neg]
    rintro ⟨h, -⟩
    exact recv_ne_bar (congrArg Prod.snd h)
  unfold O₀ owe
  rw [Pi.add_apply, Finsupp.add_apply, Finset.sum_apply, Finset.sum_apply, Finsupp.finsetSum_apply, Finsupp.finsetSum_apply, h0, Nat.add_zero]

/-- Every other device owes c's barrier cell one unit: 31 in all. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact (sum_ring (.reg barS) 1 c).trans (Nat.mul_one 31)

/-- Every other device owes c's receive cell one row's credit: 31 rows in all. -/
theorem launch_recv (c : Dev nD) :
    tallyOn (recvCell c) (launchCredit (Pipeline.owing O₀) 0 (recvCell c)) = (tallyAt (recvCell c) () (31 * N) : CellTallies nD τ sig Unit) := by
  unfold tallyAt; refine congrArg _ (Finsupp.ext fun u => ?_); cases u
  rw [Pipeline.launchCredit_owing, Finsupp.single_eq_same, Finset.sum_congr rfl fun d _ => owed_recv d c]
  exact sum_ring (.dma recvS.sem) N c

/-- The credit tokens the launch deals device c: 31 units on its barrier cell and 31 rows on its receive cell. -/
theorem creds (c : Dev nD) :
    (Pipeline.launchCred O₀ c : sProp 𝕄) ⊢ iprop(cred (tallyAt (barCell c) () 31) ∗ cred (tallyAt (recvCell c) () (31 * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The theorem's side conditions -/

theorem ownSemFacts : Pipeline.OwnSemFacts cfg0.spec osem := by decide

theorem share_eq (c : Dev nD) (w : Fin cfg0.W) : (dats m ρ 0 c).share w = fullShare := by unfold Dat.share; split <;> rfl

/-- The kernel's own three semaphores: the copy's, the sends', the receives'. -/
private theorem ownSems0_three (c : Dev nD) : (Pipeline.ownSems0 (Ix := Unit) (Name := ℕ) (U := UU) (Lvl := ℕ) (Val := Elt F) (τ := τ) osem c : sProp 𝕄)
    = iprop(semVal (cpCell c) 0 ∗ semVal (sendCell c) 0 ∗ semVal (recvCell c) 0) := by
  rw [Pipeline.ownSems0_eq_of_list c osem [0, 1, 2] (by decide) (by decide)]; rfl

/-- What a device sorts out of its launch holdings: its ghost state, its two credit tokens, the level facts, and its
    block of x, which no window stages and which therefore arrives with the unscoped buffers. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ Kn, ghost m Kn c))
      ⊢ |={Set.univ}=> iprop(start m c ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start xPts xs
  isplitl
  · isplitl [HG]; · iexact HG
    isplitl [H1]; · iexact H1
    isplitl [HN]; · iexact HN
    isplitl [Hlev]; · iexact Hlev
    iexact Hx
  · iempintro

/-- With the two scratch buffers, that is the invariant before the one point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The invariant after the one point gives back the block of x, the three own semaphores at zero and the two
    scratch buffers. -/
theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq, ownSems0_three]
  unfold Φ₁ scratch
  iintro ⟨Hx, Hs, Hz⟩
  isplitl [Hx]; · iexact Hx
  isplitl [Hz]; · iexact Hz
  iexact Hs

/-- The result window's staging cell is no receive cell: the write-back's wait sits below everything a device owes
    before the point, and after it the device owes nothing. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 0 0
    · show (levAts L lv : sProp 𝕄) ⊢ MayWait (c : Thread nD τ) _ () 0
      rw [MayWait_zero]; iintro -; iempintro

/-! ## The final arrays -/

/-- The result array after the run: the one point writes the whole staging buffer back over it. -/
theorem final_out (c : Dev nD) : (dats m ρ 0 c).arrAt (0 : Fin 1) cfg0.N = outV m := by
  have hz : (fun a => (win0_0.index t₀) a * main_v1.ty.shape.size a) = fun _ => 0 := funext fun a => by fin_cases a <;> decide
  rw [show cfg0.N = (t₀ : Fin cfg0.N).val + 1 from rfl, (dats m ρ 0 c).arrAt_succ (0 : Fin 1) t₀, flush0_0 t₀, if_pos rfl]
  exact Memref.write_access_unit_zero_univ (Elt F) main_v1 hz (fun a => by fin_cases a <;> decide) _ _

/-- info: 'Cert.Kernel.P.creds' depends on axioms: [propext, Classical.choice, Quot.sound] -/
#guard_msgs in #print axioms creds
/-- info: 'Cert.Kernel.P.start_intro' depends on axioms: [propext, Classical.choice, Quot.sound] -/
#guard_msgs in #print axioms start_intro
/-- info: 'Cert.Kernel.P.phi0_intro' depends on axioms: [propext, Classical.choice, Quot.sound] -/
#guard_msgs in #print axioms phi0_intro
/-- info: 'Cert.Kernel.P.phi1_exit' depends on axioms: [propext, Classical.choice, Quot.sound] -/
#guard_msgs in #print axioms phi1_exit
/-- info: 'Cert.Kernel.P.waits' depends on axioms: [propext, Classical.choice, Quot.sound] -/
#guard_msgs in #print axioms waits
/-- info: 'Cert.Kernel.P.final_out' depends on axioms: [propext, Classical.choice, Quot.sound] -/
#guard_msgs in #print axioms final_out

end Cert.Kernel.P

end
-- ==== Proof.Bits.LaunchGhost.lean ====
/-
  The ghost state at launch.

  The launch element of the protocol's algebra funds the four cells of every device — barrier, copy, send, receive —
  and mints one token per duty. Funding deals each device the round states, positions and reached-marks of its own
  four cells and the tokens of its own cells' duties. The global step then makes, for all 32 devices at once, the
  128 cell invariants (each from a counter at zero and a round state at zero), chooses one name function for them,
  and passes every token from the cell's owner to the duty's payer: duty k of the barrier cell and of the receive
  cell of device c goes to the device k places before c, which is to say every device receives the tokens of duty k
  of the cells of the device k places after it.
-/
import proofs.«901077_g7700000000001078_dist_sum_ax0_shard0_i_m1536_n768_v7x_i32_bf16_1_alg».proof.Proof.Bits.Data
import Idealize.ShloMosaic.Lib.Pipeline.Cells
import Idealize.SL.ProofMode.BigOp

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

theorem kcell_injective : Function.Injective (kcell : Dev nD × Fin 4 → GSem nD τ sig) := by
  rintro ⟨c, j⟩ ⟨c', j'⟩ h
  have h1 : c = c' := by have := congrArg (fun g : GSem nD τ sig => g.1.1) h; exact this
  subst h1
  have h2 : csem j = csem j' := congrArg Prod.snd h
  have : j = j' := by fin_cases j <;> fin_cases j' <;> first | rfl | exact absurd h2 (by decide)
  subst this; rfl

/-- Every protocol cell of every device. -/
def ringCells : Finset (GSem nD τ sig) := Finset.univ.map ⟨kcell, kcell_injective⟩

/-- The duties of a cell, by its kind: the copy cell has the one duty 0, the other three the offsets 1, …, 31. -/
def dutiesOf (j : Fin 4) : Finset ℕ := if j = 1 then {0} else K

/-- A token as the launch element names it: (cell, round 0, duty). -/
def tokOf (x : (_ : Dev nD × Fin 4) × ℕ) : GSem nD τ sig × ℕ × ℕ := (kcell x.1, 0, x.2)

theorem tokOf_injective : Function.Injective tokOf := by
  rintro ⟨cj, k⟩ ⟨cj', k'⟩ h
  have h1 : cj = cj' := kcell_injective (congrArg Prod.fst h)
  subst h1
  have h2 : k = k' := congrArg (fun x : GSem nD τ sig × ℕ × ℕ => x.2.2) h
  subst h2; rfl

/-- One token per duty of every cell: (barCell c, 0, k), (sendCell c, 0, k), (recvCell c, 0, k) for k ∈ K, and
    (cpCell c, 0, 0), for every device c. -/
def ringToks : Finset (GSem nD τ sig × ℕ × ℕ) :=
  ((Finset.univ : Finset (Dev nD × Fin 4)).sigma fun cj => dutiesOf cj.2).map ⟨tokOf, tokOf_injective⟩

/-- The launch element: the pipeline library's copy funds the staging cells, the protocol's copy the ring's. -/
def u₀ : UU :=
  (initOf (Pipeline.cells cfgs cellOf_inj) (Pipeline.launchToks cfgs cellOf_inj), initOf ringCells ringToks)

/-- The duty tokens of device c's own four cells. -/
def toks (c : Dev nD) : sProp 𝕄 :=
  iprop((bigSep K fun k => dutyTok ER (barCell c) 0 k) ∗ dutyTok ER (cpCell c) 0 0
    ∗ (bigSep K fun k => dutyTok ER (sendCell c) 0 k) ∗ (bigSep K fun k => dutyTok ER (recvCell c) 0 k))

/-- What the launch element deals device c: the round states, positions and reached-marks of its own four cells, and
    the tokens of its own cells' duties. -/
def dealt (c : Dev nD) : sProp 𝕄 :=
  iprop((bigSep Finset.univ fun j : Fin 4 => roundState ER (sched m) (kcell (c, j)) 0)
    ∗ (bigSep Finset.univ fun j : Fin 4 => iprop(atPos ER (kcell (c, j)) 0 ∅ 0 ∗ reached ER (kcell (c, j)) 0)) ∗ toks c)

/-! ## Funding -/

omit [FloatOps F] in
/-- A separating conjunction over the four kinds of cell, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem dutiesOf_cp : dutiesOf 1 = {0} := if_pos rfl
theorem dutiesOf_K {j : Fin 4} (h : j ≠ 1) : dutiesOf j = K := if_neg h

omit [FloatOps F] in
/-- Over the launch element's cells, device by device and cell by cell. -/
theorem bigSep_ringCells (Φ : GSem nD τ sig → sProp 𝕄) :
    bigSep ringCells Φ = bigSep Finset.univ fun c : Dev nD => bigSep Finset.univ fun j : Fin 4 => Φ (kcell (c, j)) := by
  unfold ringCells; rw [bigSep_map, bigSep_univ_prod]; rfl

omit [FloatOps F] in
/-- The minted tokens, device by device: each device's own four cells' duties. -/
theorem bigSep_ringToks :
    bigSep ringToks (fun x => (dutyTok ER x.1 x.2.1 x.2.2 : sProp 𝕄)) = bigSep Finset.univ fun c : Dev nD => toks c := by
  unfold ringToks
  rw [bigSep_map, Pipeline.bigSep_sigma, bigSep_univ_prod]
  refine bigSep_congr fun c _ => ?_
  unfold toks
  rw [bigSep_fin4]
  show iprop(bigSep (dutiesOf 0) _ ∗ bigSep (dutiesOf 1) _ ∗ bigSep (dutiesOf 2) _ ∗ bigSep (dutiesOf 3) _) = _
  rw [dutiesOf_cp, dutiesOf_K (j := 0) (by decide), dutiesOf_K (j := 2) (by decide), dutiesOf_K (j := 3) (by decide), bigSep_singleton]
  rfl

/-- Funding the protocol's copy of the algebra deals every device its own. -/
theorem fund_ring : BI.own (ER (initOf ringCells ringToks)) ⊢ (|==> bigSep Finset.univ (dealt m) : sProp 𝕄) := by
  iintro HX
  imod (Rounds.fund ER (sched m) ringCells ringToks) $$ HX with ⟨Hst, Hr, Hat, Htok⟩
  imodintro
  ihave Hst' := (Entails.of_eq (bigSep_ringCells fun g => roundState ER (sched m) g 0)) $$ Hst
  ihave Hat' := (Entails.of_eq (bigSep_ringCells (F := F) fun g => atPos ER g 0 ∅ 0)) $$ Hat
  ihave Hr' := (Entails.of_eq (bigSep_ringCells (F := F) fun g => reached ER g 0)) $$ Hr
  ihave Htok' := (Entails.of_eq (bigSep_ringToks (F := F))) $$ Htok
  unfold dealt; simp only [bigSep_sep']
  isplitl [Hst']; · iexact Hst'
  isplitl [Hat' Hr']
  · isplitl [Hat'] <;> iassumption
  iexact Htok'

/-- The launch element splits into the pipeline library's and, funded, every device's deal. -/
theorem hu₀ : (ownU u₀ : sProp 𝕄)
    ⊢ |={Set.univ}=> iprop(BI.own (EP (initOf (Pipeline.cells cfgs cellOf_inj) (Pipeline.launchToks cfgs cellOf_inj))) ∗ bigSep Finset.univ (dealt m)) := by
  unfold u₀
  iintro Hu
  ihave H := (ownU_pair _ _) $$ Hu
  icases H with ⟨HP, HX⟩
  imod (fund_ring m) $$ HX with HG
  imodintro
  isplitl [HP] <;> iassumption

/-! ## The global step -/

omit [FloatOps F] in
/-- The kernel's own three semaphores, each at zero: the copy's, the sends' and the receives'. -/
theorem ownSems0_eq (c : Dev nD) : (Pipeline.ownSems0 (Ix := Unit) (Name := ℕ) (U := UU) (Lvl := ℕ) (Val := Elt F) (τ := τ) osem c : sProp 𝕄)
    = iprop(semVal (cpCell c) 0 ∗ semVal (sendCell c) 0 ∗ semVal (recvCell c) 0) := by
  rw [Pipeline.ownSems0_eq_of_list c osem [0, 1, 2] (by decide) (by decide)]; rfl
omit [FloatOps F] in
/-- The device's one unscoped semaphore is the barrier semaphore, at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the counters of the device's four protocol cells, each at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 4 => semVal (kcell (c, j)) 0 : sProp 𝕄) := by
  rw [ownSems0_eq, unscopedSems0_eq, bigSep_fin4]
  iintro ⟨⟨HC, HS, HV⟩, HB⟩
  isplitl [HB]; · iexact HB
  isplitl [HC]; · iexact HC
  isplitl [HS] <;> iassumption

/-- One device: its four counters at zero and its four round states make its four cells' invariants, at some names. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun j : Fin 4 => semVal (kcell (c, j)) 0) ∗ bigSep Finset.univ fun j : Fin 4 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Two iterated separating conjunctions may be taken in either order. -/
theorem bigSep_swap {I J : Type} (s : Finset I) (t : Finset J) (Φ : I → J → sProp 𝕄) :
    (bigSep s fun i => bigSep t fun j => Φ i j) = bigSep t fun j => bigSep s fun i => Φ i j := by
  classical
  induction t using Finset.induction_on with
  | empty => simp only [bigSep_empty, bigSep_emp_const]
  | insert a t ha ih =>
    rw [bigSep_insert ha, ← ih, ← bigSep_sep]
    exact bigSep_congr fun i _ => bigSep_insert ha

/-- Moving k places along the ring is a bijection of the devices. -/
def shEquiv (k : ℕ) : Dev nD ≃ Dev nD := ⟨fun c => sh c k, fun c => bk c k, fun c => bk_sh c k, fun c => sh_bk c k⟩

omit [FloatOps F] in
/-- Every device holding, for each offset k, its own item k is every device holding, for each k, the item k of the
    device k places after it: for fixed k the items are the same 32, met in another order. -/
theorem deal_shift (Φ : Dev nD → ℕ → sProp 𝕄) :
    (bigSep Finset.univ fun c : Dev nD => bigSep K fun k => Φ c k) = bigSep Finset.univ fun c : Dev nD => bigSep K fun k => Φ (sh c k) k := by
  rw [bigSep_swap, bigSep_swap Finset.univ K fun c k => Φ (sh c k) k]
  exact bigSep_congr fun k _ => bigSep_univ_equiv (shEquiv k) fun c => Φ c k

omit [FloatOps F] in
/-- The tokens pass from the cells' owners to the duties' payers. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    deal_shift (fun c k => (dutyTok ER (barCell c) 0 k : sProp 𝕄)), deal_shift (fun c k => (dutyTok ER (recvCell c) 0 k : sProp 𝕄))]
  iintro ⟨HB, HC, HS, HV⟩
  isplitl [HB]; · iexact HB
  isplitl [HV]; · iexact HV
  isplitl [HS]; · iexact HS
  iexact HC

/-- The records, a device's positions and the tokens it pays are its ghost state, under the chosen names. -/
theorem ghost_intro (Kn : Dev nD × Fin 4 → ℕ) (c : Dev nD) :
    iprop(records m Kn ∗ positions c ∗ payToks c) ⊢ iprop(∃ Kn, ghost m Kn c) := by
  iintro H; iexists Kn; unfold ghost; iexact H

/-- All devices: one name function for the 128 invariants, the persistent records for everyone, the tokens dealt. -/
theorem regroup :
    (bigSep Finset.univ fun c : Dev nD => iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ toks c) : sProp 𝕄)
      ⊢ bigSep Finset.univ (fun c => iprop(∃ Kn, ghost m Kn c)) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun j : Fin 4 => (atPos ER (kcell (c, j)) 0 ∅ 0 : sProp 𝕄)) (fun j => reached ER (kcell (c, j)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%Kn, #HI⟩
  ihave Htk := (toks_around (F := F)) $$ Htok
  iapply (bigSep_with_persistent (R := records m Kn) fun c _ => ghost_intro m Kn c)
  isplitr
  · unfold records; isplitl; · iexact HI
    iexact HR
  · iapply ((Entails.of_eq (bigSep_sep' Finset.univ (fun c : Dev nD => bigSep Finset.univ fun j : Fin 4 => (atPos ER (kcell (c, j)) 0 ∅ 0 : sProp 𝕄)) payToks).symm).trans
      (bigSep_mono fun c _ => show _ ⊢ iprop(positions c ∗ payToks c) from Entails.of_eq (by unfold positions; rw [bigSep_fin4])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (fun c => iprop(∃ Kn, ghost m Kn c)) :=
  ((bigSep_mono fun c _ => core_alloc m c).trans (bigSep_fupd _ _)).trans (BI.fupd_mono (regroup m))

/-- info: 'Cert.Kernel.P.hu₀' depends on axioms: [propext, Classical.choice, Quot.sound] -/
#guard_msgs in #print axioms hu₀
/-- info: 'Cert.Kernel.P.glob' depends on axioms: [propext, Classical.choice, Quot.sound] -/
#guard_msgs in #print axioms glob

end Cert.Kernel.P

end
-- ==== Proof.Bits.Launch.lean ====
/-
  The run of @main on the mesh of 32 devices, from each device's body obligation: the launch theorem for kernels whose
  devices owe each other units at launch and meet on the runtime's barrier semaphore, applied to the proof data, the
  ghost state dealt at launch and the side conditions. The result array is read off the final arrays; the block of x,
  which no window stages, travels through the invariant and is read against the final state.
-/
import proofs.«901077_g7700000000001078_dist_sum_ax0_shard0_i_m1536_n768_v7x_i32_bf16_1_alg».proof.Proof.Bits.LaunchSide
import proofs.«901077_g7700000000001078_dist_sum_ax0_shard0_i_m1536_n768_v7x_i32_bf16_1_alg».proof.Proof.Bits.LaunchGhost

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run -/

set_option maxRecDepth 8000 in
/-- At the compiled mesh of 32 devices, for any float values, from any memory with zero counters, given each device's
    body obligation: every weakly fair execution of @main — every device tells the others it is inside the kernel, sums
    its block's rows, sends the sums to every other device, and adds up the 32 rows it then holds — terminates, and every
    final state has each device's result array at the sum of all devices' column sums and its block of x unchanged. -/
theorem run_main_of (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outV m ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := fun c => iprop(∃ Kn, ghost m Kn c)) (u₀ := u₀)
    (hu₀ := hu₀ m)
    (hglob := glob m)
    (hA := fun _ _ => rfl) (hpf := fun _ k => k.elim0)
    (X := start m) (Y := xPts m) (Z := fun _ => iprop(emp))
    (hX := start_intro m ρ) (hin := phi0_intro m ρ) (hout := phi1_exit m ρ)
    (QY := fun c s => s.mem ((c : Thread nD τ).loc main_arg0) = xs m c)
    (hY := fun c s' => by
      unfold xPts
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

/-- info: 'Cert.Kernel.P.run_main_of' depends on axioms: [propext, Classical.choice, Quot.sound] -/
#guard_msgs in #print axioms run_main_of

end Cert.Kernel.P

end
-- ==== Proof.ValueMath.lean ====
/-
  The value the kernel computes is the reference's: summing each device's block of 1536 rows over its rows, and
  then the 32 row vectors so obtained, is summing all 49152 rows of the whole array, column by column.
-/
import proofs.«901077_g7700000000001078_dist_sum_ax0_shard0_i_m1536_n768_v7x_i32_bf16_1_alg».proof.Proof.Spec
import proofs.«901077_g7700000000001078_dist_sum_ax0_shard0_i_m1536_n768_v7x_i32_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ValueMath

open Idealize.ShloMosaic Idealize.ShloMosaic.ValueIdx

/-- A block's payload at column `c`: the sum of the block's 1536 rows there. The three shape casts only rename the
    index (768 → 1×768 → 1×1×768 → the same), and the reduction over axis 0 from the zero word is the plain sum. -/
theorem pay1_apply (v : FVec Ideal S1536x768 .f32) (u0 u1 : Fin 1) (c : Fin 768) :
    Gen.k0_pay1 (F := Ideal) v (ix3 u0 u1 c) = ∑ r : Fin 1536, v (ix2 r c) := by
  unfold Gen.k0_pay1
  dsimp only
  rw [shapeCast_self]
  refine (shapeCast_ab_1ab_apply _ _ u0 u1 c).trans ?_
  refine (shapeCast_a_1a_apply _ _ u1 c).trans ?_
  refine (Ideal.multiReduction_add_single v 0x00000000#32 Gen.reduces_S1536x768_S768 (.inl rfl) rfl (ix1 c)).trans ?_
  exact Finset.sum_congr rfl fun r _ => congrArg v (funext fun a => Fin.ext (match a with | ⟨0, _⟩ => rfl | ⟨1, _⟩ => rfl))

/-- The gathered buffer's payload at column `c`: the sum of its 32 rows there. -/
theorem pay2_apply (g : FVec Ideal S32x1x768 .f32) (u : Fin 1) (c : Fin 768) :
    Gen.k0_pay2 (F := Ideal) g (ix2 u c) = ∑ d : Fin 32, g (ix3 d u c) := by
  unfold Gen.k0_pay2
  dsimp only
  refine (Ideal.multiReduction_add_single g 0x00000000#32 Gen.reduces_S32x1x768_S1x768 (.inl rfl) rfl (ix2 u c)).trans ?_
  exact Finset.sum_congr rfl fun d _ => congrArg g (funext fun a => Fin.ext (match a with | ⟨0, _⟩ => rfl | ⟨1, _⟩ => rfl | ⟨2, _⟩ => rfl))

/-- The rows of the whole array, numbered by (device, row of that device's block): row `1536·d + r`. -/
def rowEquiv : Fin 32 × Fin 1536 ≃ Fin 49152 where
  toFun p := ⟨p.1.val * 1536 + p.2.val, by have := p.1.isLt; have := p.2.isLt; omega⟩
  invFun k := (⟨k.val / 1536, by have := k.isLt; omega⟩, ⟨k.val % 1536, Nat.mod_lt _ (by decide)⟩)
  left_inv p := by
    have h1 := p.1.isLt
    have h2 := p.2.isLt
    refine Prod.ext (Fin.ext ?_) (Fin.ext ?_)
    · show (p.1.val * 1536 + p.2.val) / 1536 = p.1.val
      omega
    · show (p.1.val * 1536 + p.2.val) % 1536 = p.2.val
      omega
  right_inv k := Fin.ext (by
    show k.val / 1536 * 1536 + k.val % 1536 = k.val
    omega)

/-- A sum over all 49152 rows is the sum over the devices of the sums over each block's rows (sums in a
    commutative monoid: no finiteness is asked of the summands). -/
theorem sum_rows (f : Fin 49152 → EReal) :
    ∑ k : Fin 49152, f k = ∑ d : Fin 32, ∑ r : Fin 1536, f (rowEquiv (d, r)) := by
  rw [← Equiv.sum_comp rowEquiv f, Fintype.sum_prod_type]

/-- The column of an index of the gather buffer, as an index of a row. -/
theorem rowIx_ix3 (d : Fin 32) (u : Fin 1) (c : Fin 768) :
    Spec.rowIx (ix3 d u c) = ix3 (0 : Fin 1) (0 : Fin 1) c :=
  funext fun a => match a with | ⟨0, _⟩ => rfl | ⟨1, _⟩ => rfl | ⟨2, _⟩ => rfl

/-- The kernel's result at column `c`, from the devices' blocks: the double sum. -/
theorem resultFn_apply (xs : Dev nD → Vec Ideal S1536x768 .f32) (u : Fin 1) (c : Fin 768) :
    Spec.resultFn (F := Ideal) xs (ix2 u c) = ∑ d : Fin 32, ∑ r : Fin 1536, xs d (ix2 r c) := by
  unfold Spec.resultFn
  refine (pay2_apply _ u c).trans ?_
  refine Finset.sum_congr rfl fun d _ => ?_
  unfold Spec.gatherFn
  show Gen.k0_pay1 (F := Ideal) (xs d) (Spec.rowIx (ix3 d u c)) = _
  rw [rowIx_ix3]
  exact pay1_apply (xs d) 0 0 c

/-- The kernel's result, from the blocks of the whole array `X` the devices hold, is the reference's result on `X`. -/
theorem result_eq (X : (⟨Cert.ReferenceIdeal.S49152x768, .f32⟩ : BufTy).Contents (Elt Ideal)) :
    Cert.KernelIdeal.Spec.resultFn (F := Ideal) (fun d : Dev Cert.KernelIdeal.nD => Layout.block ⟨2, ![1536, 768]⟩ ⟨2, ![49152, 768]⟩ 0 32 d X)
      = Cert.ReferenceIdeal.Read.val_main_v1 (F := Ideal) X := by
  funext i
  obtain ⟨u, c, rfl⟩ : ∃ (u : Fin 1) (c : Fin 768), i = ix2 u c := ⟨i 0, i 1, eq_ix2 i⟩
  refine (resultFn_apply _ u c).trans ?_
  rw [Cert.ReferenceIdeal.Read.val_main_v1_apply, Cert.ReferenceIdeal.Read.val_main_v0_apply,
    Cert.ReferenceIdeal.Read.val_main_cst_apply]
  rw [show (FloatOps.ofBits (F := Ideal) .f32 0x00000000#32) = (0 : EReal) from Ideal.ofBits_zero_f32, zero_add, sum_rows]
  refine Finset.sum_congr rfl fun d _ => Finset.sum_congr rfl fun r _ => ?_
  exact congrArg X (funext fun a => Fin.ext (match a with | ⟨0, _⟩ => rfl | ⟨1, _⟩ => rfl))

/-- info: 'Cert.KernelIdeal.ValueMath.result_eq' depends on axioms: [propext, Classical.choice, Quot.sound] -/
#guard_msgs in #print axioms result_eq

end Cert.KernelIdeal.ValueMath

end
-- ==== Proof.lean ====
/-
  The all-gather sum on 32 devices against jnp.sum over the rows of the whole array.

  Each device sums its 1536 rows of x column by column, sends the row of sums to every other device and receives
  theirs, and sums the 32 rows: every device ends with the column sums of all 49152 rows, which is the reference's
  result, a sum being a sum in any grouping over the extended reals. The three frames: the kernel's run (at the word
  level and at the ideal instance) with its result dropped, and the reference's run. The idealization rewrote no
  operation, so there is nothing to preserve.
-/
import proofs.«901077_g7700000000001078_dist_sum_ax0_shard0_i_m1536_n768_v7x_i32_bf16_1_alg».proof.Defs
import proofs.«901077_g7700000000001078_dist_sum_ax0_shard0_i_m1536_n768_v7x_i32_bf16_1_alg».proof.Proof.Gen.Kernel
import proofs.«901077_g7700000000001078_dist_sum_ax0_shard0_i_m1536_n768_v7x_i32_bf16_1_alg».proof.Proof.Gen.KernelIdeal
import proofs.«901077_g7700000000001078_dist_sum_ax0_shard0_i_m1536_n768_v7x_i32_bf16_1_alg».proof.Proof.Gen.ReferenceIdeal
import proofs.«901077_g7700000000001078_dist_sum_ax0_shard0_i_m1536_n768_v7x_i32_bf16_1_alg».proof.Proof.Gen.Pre_finite_inputs_Kernel
import proofs.«901077_g7700000000001078_dist_sum_ax0_shard0_i_m1536_n768_v7x_i32_bf16_1_alg».proof.Proof.Gen.Pre_finite_inputs_ReferenceIdeal
import proofs.«901077_g7700000000001078_dist_sum_ax0_shard0_i_m1536_n768_v7x_i32_bf16_1_alg».proof.Proof.Gen.ReferenceIdeal.Run
import proofs.«901077_g7700000000001078_dist_sum_ax0_shard0_i_m1536_n768_v7x_i32_bf16_1_alg».proof.Proof.Gen.ReferenceIdeal.Read
import proofs.«901077_g7700000000001078_dist_sum_ax0_shard0_i_m1536_n768_v7x_i32_bf16_1_alg».proof.Proof.Body
import proofs.«901077_g7700000000001078_dist_sum_ax0_shard0_i_m1536_n768_v7x_i32_bf16_1_alg».proof.Proof.Launch
import proofs.«901077_g7700000000001078_dist_sum_ax0_shard0_i_m1536_n768_v7x_i32_bf16_1_alg».proof.Proof.Bits.Body
import proofs.«901077_g7700000000001078_dist_sum_ax0_shard0_i_m1536_n768_v7x_i32_bf16_1_alg».proof.Proof.Bits.Launch
import proofs.«901077_g7700000000001078_dist_sum_ax0_shard0_i_m1536_n768_v7x_i32_bf16_1_alg».proof.Proof.ValueMath
import Idealize.ShloMosaic.Adequacy
import Idealize.ShloMosaic.Init

noncomputable section

namespace Cert.Proof

open Idealize.ShloMosaic Idealize.SL.Sem

/-- The kernel's run at the ideal instance: every device ends with the sum of the 32 rows of column sums, its block of
    x unchanged. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Cert.KernelIdeal.P.outV m
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdeal.P.run_main_of (F := Ideal) m ρ (Cert.KernelIdeal.P.body_obligation m ρ)

/-- The same run at the word level. -/
theorem run_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_v1) = Cert.Kernel.P.outV m
      ∧ r.2.mem ((c.tc : Thread Cert.Kernel.nD Cert.Kernel.τ).loc Cert.Kernel.main_arg0) = m ((c.tc : Thread Cert.Kernel.nD Cert.Kernel.τ).loc Cert.Kernel.main_arg0)) :=
  Cert.Kernel.P.run_main_of (F := Bits) m ρ (Cert.Kernel.P.body_obligation m ρ)

theorem frame_p : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2) (run_bits m ρ)

theorem frame_pi : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2) (run_ideal m ρ)

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2) (Cert.ReferenceIdeal.Value.run (F := Ideal) m ρ)

/-- Both programs end with the column sums of the whole array: the kernel's 32 rows of per-device sums, summed, are the
    reference's one sum over all the rows, each device's block being its 1536 rows of the whole. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩) (run_ideal m ρ)
    have hx : Cert.KernelIdeal.P.xs m = fun d : Dev Cert.KernelIdeal.nD => Layout.block ⟨2, ![1536, 768]⟩ ⟨2, ![49152, 768]⟩ 0 32 d
        (m' (((0 : Dev Cert.ReferenceIdeal.nD).tc : Thread Cert.ReferenceIdeal.nD Cert.ReferenceIdeal.τ).loc Cert.ReferenceIdeal.main_arg0)) :=
      funext fun d => hagree d
    unfold Cert.KernelIdeal.P.outV
    rw [hx]
    exact Cert.KernelIdeal.ValueMath.result_eq _
  · refine (θ_run (Cert.ReferenceIdeal.defs (F := Ideal)) _ _).mono (fun _ h => ⟨(h 0).1.trans (Cert.ReferenceIdeal.Read.val_main_v1_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
